-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x256 : Shape := ⟨3, ![32, 32, 256]⟩
abbrev S32x8192x256 : Shape := ⟨3, ![32, 8192, 256]⟩
abbrev S32x8192 : Shape := ⟨2, ![32, 8192]⟩
abbrev S32 : Shape := ⟨1, ![32]⟩
abbrev S_ : Shape := ⟨0, ![]⟩

class Facts : Prop where
  bcast_S_S32x32x256 : S_.BroadcastsInDim S32x32x256 (![] : Fin 0 → Fin S32x32x256.rank)
  reducesTo_S32x32x256_S_d0_1_2 : S32x32x256.ReducesTo [0, 1, 2] S_
  h_S_ : 0 < S_.numel
  bcast_S_S32x8192x256 : S_.BroadcastsInDim S32x8192x256 (![] : Fin 0 → Fin S32x8192x256.rank)
  reducesTo_S32x8192x256_S_d0_1_2 : S32x8192x256.ReducesTo [0, 1, 2] S_
  bcast_S_S32x8192 : S_.BroadcastsInDim S32x8192 (![] : Fin 0 → Fin S32x8192.rank)
  reducesTo_S32x8192_S_d0_1 : S32x8192.ReducesTo [0, 1] S_

variable [Facts]

def fn_part1 {F : FTy → Type} [FloatOps F] (main_v8 : IVec S_ 1) (main_v16 : IVec S32x8192 1) : IVec S_ 1 :=
  let main_c_5 : IVec S_ 1 := constantI S_ 1 1#1
  let main_v17 : IVec S_ 1 := (fun x v => Host.reduce IntOp.andi x v reducesTo_S32x8192_S_d0_1 h_S_) main_v16 main_c_5
  let main_v18 : IVec S_ 1 := andi main_v8 main_v17
  main_v18

def fn {F : FTy → Type} [FloatOps F] (main_arg0 : FVec F S32x32x256 .f32) (main_arg1 : FVec F S32x8192x256 .f32) (main_arg2 : IVec S32x8192 32) (main_arg3 : IVec S32 32) : IVec S_ 1 :=
  let main_v0 : FVec F S32x32x256 .f32 := Host.absf main_arg0
  let main_cst : FVec F S_ .f32 := constant S_ .f32 0x7F800000#32
  let main_v1 : FVec F S32x32x256 .f32 := broadcastInDim S32x32x256 ![] bcast_S_S32x32x256 main_cst
  let main_v2 : IVec S32x32x256 1 := cmpf .olt main_v0 main_v1
  let main_c : IVec S_ 1 := constantI S_ 1 1#1
  let main_v3 : IVec S_ 1 := (fun x v => Host.reduce IntOp.andi x v reducesTo_S32x32x256_S_d0_1_2 h_S_) main_v2 main_c
  let main_v4 : FVec F S32x8192x256 .f32 := Host.absf main_arg1
  let main_cst_0 : FVec F S_ .f32 := constant S_ .f32 0x7F800000#32
  let main_v5 : FVec F S32x8192x256 .f32 := broadcastInDim S32x8192x256 ![] bcast_S_S32x8192x256 main_cst_0
  let main_v6 : IVec S32x8192x256 1 := cmpf .olt main_v4 main_v5
  let main_c_1 : IVec S_ 1 := constantI S_ 1 1#1
  let main_v7 : IVec S_ 1 := (fun x v => Host.reduce IntOp.andi x v reducesTo_S32x8192x256_S_d0_1_2 h_S_) main_v6 main_c_1
  let main_v8 : IVec S_ 1 := andi main_v3 main_v7
  let main_c_2 : IVec S_ 32 := constantI S_ 32 4294967295#32
  let main_v9 : IVec S32x8192 32 := broadcastInDim S32x8192 ![] bcast_S_S32x8192 main_c_2
  let main_v10 : IVec S32x8192 1 := cmpi .eq main_arg2 main_v9
  let main_c_3 : IVec S_ 32 := constantI S_ 32 1#32
  let main_v11 : IVec S32x8192 32 := broadcastInDim S32x8192 ![] bcast_S_S32x8192 main_c_3
  let main_v12 : IVec S32x8192 1 := cmpi .sge main_arg2 main_v11
  let main_c_4 : IVec S_ 32 := constantI S_ 32 32#32
  let main_v13 : IVec S32x8192 32 := broadcastInDim S32x8192 ![] bcast_S_S32x8192 main_c_4
  let main_v14 : IVec S32x8192 1 := cmpi .sle main_arg2 main_v13
  let main_v15 : IVec S32x8192 1 := andi main_v12 main_v14
  let main_v16 : IVec S32x8192 1 := ori main_v10 main_v15
  fn_part1 (F := F) main_v8 main_v16
-- ==== Kernel.lean ====
abbrev S32x32x256 : Shape := ⟨3, ![32, 32, 256]⟩
abbrev S32x8192x256 : Shape := ⟨3, ![32, 8192, 256]⟩
abbrev S32x8192 : Shape := ⟨2, ![32, 8192]⟩
abbrev S32 : Shape := ⟨1, ![32]⟩
abbrev S32x1 : Shape := ⟨2, ![32, 1]⟩
abbrev S16x32x256 : Shape := ⟨3, ![16, 32, 256]⟩
abbrev S16x1024x256 : Shape := ⟨3, ![16, 1024, 256]⟩
abbrev S16x1024 : Shape := ⟨2, ![16, 1024]⟩
abbrev S16x1 : Shape := ⟨2, ![16, 1]⟩
abbrev S16x32x32 : Shape := ⟨3, ![16, 32, 32]⟩
abbrev S16x32 : Shape := ⟨2, ![16, 32]⟩
abbrev S16 : Shape := ⟨1, ![16]⟩
abbrev S16x512x256 : Shape := ⟨3, ![16, 512, 256]⟩
abbrev S16x32x512 : Shape := ⟨3, ![16, 32, 512]⟩
abbrev S16x512 : Shape := ⟨2, ![16, 512]⟩
abbrev S16x1x512 : Shape := ⟨3, ![16, 1, 512]⟩
abbrev S_ : Shape := ⟨0, ![]⟩

abbrev nBuf : Space → Nat
  | .hbm => 25
  | .vmem => 13
  | .smem => 0
  | _ => 0

abbrev bufTy : (tb : Table) → Fin (tcTables nBuf tb) → BufTy
  | .hbm, ⟨0, _⟩ => ⟨S32x32x256, .f32⟩
  | .hbm, ⟨1, _⟩ => ⟨S32x8192x256, .f32⟩
  | .hbm, ⟨2, _⟩ => ⟨S32x8192, .i32⟩
  | .hbm, ⟨3, _⟩ => ⟨S32, .i32⟩
  | .hbm, ⟨4, _⟩ => ⟨S32x1, .f32⟩
  | .hbm, ⟨5, _⟩ => ⟨S32x1, .f32⟩
  | .hbm, ⟨6, _⟩ => ⟨S32x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S16x32x256, .f32⟩
  | .local _ .vmem, ⟨1, _⟩ => ⟨S16x32x256, .f32⟩
  | .local _ .vmem, ⟨2, _⟩ => ⟨S16x1024x256, .f32⟩
  | .local _ .vmem, ⟨3, _⟩ => ⟨S16x1024x256, .f32⟩
  | .local _ .vmem, ⟨4, _⟩ => ⟨S16x1024, .i32⟩
  | .local _ .vmem, ⟨5, _⟩ => ⟨S16x1024, .i32⟩
  | .local _ .vmem, ⟨6, _⟩ => ⟨S16x1, .f32⟩
  | .local _ .vmem, ⟨7, _⟩ => ⟨S16x1, .f32⟩
  | .local _ .vmem, ⟨8, _⟩ => ⟨S16x1, .f32⟩
  | .local _ .vmem, ⟨9, _⟩ => ⟨S16x1, .f32⟩
  | .local _ .vmem, ⟨10, _⟩ => ⟨S16x1, .f32⟩
  | .local _ .vmem, ⟨11, _⟩ => ⟨S16x1, .f32⟩
  | .local _ .vmem, ⟨12, _⟩ => ⟨S16x1, .f32⟩
  | _, _ => ⟨S32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_cst_5 : Ref sig .tc := ⟨.hbm, 20, rfl⟩
abbrev main_v8 : Ref sig .tc := ⟨.hbm, 21, rfl⟩
abbrev main_cst_6 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_mult1 : BitVec 32 :=
  let c0_i32_4 : BitVec 32 := 0#32
  let c512_i32 : BitVec 32 := 512#32
  let v8 : BitVec 32 := Scalar.muli c0_i32_4 c512_i32
  v8
def k0_off1 (c0_i32_4 : BitVec 32) : Fin 3 → Nat :=
  let c0_5 : Index := 0#32
  let c512_i32 : BitVec 32 := 512#32
  let v8 : BitVec 32 := Scalar.muli c0_i32_4 c512_i32
  let v9 : BitVec 32 := v8
  let v10 : Index := Scalar.indexCast v9
  let c0_6 : Index := 0#32
  ![0, v10.toNat, 0]
def k0_off2 (c0_i32_4 : BitVec 32) : Fin 2 → Nat :=
  let c0_10 : Index := 0#32
  let c512_i32 : BitVec 32 := 512#32
  let v8 : BitVec 32 := Scalar.muli c0_i32_4 c512_i32
  let v9 : BitVec 32 := v8
  let v21 : Index := Scalar.indexCast v9
  ![0, v21.toNat]
def k0_mult2 : BitVec 32 :=
  let c1_i32_15 : BitVec 32 := 1#32
  let c512_i32_16 : BitVec 32 := 512#32
  let v43 : BitVec 32 := Scalar.muli c1_i32_15 c512_i32_16
  v43
def k0_cond2 (i : grid0.Coords) : BitVec 1 :=
  let arg1 : BitVec 32 := BitVec.ofNat 32 (i 1).val
  let c7_i32 : BitVec 32 := 7#32
  let v83 : BitVec 1 := Scalar.cmpi .eq arg1 c7_i32
  let v84 : BitVec 32 := Scalar.extui v83
  let c0_i32_34 : BitVec 32 := 0#32
  let v85 : BitVec 1 := Scalar.cmpi .ne v84 c0_i32_34
  v85

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_2 : BitVec 32 := 0#32
  let v6 : BitVec 1 := Scalar.cmpi .ne v5 c0_i32_2
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S16x32x256_S16x32x256_0_0_0 : ∀ a, (![0, 0, 0] : Fin 3 → Nat) a + S16x32x256.size a ≤ S16x32x256.size a
  h_S16x32x256 : 0 < S16x32x256.numel
  bitsLt_bf16_f32 : FTy.bits .bf16 < FTy.bits .f32
  inb_S16x1_S16x1_0_0 : ∀ a, (![0, 0] : Fin 2 → Nat) a + S16x1.size a ≤ S16x1.size a
  h_S16x1 : 0 < S16x1.numel
  shapeCasts_S16x1_S16x1 : S16x1.ShapeCasts S16x1
  iota_S16x32x32_d1_w32 : S16x32x32.Iotas .tc 32 [1]
  iota_S16x32x32_d2_w32 : S16x32x32.Iotas .tc 32 [2]
  natLt_1_32 : 1 < 32
  reduces_S16x32x32_S16x32 : S16x32x32.Reduces [2] S16x32
  reduces_S16x32_S16 : S16x32.Reduces [1] S16
  shapeCasts_S16_S16x1 : S16.ShapeCasts S16x1
  h_S16x512x256 : 0 < S16x512x256.numel
  reduces_S16x32x512_S16x512 : S16x32x512.Reduces [1] S16x512
  shapeCasts_S16x512_S16x1x512 : S16x512.ShapeCasts S16x1x512
  broadcasts_S16x1x512_S16x32x512 : S16x1x512.Broadcasts S16x32x512
  h_S16x512 : 0 < S16x512.numel
  iota_S16x32x512_d1_w32 : S16x32x512.Iotas .tc 32 [1]
  shapeCasts_S16x1x512_S16x512 : S16x1x512.ShapeCasts S16x512
  reduces_S16x512_S16 : S16x512.Reduces [1] S16
  reducesTo_S32x1_S_d0_1 : S32x1.ReducesTo [0, 1] S_
  h_S_ : 0 < S_.numel
  dot_S16x32x256_S16x32x256_S16x32x32_2_2_1_1_0_0_wf : DotDims.WF S16x32x256 S16x32x256 S16x32x32 [2] [2] [1] [1] [0] [0]
  dot_S16x32x256_S16x512x256_S16x32x512_2_2_1_1_0_0_wf : DotDims.WF S16x32x256 S16x512x256 S16x32x512 [2] [2] [1] [1] [0] [0]
  hrank0 : 0 < grid0.rank
  k0_mult1_dvd : 512 ∣ k0_mult1.toNat
  k0_off1_inb : ∀ (r : Fin 2), ∀ a, (k0_off1 (BitVec.ofNat 32 r.val)) a + S16x512x256.size a ≤ S16x1024x256.size a
  k0_off2_inb : ∀ (r : Fin 2), ∀ a, (k0_off2 (BitVec.ofNat 32 r.val)) a + S16x512.size a ≤ S16x1024.size a
  k0_mult2_dvd : 512 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x256.size a ≤ S32x32x256.size a
  hwx0_0 : ∀ i : grid0.Coords, EltTy.bits .f32 = 32 ∨ (Rect.block (s := S32x32x256) S16x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024x256.size a ≤ S32x8192x256.size a
  hwx0_1 : ∀ i : grid0.Coords, EltTy.bits .f32 = 32 ∨ (Rect.block (s := S32x8192x256) S16x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S32x8192.size a
  hwx0_2 : ∀ i : grid0.Coords, EltTy.bits .i32 = 32 ∨ (Rect.block (s := S32x8192) S16x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S32x1.size a
  hwx0_3 : ∀ i : grid0.Coords, EltTy.bits .f32 = 32 ∨ (Rect.block (s := S32x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S32x1.size a
  hwx0_4 : ∀ i : grid0.Coords, EltTy.bits .f32 = 32 ∨ (Rect.block (s := S32x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S32x1.size a
  hwx0_5 : ∀ i : grid0.Coords, EltTy.bits .f32 = 32 ∨ (Rect.block (s := S32x1) S16x1.size (cc0_transform_5 i) (hinb0_5 i)).WholeWords (EltTy.packing .f32)

variable [Facts₀]

def dot_S16x32x256_S16x32x256_S16x32x32_2_2_1_1_0_0 : DotDims S16x32x256 S16x32x256 S16x32x32 where
  lhsContracting := [2]
  rhsContracting := [2]
  lhsNonContracting := [1]
  rhsNonContracting := [1]
  lhsBatch := [0]
  rhsBatch := [0]
  wf := dot_S16x32x256_S16x32x256_S16x32x32_2_2_1_1_0_0_wf
def dot_S16x32x256_S16x512x256_S16x32x512_2_2_1_1_0_0 : DotDims S16x32x256 S16x512x256 S16x32x512 where
  lhsContracting := [2]
  rhsContracting := [2]
  lhsNonContracting := [1]
  rhsNonContracting := [1]
  lhsBatch := [0]
  rhsBatch := [0]
  wf := dot_S16x32x256_S16x512x256_S16x32x512_2_2_1_1_0_0_wf

abbrev win0_0 : Pipeline.Window sig grid0 :=
  Pipeline.Window.ofSpec (Memref.whole main_arg0) S16x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S16x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S16x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S16x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond1 i == 1#1) | 5 => fun i => !(k0_cond1 i == 1#1) | ⟨_ + 6, h⟩ => absurd h (Nat.not_lt.2 (Nat.le_add_left _ _))

class Facts : Prop extends Facts₀ where

variable [Facts]
-- ==== ReferenceIdeal.lean ====
abbrev S32x32x256 : Shape := ⟨3, ![32, 32, 256]⟩
abbrev S32x8192x256 : Shape := ⟨3, ![32, 8192, 256]⟩
abbrev S32x8192 : Shape := ⟨2, ![32, 8192]⟩
abbrev S32 : Shape := ⟨1, ![32]⟩
abbrev S_ : Shape := ⟨0, ![]⟩
abbrev S32x32x8192 : Shape := ⟨3, ![32, 32, 8192]⟩
abbrev S32x1x8192 : Shape := ⟨3, ![32, 1, 8192]⟩
abbrev S32x1x8192x1 : Shape := ⟨4, ![32, 1, 8192, 1]⟩
abbrev S1 : Shape := ⟨1, ![1]⟩
abbrev S1x1x1x1 : Shape := ⟨4, ![1, 1, 1, 1]⟩
abbrev S32x32x32 : Shape := ⟨3, ![32, 32, 32]⟩
abbrev S32x32 : Shape := ⟨2, ![32, 32]⟩
abbrev S1x32x32 : Shape := ⟨3, ![1, 32, 32]⟩
abbrev S32x1 : Shape := ⟨2, ![32, 1]⟩
abbrev S32x2 : Shape := ⟨2, ![32, 2]⟩

abbrev nBuf : Space → Nat
  | .hbm => 136
  | .vmem => 0
  | .smem => 0
  | _ => 0

abbrev hbmTy0_0 (i : Nat) : BufTy := match i % 128 with
  | 0 => ⟨S32x32x256, .f32⟩
  | 1 => ⟨S32x8192x256, .f32⟩
  | 2 => ⟨S32x8192, .i32⟩
  | 3 => ⟨S32, .i32⟩
  | 4 => ⟨S_, .i32⟩
  | 5 => ⟨S32x8192, .i32⟩
  | 6 => ⟨S32x8192, .i1⟩
  | 7 => ⟨S_, .i32⟩
  | 8 => ⟨S_, .i32⟩
  | 9 => ⟨S32x8192, .i32⟩
  | 10 => ⟨S32x8192, .i32⟩
  | 11 => ⟨S_, .i32⟩
  | 12 => ⟨S32x8192, .i32⟩
  | 13 => ⟨S32x8192, .i32⟩
  | 14 => ⟨S32x32x8192, .f32⟩
  | 15 => ⟨S_, .f32⟩
  | 16 => ⟨S32x32x8192, .f32⟩
  | 17 => ⟨S32x32x8192, .f32⟩
  | 18 => ⟨S_, .f32⟩
  | 19 => ⟨S32x8192, .f32⟩
  | 20 => ⟨S_, .f32⟩
  | 21 => ⟨S32x8192, .f32⟩
  | 22 => ⟨S32x8192, .f32⟩
  | 23 => ⟨S32x1x8192, .f32⟩
  | 24 => ⟨S32x32x8192, .f32⟩
  | 25 => ⟨S32x32x8192, .f32⟩
  | 26 => ⟨S32x32x8192, .f32⟩
  | 27 => ⟨S_, .f32⟩
  | 28 => ⟨S32x8192, .f32⟩
  | 29 => ⟨S32x1x8192, .f32⟩
  | 30 => ⟨S32x32x8192, .f32⟩
  | 31 => ⟨S32x32x8192, .f32⟩
  | 32 => ⟨S32x1x8192, .i32⟩
  | 33 => ⟨S_, .i32⟩
  | 34 => ⟨S32x1x8192, .i32⟩
  | 35 => ⟨S32x1x8192, .i1⟩
  | 36 => ⟨S_, .i32⟩
  | 37 => ⟨S32x1x8192, .i32⟩
  | 38 => ⟨S32x1x8192, .i32⟩
  | 39 => ⟨S32x1x8192, .i32⟩
  | 40 => ⟨S32x1x8192x1, .i32⟩
  | 41 => ⟨S1, .i32⟩
  | 42 => ⟨S_, .i32⟩
  | 43 => ⟨S32x1x8192x1, .i32⟩
  | 44 => ⟨S32x1x8192x1, .i1⟩
  | 45 => ⟨S1x1x1x1, .i32⟩
  | 46 => ⟨S32x1x8192x1, .i32⟩
  | 47 => ⟨S32x1x8192x1, .i1⟩
  | 48 => ⟨S32x1x8192x1, .i1⟩
  | 49 => ⟨S_, .i1⟩
  | 50 => ⟨S32x1x8192, .i1⟩
  | 51 => ⟨S32x1x8192, .f32⟩
  | 52 => ⟨S_, .f32⟩
  | 53 => ⟨S32x1x8192, .f32⟩
  | 54 => ⟨S32x1x8192, .f32⟩
  | 55 => ⟨S32x8192, .f32⟩
  | 56 => ⟨S_, .f32⟩
  | 57 => ⟨S32x8192, .f32⟩
  | 58 => ⟨S32x8192, .f32⟩
  | 59 => ⟨S_, .f32⟩
  | 60 => ⟨S32, .f32⟩
  | 61 => ⟨S_, .f32⟩
  | 62 => ⟨S32, .f32⟩
  | 63 => ⟨S32, .f32⟩
  | 64 => ⟨S_, .f32⟩
  | 65 => ⟨S_, .f32⟩
  | 66 => ⟨S_, .f32⟩
  | 67 => ⟨S_, .f32⟩
  | 68 => ⟨S32x32x32, .f32⟩
  | 69 => ⟨S32x32, .i32⟩
  | 70 => ⟨S32x32, .i32⟩
  | 71 => ⟨S_, .i32⟩
  | 72 => ⟨S32x32, .i32⟩
  | 73 => ⟨S32x32, .i32⟩
  | 74 => ⟨S32x32, .i1⟩
  | 75 => ⟨S32x32, .f32⟩
  | 76 => ⟨S32x32x32, .f32⟩
  | 77 => ⟨S_, .f32⟩
  | 78 => ⟨S32x32, .f32⟩
  | 79 => ⟨S32x32, .f32⟩
  | 80 => ⟨S1x32x32, .f32⟩
  | 81 => ⟨S32x32x32, .f32⟩
  | 82 => ⟨S32x32x32, .f32⟩
  | 83 => ⟨S_, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S_, .f32⟩
  | 93 => ⟨S_, .f32⟩
  | 94 => ⟨S_, .f32⟩
  | 95 => ⟨S32, .i32⟩
  | 96 => ⟨S32, .i32⟩
  | 97 => ⟨S_, .i32⟩
  | 98 => ⟨S32, .i32⟩
  | 99 => ⟨S32, .i1⟩
  | 100 => ⟨S_, .i32⟩
  | 101 => ⟨S32, .i32⟩
  | 102 => ⟨S32, .i32⟩
  | 103 => ⟨S32, .i32⟩
  | 104 => ⟨S_, .i32⟩
  | 105 => ⟨S32, .i32⟩
  | 106 => ⟨S32, .i1⟩
  | 107 => ⟨S_, .i32⟩
  | 108 => ⟨S32, .i32⟩
  | 109 => ⟨S32, .i32⟩
  | 110 => ⟨S32, .i32⟩
  | 111 => ⟨S32x1, .i32⟩
  | 112 => ⟨S32x1, .i32⟩
  | 113 => ⟨S32x2, .i32⟩
  | 114 => ⟨S32x32, .f32⟩
  | 115 => ⟨S_, .f32⟩
  | 116 => ⟨S32x32, .f32⟩
  | 117 => ⟨S32x32, .f32⟩
  | 118 => ⟨S_, .f32⟩
  | 119 => ⟨S32x32, .f32⟩
  | 120 => ⟨S32x32, .f32⟩
  | 121 => ⟨S_, .f32⟩
  | 122 => ⟨S32, .f32⟩
  | 123 => ⟨S_, .f32⟩
  | 124 => ⟨S32, .f32⟩
  | 125 => ⟨S32, .f32⟩
  | 126 => ⟨S_, .f32⟩
  | 127 => ⟨S_, .f32⟩
  | _ => ⟨S32x32x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S32x32x256, .f32⟩

abbrev hbmTy (i : Nat) : BufTy := match i / 128 with
  | 0 => hbmTy0_0 i
  | 1 => hbmTy0_1 i
  | _ => ⟨S32x32x256, .f32⟩

abbrev bufTy : (tb : Table) → Fin (tcTables nBuf tb) → BufTy
  | .hbm, ⟨i, _⟩ => hbmTy i
  | _, _ => ⟨S32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v20 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩
abbrev main_v23 : Ref sig .tc := ⟨.hbm, 58, rfl⟩
abbrev main_cst_6 : Ref sig .tc := ⟨.hbm, 59, rfl⟩
abbrev main_v24 : Ref sig .tc := ⟨.hbm, 60, rfl⟩
abbrev main_cst_7 : Ref sig .tc := ⟨.hbm, 61, rfl⟩
abbrev main_v25 : Ref sig .tc := ⟨.hbm, 62, rfl⟩
abbrev main_v26 : Ref sig .tc := ⟨.hbm, 63, rfl⟩
abbrev main_cst_8 : Ref sig .tc := ⟨.hbm, 64, rfl⟩
abbrev main_v27 : Ref sig .tc := ⟨.hbm, 65, rfl⟩
abbrev main_cst_9 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_10 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_11 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_12 : Ref sig .tc := ⟨.hbm, 83, rfl⟩
abbrev main_v42 : Ref sig .tc := ⟨.hbm, 84, rfl⟩
abbrev main_cst_13 : Ref sig .tc := ⟨.hbm, 85, rfl⟩
abbrev main_v43 : Ref sig .tc := ⟨.hbm, 86, rfl⟩
abbrev main_v44 : Ref sig .tc := ⟨.hbm, 87, rfl⟩
abbrev main_cst_14 : Ref sig .tc := ⟨.hbm, 88, rfl⟩
abbrev main_v45 : Ref sig .tc := ⟨.hbm, 89, rfl⟩
abbrev main_v46 : Ref sig .tc := ⟨.hbm, 90, rfl⟩
abbrev main_cst_15 : Ref sig .tc := ⟨.hbm, 91, rfl⟩
abbrev main_v47 : Ref sig .tc := ⟨.hbm, 92, rfl⟩
abbrev main_cst_16 : Ref sig .tc := ⟨.hbm, 93, rfl⟩
abbrev main_v48 : Ref sig .tc := ⟨.hbm, 94, rfl⟩
abbrev main_call2_v0 : Ref sig .tc := ⟨.hbm, 95, rfl⟩
abbrev main_call2_v1 : Ref sig .tc := ⟨.hbm, 96, rfl⟩
abbrev main_call2_c : Ref sig .tc := ⟨.hbm, 97, rfl⟩
abbrev main_call2_v2 : Ref sig .tc := ⟨.hbm, 98, rfl⟩
abbrev main_call2_v3 : Ref sig .tc := ⟨.hbm, 99, rfl⟩
abbrev main_call2_c_0 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_c_1 : Ref sig .tc := ⟨.hbm, 104, rfl⟩
abbrev main_call2_v7 : Ref sig .tc := ⟨.hbm, 105, rfl⟩
abbrev main_call2_v8 : Ref sig .tc := ⟨.hbm, 106, rfl⟩
abbrev main_call2_c_2 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_v49 : Ref sig .tc := ⟨.hbm, 114, rfl⟩
abbrev main_cst_17 : Ref sig .tc := ⟨.hbm, 115, rfl⟩
abbrev main_v50 : Ref sig .tc := ⟨.hbm, 116, rfl⟩
abbrev main_v51 : Ref sig .tc := ⟨.hbm, 117, rfl⟩
abbrev main_cst_18 : Ref sig .tc := ⟨.hbm, 118, rfl⟩
abbrev main_v52 : Ref sig .tc := ⟨.hbm, 119, rfl⟩
abbrev main_v53 : Ref sig .tc := ⟨.hbm, 120, rfl⟩
abbrev main_cst_19 : Ref sig .tc := ⟨.hbm, 121, rfl⟩
abbrev main_v54 : Ref sig .tc := ⟨.hbm, 122, rfl⟩
abbrev main_cst_20 : Ref sig .tc := ⟨.hbm, 123, rfl⟩
abbrev main_v55 : Ref sig .tc := ⟨.hbm, 124, rfl⟩
abbrev main_v56 : Ref sig .tc := ⟨.hbm, 125, rfl⟩
abbrev main_cst_21 : Ref sig .tc := ⟨.hbm, 126, rfl⟩
abbrev main_v57 : Ref sig .tc := ⟨.hbm, 127, rfl⟩
abbrev main_cst_22 : Ref sig .tc := ⟨.hbm, 128, rfl⟩
abbrev main_v58 : Ref sig .tc := ⟨.hbm, 129, rfl⟩
abbrev main_cst_23 : Ref sig .tc := ⟨.hbm, 130, rfl⟩
abbrev main_v59 : Ref sig .tc := ⟨.hbm, 131, rfl⟩
abbrev main_v60 : Ref sig .tc := ⟨.hbm, 132, rfl⟩
abbrev main_cst_24 : Ref sig .tc := ⟨.hbm, 133, rfl⟩
abbrev main_v61 : Ref sig .tc := ⟨.hbm, 134, rfl⟩
abbrev main_v62 : Ref sig .tc := ⟨.hbm, 135, rfl⟩

abbrev nD : Nat := 1
abbrev τ : Topo := Topo.v7x

variable {F : FTy → Type} [FloatOps F]

class Facts₀ : Prop where
  bcast_S_S32x8192 : S_.BroadcastsInDim S32x8192 (![] : Fin 0 → Fin S32x8192.rank)
  bcast_S_S32x32x8192 : S_.BroadcastsInDim S32x32x8192 (![] : Fin 0 → Fin S32x32x8192.rank)
  reducesTo_S32x32x8192_S32x8192_d1 : S32x32x8192.ReducesTo [1] S32x8192
  h_S_ : 0 < S_.numel
  bcast_S32x8192_S32x1x8192_0_2 : S32x8192.BroadcastsInDim S32x1x8192 (![0, 2] : Fin 2 → Fin S32x1x8192.rank)
  bcast_S32x1x8192_S32x32x8192_0_1_2 : S32x1x8192.BroadcastsInDim S32x32x8192 (![0, 1, 2] : Fin 3 → Fin S32x32x8192.rank)
  bcast_S_S32x1x8192 : S_.BroadcastsInDim S32x1x8192 (![] : Fin 0 → Fin S32x1x8192.rank)
  shapeCasts_S32x1x8192_S32x1x8192x1 : S32x1x8192.ShapeCasts S32x1x8192x1
  bcast_S_S32x1x8192x1 : S_.BroadcastsInDim S32x1x8192x1 (![] : Fin 0 → Fin S32x1x8192x1.rank)
  bcast_S1_S1x1x1x1_3 : S1.BroadcastsInDim S1x1x1x1 (![3] : Fin 1 → Fin S1x1x1x1.rank)
  bcast_S1x1x1x1_S32x1x8192x1_0_1_2_3 : S1x1x1x1.BroadcastsInDim S32x1x8192x1 (![0, 1, 2, 3] : Fin 4 → Fin S32x1x8192x1.rank)
  reducesTo_S32x1x8192x1_S32x1x8192_d3 : S32x1x8192x1.ReducesTo [3] S32x1x8192
  shapeCasts_S32x1x8192_S32x8192 : S32x1x8192.ShapeCasts S32x8192
  reducesTo_S32x8192_S32_d1 : S32x8192.ReducesTo [1] S32
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S32x32x32_0_1_2 : S1x32x32.BroadcastsInDim S32x32x32 (![0, 1, 2] : Fin 3 → Fin S32x32x32.rank)
  reducesTo_S32x32x32_S32_d1_2 : S32x32x32.ReducesTo [1, 2] S32
  bcast_S32_S32x1_0 : S32.BroadcastsInDim S32x1 (![0] : Fin 1 → Fin S32x1.rank)
  concatenates_S32x1_S32x1_S32x2_d1 : Shape.Concatenates [S32x1, S32x1] S32x2 1
  reducesTo_S32x32_S32_d1 : S32x32.ReducesTo [1] S32
  dot_S32x32x256_S32x8192x256_S32x32x8192_2_2_1_1_0_0_wf : DotDims.WF S32x32x256 S32x8192x256 S32x32x8192 [2] [2] [1] [1] [0] [0]
  gather_S32x32x8192_S32x1x8192x1_S32x1x8192_n_1_02_02_1_3_111_wf : GatherDims.WF S32x32x8192 S32x1x8192x1 S32x1x8192 [] [1] [0, 2] [1] [0, 2] 3 ![1, 1, 1]
  dot_S32x32x256_S32x32x256_S32x32x32_2_2_1_1_0_0_wf : DotDims.WF S32x32x256 S32x32x256 S32x32x32 [2] [2] [1] [1] [0] [0]
  gather_S32x32x32_S32x2_S32x32_0_12_n_n_12_1_3211_wf : GatherDims.WF S32x32x32 S32x2 S32x32 [0] [1, 2] [] [1, 2] [] 1 ![32, 1, 1]

variable [Facts₀]

def dot_S32x32x256_S32x8192x256_S32x32x8192_2_2_1_1_0_0 : DotDims S32x32x256 S32x8192x256 S32x32x8192 where
  lhsContracting := [2]
  rhsContracting := [2]
  lhsNonContracting := [1]
  rhsNonContracting := [1]
  lhsBatch := [0]
  rhsBatch := [0]
  wf := dot_S32x32x256_S32x8192x256_S32x32x8192_2_2_1_1_0_0_wf
def gather_S32x32x8192_S32x1x8192x1_S32x1x8192_n_1_02_02_1_3_111 : GatherDims S32x32x8192 S32x1x8192x1 S32x1x8192 where
  offsetDims := []
  collapsedSliceDims := [1]
  operandBatchingDims := [0, 2]
  startIndicesBatchingDims := [0, 2]
  startIndexMap := [1]
  indexVectorDim := 3
  sliceSizes := ![1, 1, 1]
  wf := gather_S32x32x8192_S32x1x8192x1_S32x1x8192_n_1_02_02_1_3_111_wf
def dot_S32x32x256_S32x32x256_S32x32x32_2_2_1_1_0_0 : DotDims S32x32x256 S32x32x256 S32x32x32 where
  lhsContracting := [2]
  rhsContracting := [2]
  lhsNonContracting := [1]
  rhsNonContracting := [1]
  lhsBatch := [0]
  rhsBatch := [0]
  wf := dot_S32x32x256_S32x32x256_S32x32x32_2_2_1_1_0_0_wf
def gather_S32x32x32_S32x2_S32x32_0_12_n_n_12_1_3211 : GatherDims S32x32x32 S32x2 S32x32 where
  offsetDims := [0]
  collapsedSliceDims := [1, 2]
  operandBatchingDims := []
  startIndicesBatchingDims := []
  startIndexMap := [1, 2]
  indexVectorDim := 1
  sliceSizes := ![32, 1, 1]
  wf := gather_S32x32x32_S32x2_S32x32_0_12_n_n_12_1_3211_wf

class Facts : Prop extends Facts₀ where

variable [Facts]
-- ==== Proof.BodyBits.lean ====
/-
  The frame of the program around its one pipelined region, by hand: the body's run in each of the three cases of
  its two conditionals, what the three output buffers and the carried accumulator hold after each grid point, the
  proof data, the body obligation, the run and the frame claim.

  The grid is 2 × 8; a point `t` is in case A when `t % 8 = 0` (the accumulator is reset and the two Gram outputs
  are stored), in case C when `t % 8 = 7` (the contrastive output is stored from the accumulator), else in case B.
  The contrastive output's buffer is untouched in cases A and B and the Gram outputs' buffers in cases B and C; all
  three are written back at the points of case C, where the Gram outputs' buffers still hold what the point of
  case A seven points before stored.
-/
import proofs.«430811_j35107062677773_3_alg».proof.Proof.Gen.Kernel.Skeleton
import proofs.«430811_j35107062677773_3_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, over the grid -/

/-- The first conditional is taken at the first point of each batch half. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second at the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where each window is idle and where it is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idle0_3 : ∀ t : Fin cfg0.N, cfg0.idle 3 (grid0.coords t) = true ↔ ¬t.val % 8 = 7 := by decide +kernel
theorem idle0_4 : ∀ t : Fin cfg0.N, cfg0.idle 4 (grid0.coords t) = true ↔ ¬t.val % 8 = 0 := by decide +kernel
theorem idle0_5 : ∀ t : Fin cfg0.N, cfg0.idle 5 (grid0.coords t) = true ↔ ¬t.val % 8 = 0 := by decide +kernel

/-! ## The staging memrefs at a point, the scratch, and views to state contents through -/

abbrev ms0_0 (t : Fin cfg0.N) : Memref sig .tc .vmem S16x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S16x1 .f32 := Memref.whole cc0_scratch0
abbrev VS0_0 : View sig .tc .vmem S16x1 .f32 := scM0_0.view
/-- One staging buffer of each output window, through which its contents are stated (the choice does not matter). -/
abbrev VO0_3 : View sig .tc .vmem S16x1 .f32 := (Memref.whole cc0_stg3_0 : Memref sig .tc .vmem S16x1 .f32).view
abbrev VO0_4 : View sig .tc .vmem S16x1 .f32 := (Memref.whole cc0_stg4_0 : Memref sig .tc .vmem S16x1 .f32).view
abbrev VO0_5 : View sig .tc .vmem S16x1 .f32 := (Memref.whole cc0_stg5_0 : Memref sig .tc .vmem S16x1 .f32).view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's run, case by case -/

set_option maxHeartbeats 1000000 in
/-- Case A: both Gram outputs and the accumulator end with the pieces the run finds; the contrastive output's buffer is
    handed back as it came. -/
noncomputable def kernelRun0_A (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) :
    Σ' (L4 : List (View.Piece (Elt F) S16x1 .f32)) (L5 : List (View.Piece (Elt F) S16x1 .f32)), { LS0 : List (View.Piece (Elt F) S16x1 .f32) //
      ∀ (xi3 : Vec F S16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun xi3 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

set_option maxHeartbeats 1000000 in
/-- Case B: only the accumulator is stored into; the three outputs' buffers are handed back as they came. -/
noncomputable def kernelRun0_B (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : ¬cond0_1 i)
    (x0 : Vec F S16x32x256 .f32) (x1 : Vec F S16x1024x256 .f32) (x2 : Vec F S16x1024 .i32) (xs0 : Vec F S16x1 .f32) :
    { LS0 : List (View.Piece (Elt F) S16x1 .f32) //
      ∀ (xi3 xi4 xi5 : Vec F S16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, fun xi3 xi4 xi5 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- Case C: the accumulator and the contrastive output end with the pieces the run finds; the Gram outputs' buffers
    are handed back as they came. -/
noncomputable def kernelRun0_C (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) :
    Σ' (L3 : List (View.Piece (Elt F) S16x1 .f32)), { LS0 : List (View.Piece (Elt F) S16x1 .f32) //
      ∀ (xi4 xi5 : Vec F S16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun xi4 xi5 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    iexists _; iexact HS0

/-! ## What each case leaves: the pieces cover the buffers; the contents read back -/

theorem cover0_A_4 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) (y : S16x1.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S16x1.size (by sl_kernel_rfl) y

def out0_A_4 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) : Vec F S16x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).1)

theorem cover0_A_5 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) (y : S16x1.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S16x1.size (by sl_kernel_rfl) y

def out0_A_5 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) : Vec F S16x1 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2).2.1)

theorem scover0_A_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) (y : S16x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S16x1.size (by sl_kernel_rfl) y

def sout0_A_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) : Vec F S16x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

theorem scover0_B_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : ¬cond0_1 i)
    (x0 : Vec F S16x32x256 .f32) (x1 : Vec F S16x1024x256 .f32) (x2 : Vec F S16x1024 .i32) (xs0 : Vec F S16x1 .f32) (y : S16x1.Idx) :
    ∃ pc ∈ (kernelRun0_B c i arg2 harg2 arg3 harg3 arg4 harg4 arg5 harg5 arg6 harg6 arg7 harg7 arg8 harg8 hc0 hc1 x0 x1 x2 xs0).1, y ∈ pc.1.set :=
  View.cover_of_tiledL (kernelRun0_B c i arg2 harg2 arg3 harg3 arg4 harg4 arg5 harg5 arg6 harg6 arg7 harg7 arg8 harg8 hc0 hc1 x0 x1 x2 xs0).1 S16x1.size (by sl_kernel_rfl) y

def sout0_B_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : ¬cond0_1 i)
    (x0 : Vec F S16x32x256 .f32) (x1 : Vec F S16x1024x256 .f32) (x2 : Vec F S16x1024 .i32) (xs0 : Vec F S16x1 .f32) : Vec F S16x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0).1)

theorem cover0_C_3 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) (y : S16x1.Idx) :
    ∃ pc ∈ (kernelRun0_C c i arg2 harg2 arg3 harg3 arg4 harg4 arg5 harg5 arg6 harg6 arg7 harg7 arg8 harg8 hc0 hc1 x0 x1 x2 xs0).1, y ∈ pc.1.set :=
  View.cover_of_tiledL (kernelRun0_C c i arg2 harg2 arg3 harg3 arg4 harg4 arg5 harg5 arg6 harg6 arg7 harg7 arg8 harg8 hc0 hc1 x0 x1 x2 xs0).1 S16x1.size (by sl_kernel_rfl) y

def out0_C_3 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) : Vec F S16x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0).1)

theorem scover0_C_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) (y : S16x1.Idx) :
    ∃ pc ∈ (kernelRun0_C c i arg2 harg2 arg3 harg3 arg4 harg4 arg5 harg5 arg6 harg6 arg7 harg7 arg8 harg8 hc0 hc1 x0 x1 x2 xs0).2.1, y ∈ pc.1.set :=
  View.cover_of_tiledL (kernelRun0_C c i arg2 harg2 arg3 harg3 arg4 harg4 arg5 harg5 arg6 harg6 arg7 harg7 arg8 harg8 hc0 hc1 x0 x1 x2 xs0).2.1 S16x1.size (by sl_kernel_rfl) y

def sout0_C_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) : Vec F S16x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0).2.1)

/-! ## What the buffers hold after each point -/

/-- After the body at position `n`: the contrastive output's buffer, the two Gram outputs' buffers, the accumulator.
    In case A the Gram outputs and the accumulator are that case's; in cases B and C the Gram outputs are what the
    point before left; the contrastive output is case C's (at the other points nothing consults it: the zero vector). -/
def outsAt0 (c : Dev nD) : (n : ℕ) → n < cfg0.N → Vec F S16x1 .f32 × Vec F S16x1 .f32 × Vec F S16x1 .f32 × Vec F S16x1 .f32
  | 0, hn => (k0_pay4 (F := F), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (k0_pay4 (F := F), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2, (outsAt0 c n (Nat.lt_of_succ_lt hn)).2.1, (outsAt0 c n (Nat.lt_of_succ_lt hn)).2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2)
      else
        (k0_pay4 (F := F), (outsAt0 c n (Nat.lt_of_succ_lt hn)).2.1, (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2)

theorem outsAt0_A (c : Dev nD) (t : Fin cfg0.N) (h0 : t.val % 8 = 0) (h1 : ¬t.val % 8 = 7) :
    outsAt0 m c t.val t.isLt = (k0_pay4 (F := F), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (k0_pay4 (F := F), (outsAt0 m c (t.val - 1) (Nat.lt_of_le_of_lt (Nat.sub_le _ _) t.isLt)).2.1, (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2, (outsAt0 m c (t.val - 1) (Nat.lt_of_le_of_lt (Nat.sub_le _ _) t.isLt)).2.1, (outsAt0 m c (t.val - 1) (Nat.lt_of_le_of_lt (Nat.sub_le _ _) t.isLt)).2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the launch's before the first point, afterwards the accumulator at
    what the point before left and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## What an idle Gram output's buffer holds -/

/-- A Gram output's buffer is uncut: what a live point leaves in it is all the next point finds. -/
theorem kept0_4 (c : Dev nD) (t : Fin cfg0.N) (d) : (dats m 0 c).kept 4 t d = (dats m 0 c).after 4 t := by
  unfold Dat.kept
  rw [Dat.before_out_kept.fill_of_clip_none' 4 _ (fun _ => rfl) d ((dats m 0 c).after 4 t), Window.fill_cut]
theorem kept0_5 (c : Dev nD) (t : Fin cfg0.N) (d) : (dats m 0 c).kept 5 t d = (dats m 0 c).after 5 t := by
  unfold Dat.kept
  rw [Dat.before_out_kept.fill_of_clip_none' 5 _ (fun _ => rfl) d ((dats m 0 c).after 5 t), Window.fill_cut]

/-- At a point that is not the first of its batch half, Gram output 4's buffer holds what the point before left:
    it was not written back between, and through the idle points it is what the half's first point stored. -/
theorem before0_4_nat (c : Dev nD) : ∀ (n : ℕ) (hn : n < cfg0.N), ¬n % 8 = 0 → ∀ d,
    (dats m 0 c).before 4 ⟨n, hn⟩ d = (outsAt0 m c (n - 1) (Nat.lt_of_le_of_lt (Nat.sub_le _ _) hn)).2.1 := by
  intro n
  induction n with
  | zero => intro hn h; exact absurd (Nat.zero_mod _) h
  | succ k ih =>
    intro hn h0 d
    have hN : k + 1 < 16 := lt_of_lt_of_eq hn (show cfg0.N = 16 from N_0)
    have hk : k < cfg0.N := Nat.lt_of_succ_lt hn
    rw [Dat.before_of_pos _ 4 ⟨k + 1, hn⟩ (Nat.succ_ne_zero k) ((cfg0.win 4).fetch_out rfl _)]
    show (if (cfg0.win 4).flush ⟨k, hk⟩ = true then d else (dats m 0 c).left 4 ⟨k, hk⟩ d) = (outsAt0 m c k hk).2.1
    rw [if_neg (fun hf => by have := (flush0_4 ⟨k, hk⟩).mp hf; dsimp only at this; omega)]
    unfold Dat.left
    by_cases hk0 : k % 8 = 0
    · rw [show cfg0.idle 4 (grid0.coords ⟨k, hk⟩) = false from Bool.eq_false_iff.mpr fun h => ((idle0_4 ⟨k, hk⟩).mp h) hk0]
      exact (kept0_4 m c ⟨k, hk⟩ d).trans (after0_4 m c ⟨k, hk⟩)
    · rw [show cfg0.idle 4 (grid0.coords ⟨k, hk⟩) = true from (idle0_4 ⟨k, hk⟩).mpr hk0]
      refine (ih hk hk0 d).trans ?_
      have hk7 : ¬k % 8 = 7 := by omega
      exact (congrArg (fun p => p.2.1) (outsAt0_B m c ⟨k, hk⟩ hk0 hk7)).symm

theorem before0_5_nat (c : Dev nD) : ∀ (n : ℕ) (hn : n < cfg0.N), ¬n % 8 = 0 → ∀ d,
    (dats m 0 c).before 5 ⟨n, hn⟩ d = (outsAt0 m c (n - 1) (Nat.lt_of_le_of_lt (Nat.sub_le _ _) hn)).2.2.1 := by
  intro n
  induction n with
  | zero => intro hn h; exact absurd (Nat.zero_mod _) h
  | succ k ih =>
    intro hn h0 d
    have hN : k + 1 < 16 := lt_of_lt_of_eq hn (show cfg0.N = 16 from N_0)
    have hk : k < cfg0.N := Nat.lt_of_succ_lt hn
    rw [Dat.before_of_pos _ 5 ⟨k + 1, hn⟩ (Nat.succ_ne_zero k) ((cfg0.win 5).fetch_out rfl _)]
    show (if (cfg0.win 5).flush ⟨k, hk⟩ = true then d else (dats m 0 c).left 5 ⟨k, hk⟩ d) = (outsAt0 m c k hk).2.2.1
    rw [if_neg (fun hf => by have := (flush0_5 ⟨k, hk⟩).mp hf; dsimp only at this; omega)]
    unfold Dat.left
    by_cases hk0 : k % 8 = 0
    · rw [show cfg0.idle 5 (grid0.coords ⟨k, hk⟩) = false from Bool.eq_false_iff.mpr fun h => ((idle0_5 ⟨k, hk⟩).mp h) hk0]
      exact (kept0_5 m c ⟨k, hk⟩ d).trans (after0_5 m c ⟨k, hk⟩)
    · rw [show cfg0.idle 5 (grid0.coords ⟨k, hk⟩) = true from (idle0_5 ⟨k, hk⟩).mpr hk0]
      refine (ih hk hk0 d).trans ?_
      have hk7 : ¬k % 8 = 7 := by omega
      exact (congrArg (fun p => p.2.2.1) (outsAt0_B m c ⟨k, hk⟩ hk0 hk7)).symm

theorem before0_4 (c : Dev nD) (t : Fin cfg0.N) (h0 : ¬t.val % 8 = 0) (d) :
    (dats m 0 c).before 4 t d = (outsAt0 m c (t.val - 1) (Nat.lt_of_le_of_lt (Nat.sub_le _ _) t.isLt)).2.1 := before0_4_nat m c t.val t.isLt h0 d
theorem before0_5 (c : Dev nD) (t : Fin cfg0.N) (h0 : ¬t.val % 8 = 0) (d) :
    (dats m 0 c).before 5 t d = (outsAt0 m c (t.val - 1) (Nat.lt_of_le_of_lt (Nat.sub_le _ _) t.isLt)).2.2.1 := before0_5_nat m c t.val t.isLt h0 d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the closed forms say which case the point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  by_cases h0 : t.val % 8 = 0
  · have h1 : ¬t.val % 8 = 7 := by omega
    rw [Dat.leavesExact_idle (dats m 0 c) 3 t ((idle0_3 t).mpr h1) (Bool.eq_false_iff.mpr fun h => h1 ((flush0_3 t).mp h))]
    rw [show (dats m 0 c).leavesExact 4 t = owns (c : Thread nD τ) (ms0_4 t) fullShare ((dats m 0 c).after 4 t) from by
        unfold Dat.leavesExact; rw [show cfg0.idle 4 (grid0.coords t) = false from (Bool.eq_false_iff.mpr fun h => ((idle0_4 t).mp h) h0)], after0_4]
    rw [show (dats m 0 c).leavesExact 5 t = owns (c : Thread nD τ) (ms0_5 t) fullShare ((dats m 0 c).after 5 t) from by
        unfold Dat.leavesExact; rw [show cfg0.idle 5 (grid0.coords t) = false from (Bool.eq_false_iff.mpr fun h => ((idle0_5 t).mp h) h0)], after0_5]
    rw [outsAt0_A m c t h0 h1]
    unfold out0_A_4 out0_A_5 sout0_A_0; (try dsimp only)
    have hrun := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t)).2.2.2
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · have hz : t.val ≠ 0 := fun hz => h0 (by rw [hz])
    by_cases h1 : t.val % 8 = 7
    · rw [show (dats m 0 c).leavesExact 3 t = owns (c : Thread nD τ) (ms0_3 t) fullShare ((dats m 0 c).after 3 t) from by
        unfold Dat.leavesExact; rw [show cfg0.idle 3 (grid0.coords t) = false from (Bool.eq_false_iff.mpr fun h => ((idle0_3 t).mp h) h1)], after0_3]
      rw [show (dats m 0 c).leavesExact 4 t = owns (c : Thread nD τ) (ms0_4 t) fullShare ((dats m 0 c).after 4 t) from by
        unfold Dat.leavesExact; rw [show cfg0.idle 4 (grid0.coords t) = true from ((idle0_4 t).mpr h0), show (cfg0.win 4).flush t = true from ((flush0_4 t).mpr h1)], after0_4]
      rw [show (dats m 0 c).leavesExact 5 t = owns (c : Thread nD τ) (ms0_5 t) fullShare ((dats m 0 c).after 5 t) from by
        unfold Dat.leavesExact; rw [show cfg0.idle 5 (grid0.coords t) = true from ((idle0_5 t).mpr h0), show (cfg0.win 5).flush t = true from ((flush0_5 t).mpr h1)], after0_5]
      simp only [before0_4 m c t h0, before0_5 m c t h0]
      rw [outsAt0_C m c t h0 h1]
      unfold out0_C_3 sout0_C_0; (try dsimp only)
      have hrun := (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2).2.2
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (hrun _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      iintro ⟨H0, H1, H2, ⟨%e3, H3⟩, H4, H5, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _)
      isplitl [H4]; · iexact H4
      iexact H5
    · rw [Dat.leavesExact_idle (dats m 0 c) 3 t ((idle0_3 t).mpr h1) (Bool.eq_false_iff.mpr fun h => h1 ((flush0_3 t).mp h))]
      rw [Dat.leavesExact_idle (dats m 0 c) 4 t ((idle0_4 t).mpr h0) (Bool.eq_false_iff.mpr fun h => h1 ((flush0_4 t).mp h))]
      rw [Dat.leavesExact_idle (dats m 0 c) 5 t ((idle0_5 t).mpr h0) (Bool.eq_false_iff.mpr fun h => h1 ((flush0_5 t).mp h))]
      rw [outsAt0_B m c t h0 h1]
      unfold sout0_B_0; (try dsimp only)
      have hrun := (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2).2
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (hrun _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIdeal.lean ====
/-
  The frame of the program around its one pipelined region, by hand: the body's run in each of the three cases of
  its two conditionals, what the three output buffers and the carried accumulator hold after each grid point, the
  proof data, the body obligation, the run and the frame claim.

  The grid is 2 × 8; a point `t` is in case A when `t % 8 = 0` (the accumulator is reset and the two Gram outputs
  are stored), in case C when `t % 8 = 7` (the contrastive output is stored from the accumulator), else in case B.
  The contrastive output's buffer is untouched in cases A and B and the Gram outputs' buffers in cases B and C; all
  three are written back at the points of case C, where the Gram outputs' buffers still hold what the point of
  case A seven points before stored.
-/
import proofs.«430811_j35107062677773_3_alg».proof.Proof.Gen.KernelIdeal.Skeleton
import proofs.«430811_j35107062677773_3_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, over the grid -/

/-- The first conditional is taken at the first point of each batch half. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second at the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where each window is idle and where it is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idle0_3 : ∀ t : Fin cfg0.N, cfg0.idle 3 (grid0.coords t) = true ↔ ¬t.val % 8 = 7 := by decide +kernel
theorem idle0_4 : ∀ t : Fin cfg0.N, cfg0.idle 4 (grid0.coords t) = true ↔ ¬t.val % 8 = 0 := by decide +kernel
theorem idle0_5 : ∀ t : Fin cfg0.N, cfg0.idle 5 (grid0.coords t) = true ↔ ¬t.val % 8 = 0 := by decide +kernel

/-! ## The staging memrefs at a point, the scratch, and views to state contents through -/

abbrev ms0_0 (t : Fin cfg0.N) : Memref sig .tc .vmem S16x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S16x1 .f32 := Memref.whole cc0_scratch0
abbrev VS0_0 : View sig .tc .vmem S16x1 .f32 := scM0_0.view
/-- One staging buffer of each output window, through which its contents are stated (the choice does not matter). -/
abbrev VO0_3 : View sig .tc .vmem S16x1 .f32 := (Memref.whole cc0_stg3_0 : Memref sig .tc .vmem S16x1 .f32).view
abbrev VO0_4 : View sig .tc .vmem S16x1 .f32 := (Memref.whole cc0_stg4_0 : Memref sig .tc .vmem S16x1 .f32).view
abbrev VO0_5 : View sig .tc .vmem S16x1 .f32 := (Memref.whole cc0_stg5_0 : Memref sig .tc .vmem S16x1 .f32).view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's run, case by case -/

set_option maxHeartbeats 1000000 in
/-- Case A: both Gram outputs and the accumulator end with the pieces the run finds; the contrastive output's buffer is
    handed back as it came. -/
noncomputable def kernelRun0_A (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) :
    Σ' (L4 : List (View.Piece (Elt F) S16x1 .f32)) (L5 : List (View.Piece (Elt F) S16x1 .f32)), { LS0 : List (View.Piece (Elt F) S16x1 .f32) //
      ∀ (xi3 : Vec F S16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun xi3 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

set_option maxHeartbeats 1000000 in
/-- Case B: only the accumulator is stored into; the three outputs' buffers are handed back as they came. -/
noncomputable def kernelRun0_B (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : ¬cond0_1 i)
    (x0 : Vec F S16x32x256 .f32) (x1 : Vec F S16x1024x256 .f32) (x2 : Vec F S16x1024 .i32) (xs0 : Vec F S16x1 .f32) :
    { LS0 : List (View.Piece (Elt F) S16x1 .f32) //
      ∀ (xi3 xi4 xi5 : Vec F S16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, fun xi3 xi4 xi5 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- Case C: the accumulator and the contrastive output end with the pieces the run finds; the Gram outputs' buffers
    are handed back as they came. -/
noncomputable def kernelRun0_C (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) :
    Σ' (L3 : List (View.Piece (Elt F) S16x1 .f32)), { LS0 : List (View.Piece (Elt F) S16x1 .f32) //
      ∀ (xi4 xi5 : Vec F S16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun xi4 xi5 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    iexists _; iexact HS0

/-! ## What each case leaves: the pieces cover the buffers; the contents read back -/

theorem cover0_A_4 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) (y : S16x1.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S16x1.size (by sl_kernel_rfl) y

def out0_A_4 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) : Vec F S16x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).1)

theorem cover0_A_5 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) (y : S16x1.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S16x1.size (by sl_kernel_rfl) y

def out0_A_5 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) : Vec F S16x1 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2).2.1)

theorem scover0_A_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) (y : S16x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S16x1.size (by sl_kernel_rfl) y

def sout0_A_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) : Vec F S16x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

theorem scover0_B_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : ¬cond0_1 i)
    (x0 : Vec F S16x32x256 .f32) (x1 : Vec F S16x1024x256 .f32) (x2 : Vec F S16x1024 .i32) (xs0 : Vec F S16x1 .f32) (y : S16x1.Idx) :
    ∃ pc ∈ (kernelRun0_B c i arg2 harg2 arg3 harg3 arg4 harg4 arg5 harg5 arg6 harg6 arg7 harg7 arg8 harg8 hc0 hc1 x0 x1 x2 xs0).1, y ∈ pc.1.set :=
  View.cover_of_tiledL (kernelRun0_B c i arg2 harg2 arg3 harg3 arg4 harg4 arg5 harg5 arg6 harg6 arg7 harg7 arg8 harg8 hc0 hc1 x0 x1 x2 xs0).1 S16x1.size (by sl_kernel_rfl) y

def sout0_B_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : ¬cond0_1 i)
    (x0 : Vec F S16x32x256 .f32) (x1 : Vec F S16x1024x256 .f32) (x2 : Vec F S16x1024 .i32) (xs0 : Vec F S16x1 .f32) : Vec F S16x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0).1)

theorem cover0_C_3 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) (y : S16x1.Idx) :
    ∃ pc ∈ (kernelRun0_C c i arg2 harg2 arg3 harg3 arg4 harg4 arg5 harg5 arg6 harg6 arg7 harg7 arg8 harg8 hc0 hc1 x0 x1 x2 xs0).1, y ∈ pc.1.set :=
  View.cover_of_tiledL (kernelRun0_C c i arg2 harg2 arg3 harg3 arg4 harg4 arg5 harg5 arg6 harg6 arg7 harg7 arg8 harg8 hc0 hc1 x0 x1 x2 xs0).1 S16x1.size (by sl_kernel_rfl) y

def out0_C_3 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) : Vec F S16x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0).1)

theorem scover0_C_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) (y : S16x1.Idx) :
    ∃ pc ∈ (kernelRun0_C c i arg2 harg2 arg3 harg3 arg4 harg4 arg5 harg5 arg6 harg6 arg7 harg7 arg8 harg8 hc0 hc1 x0 x1 x2 xs0).2.1, y ∈ pc.1.set :=
  View.cover_of_tiledL (kernelRun0_C c i arg2 harg2 arg3 harg3 arg4 harg4 arg5 harg5 arg6 harg6 arg7 harg7 arg8 harg8 hc0 hc1 x0 x1 x2 xs0).2.1 S16x1.size (by sl_kernel_rfl) y

def sout0_C_0 (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) : Vec F S16x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0).2.1)

/-! ## What the buffers hold after each point -/

/-- After the body at position `n`: the contrastive output's buffer, the two Gram outputs' buffers, the accumulator.
    In case A the Gram outputs and the accumulator are that case's; in cases B and C the Gram outputs are what the
    point before left; the contrastive output is case C's (at the other points nothing consults it: the zero vector). -/
def outsAt0 (c : Dev nD) : (n : ℕ) → n < cfg0.N → Vec F S16x1 .f32 × Vec F S16x1 .f32 × Vec F S16x1 .f32 × Vec F S16x1 .f32
  | 0, hn => (k0_pay4 (F := F), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (k0_pay4 (F := F), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2, (outsAt0 c n (Nat.lt_of_succ_lt hn)).2.1, (outsAt0 c n (Nat.lt_of_succ_lt hn)).2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2)
      else
        (k0_pay4 (F := F), (outsAt0 c n (Nat.lt_of_succ_lt hn)).2.1, (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2)

theorem outsAt0_A (c : Dev nD) (t : Fin cfg0.N) (h0 : t.val % 8 = 0) (h1 : ¬t.val % 8 = 7) :
    outsAt0 m c t.val t.isLt = (k0_pay4 (F := F), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (k0_pay4 (F := F), (outsAt0 m c (t.val - 1) (Nat.lt_of_le_of_lt (Nat.sub_le _ _) t.isLt)).2.1, (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2, (outsAt0 m c (t.val - 1) (Nat.lt_of_le_of_lt (Nat.sub_le _ _) t.isLt)).2.1, (outsAt0 m c (t.val - 1) (Nat.lt_of_le_of_lt (Nat.sub_le _ _) t.isLt)).2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the launch's before the first point, afterwards the accumulator at
    what the point before left and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## What an idle Gram output's buffer holds -/

/-- A Gram output's buffer is uncut: what a live point leaves in it is all the next point finds. -/
theorem kept0_4 (c : Dev nD) (t : Fin cfg0.N) (d) : (dats m 0 c).kept 4 t d = (dats m 0 c).after 4 t := by
  unfold Dat.kept
  rw [Dat.before_out_kept.fill_of_clip_none' 4 _ (fun _ => rfl) d ((dats m 0 c).after 4 t), Window.fill_cut]
theorem kept0_5 (c : Dev nD) (t : Fin cfg0.N) (d) : (dats m 0 c).kept 5 t d = (dats m 0 c).after 5 t := by
  unfold Dat.kept
  rw [Dat.before_out_kept.fill_of_clip_none' 5 _ (fun _ => rfl) d ((dats m 0 c).after 5 t), Window.fill_cut]

/-- At a point that is not the first of its batch half, Gram output 4's buffer holds what the point before left:
    it was not written back between, and through the idle points it is what the half's first point stored. -/
theorem before0_4_nat (c : Dev nD) : ∀ (n : ℕ) (hn : n < cfg0.N), ¬n % 8 = 0 → ∀ d,
    (dats m 0 c).before 4 ⟨n, hn⟩ d = (outsAt0 m c (n - 1) (Nat.lt_of_le_of_lt (Nat.sub_le _ _) hn)).2.1 := by
  intro n
  induction n with
  | zero => intro hn h; exact absurd (Nat.zero_mod _) h
  | succ k ih =>
    intro hn h0 d
    have hN : k + 1 < 16 := lt_of_lt_of_eq hn (show cfg0.N = 16 from N_0)
    have hk : k < cfg0.N := Nat.lt_of_succ_lt hn
    rw [Dat.before_of_pos _ 4 ⟨k + 1, hn⟩ (Nat.succ_ne_zero k) ((cfg0.win 4).fetch_out rfl _)]
    show (if (cfg0.win 4).flush ⟨k, hk⟩ = true then d else (dats m 0 c).left 4 ⟨k, hk⟩ d) = (outsAt0 m c k hk).2.1
    rw [if_neg (fun hf => by have := (flush0_4 ⟨k, hk⟩).mp hf; dsimp only at this; omega)]
    unfold Dat.left
    by_cases hk0 : k % 8 = 0
    · rw [show cfg0.idle 4 (grid0.coords ⟨k, hk⟩) = false from Bool.eq_false_iff.mpr fun h => ((idle0_4 ⟨k, hk⟩).mp h) hk0]
      exact (kept0_4 m c ⟨k, hk⟩ d).trans (after0_4 m c ⟨k, hk⟩)
    · rw [show cfg0.idle 4 (grid0.coords ⟨k, hk⟩) = true from (idle0_4 ⟨k, hk⟩).mpr hk0]
      refine (ih hk hk0 d).trans ?_
      have hk7 : ¬k % 8 = 7 := by omega
      exact (congrArg (fun p => p.2.1) (outsAt0_B m c ⟨k, hk⟩ hk0 hk7)).symm

theorem before0_5_nat (c : Dev nD) : ∀ (n : ℕ) (hn : n < cfg0.N), ¬n % 8 = 0 → ∀ d,
    (dats m 0 c).before 5 ⟨n, hn⟩ d = (outsAt0 m c (n - 1) (Nat.lt_of_le_of_lt (Nat.sub_le _ _) hn)).2.2.1 := by
  intro n
  induction n with
  | zero => intro hn h; exact absurd (Nat.zero_mod _) h
  | succ k ih =>
    intro hn h0 d
    have hN : k + 1 < 16 := lt_of_lt_of_eq hn (show cfg0.N = 16 from N_0)
    have hk : k < cfg0.N := Nat.lt_of_succ_lt hn
    rw [Dat.before_of_pos _ 5 ⟨k + 1, hn⟩ (Nat.succ_ne_zero k) ((cfg0.win 5).fetch_out rfl _)]
    show (if (cfg0.win 5).flush ⟨k, hk⟩ = true then d else (dats m 0 c).left 5 ⟨k, hk⟩ d) = (outsAt0 m c k hk).2.2.1
    rw [if_neg (fun hf => by have := (flush0_5 ⟨k, hk⟩).mp hf; dsimp only at this; omega)]
    unfold Dat.left
    by_cases hk0 : k % 8 = 0
    · rw [show cfg0.idle 5 (grid0.coords ⟨k, hk⟩) = false from Bool.eq_false_iff.mpr fun h => ((idle0_5 ⟨k, hk⟩).mp h) hk0]
      exact (kept0_5 m c ⟨k, hk⟩ d).trans (after0_5 m c ⟨k, hk⟩)
    · rw [show cfg0.idle 5 (grid0.coords ⟨k, hk⟩) = true from (idle0_5 ⟨k, hk⟩).mpr hk0]
      refine (ih hk hk0 d).trans ?_
      have hk7 : ¬k % 8 = 7 := by omega
      exact (congrArg (fun p => p.2.2.1) (outsAt0_B m c ⟨k, hk⟩ hk0 hk7)).symm

theorem before0_4 (c : Dev nD) (t : Fin cfg0.N) (h0 : ¬t.val % 8 = 0) (d) :
    (dats m 0 c).before 4 t d = (outsAt0 m c (t.val - 1) (Nat.lt_of_le_of_lt (Nat.sub_le _ _) t.isLt)).2.1 := before0_4_nat m c t.val t.isLt h0 d
theorem before0_5 (c : Dev nD) (t : Fin cfg0.N) (h0 : ¬t.val % 8 = 0) (d) :
    (dats m 0 c).before 5 t d = (outsAt0 m c (t.val - 1) (Nat.lt_of_le_of_lt (Nat.sub_le _ _) t.isLt)).2.2.1 := before0_5_nat m c t.val t.isLt h0 d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the closed forms say which case the point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  by_cases h0 : t.val % 8 = 0
  · have h1 : ¬t.val % 8 = 7 := by omega
    rw [Dat.leavesExact_idle (dats m 0 c) 3 t ((idle0_3 t).mpr h1) (Bool.eq_false_iff.mpr fun h => h1 ((flush0_3 t).mp h))]
    rw [show (dats m 0 c).leavesExact 4 t = owns (c : Thread nD τ) (ms0_4 t) fullShare ((dats m 0 c).after 4 t) from by
        unfold Dat.leavesExact; rw [show cfg0.idle 4 (grid0.coords t) = false from (Bool.eq_false_iff.mpr fun h => ((idle0_4 t).mp h) h0)], after0_4]
    rw [show (dats m 0 c).leavesExact 5 t = owns (c : Thread nD τ) (ms0_5 t) fullShare ((dats m 0 c).after 5 t) from by
        unfold Dat.leavesExact; rw [show cfg0.idle 5 (grid0.coords t) = false from (Bool.eq_false_iff.mpr fun h => ((idle0_5 t).mp h) h0)], after0_5]
    rw [outsAt0_A m c t h0 h1]
    unfold out0_A_4 out0_A_5 sout0_A_0; (try dsimp only)
    have hrun := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t)).2.2.2
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · have hz : t.val ≠ 0 := fun hz => h0 (by rw [hz])
    by_cases h1 : t.val % 8 = 7
    · rw [show (dats m 0 c).leavesExact 3 t = owns (c : Thread nD τ) (ms0_3 t) fullShare ((dats m 0 c).after 3 t) from by
        unfold Dat.leavesExact; rw [show cfg0.idle 3 (grid0.coords t) = false from (Bool.eq_false_iff.mpr fun h => ((idle0_3 t).mp h) h1)], after0_3]
      rw [show (dats m 0 c).leavesExact 4 t = owns (c : Thread nD τ) (ms0_4 t) fullShare ((dats m 0 c).after 4 t) from by
        unfold Dat.leavesExact; rw [show cfg0.idle 4 (grid0.coords t) = true from ((idle0_4 t).mpr h0), show (cfg0.win 4).flush t = true from ((flush0_4 t).mpr h1)], after0_4]
      rw [show (dats m 0 c).leavesExact 5 t = owns (c : Thread nD τ) (ms0_5 t) fullShare ((dats m 0 c).after 5 t) from by
        unfold Dat.leavesExact; rw [show cfg0.idle 5 (grid0.coords t) = true from ((idle0_5 t).mpr h0), show (cfg0.win 5).flush t = true from ((flush0_5 t).mpr h1)], after0_5]
      simp only [before0_4 m c t h0, before0_5 m c t h0]
      rw [outsAt0_C m c t h0 h1]
      unfold out0_C_3 sout0_C_0; (try dsimp only)
      have hrun := (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2).2.2
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (hrun _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      iintro ⟨H0, H1, H2, ⟨%e3, H3⟩, H4, H5, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _)
      isplitl [H4]; · iexact H4
      iexact H5
    · rw [Dat.leavesExact_idle (dats m 0 c) 3 t ((idle0_3 t).mpr h1) (Bool.eq_false_iff.mpr fun h => h1 ((flush0_3 t).mp h))]
      rw [Dat.leavesExact_idle (dats m 0 c) 4 t ((idle0_4 t).mpr h0) (Bool.eq_false_iff.mpr fun h => h1 ((flush0_4 t).mp h))]
      rw [Dat.leavesExact_idle (dats m 0 c) 5 t ((idle0_5 t).mpr h0) (Bool.eq_false_iff.mpr fun h => h1 ((flush0_5 t).mp h))]
      rw [outsAt0_B m c t h0 h1]
      unfold sout0_B_0; (try dsimp only)
      have hrun := (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2).2
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (hrun _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The loss as one function of the argument arrays, over the extended reals.

  For a batch row `b`, a query row `i` and a text position `l` the similarity is the inner product of query row
  `(b, i)` with text row `(b, l)`, scaled by 1/16.  Along the query axis the column `i ↦ S b i l` is turned
  into softmax numerators `exp (x i - max x)`; the label word at `(b, l)` names one query row (the word `-1`
  is read as `32`, then one is subtracted), and the picked probability is that row's numerator over the column's
  sum.  The contrastive term of `b` is the mean over `l` of one minus the picked probability.  The two Gram terms
  come from `G b i p`, the inner product of query rows `(b, i)` and `(b, p)`: half the off-diagonal absolute sum
  over 496, and the sum of `max (1 - G b i i) 0` over 31.  The loss is the batch mean of the first plus half the
  batch means of the other two.

  The similarity is a parameter: one program scales each factor before the inner product, the other scales the
  inner product; `sim_eq_simScaled` says the two agree when every entry is a real number.
-/
import Idealize.ShloMosaic.PureOps.Ideal
import Idealize.ShloMosaic.Lib.ValueIdx

noncomputable section

namespace Cert.Spec

open Idealize.ShloMosaic Idealize.ShloMosaic.ValueIdx

abbrev SQ : Shape := ⟨3, ![32, 32, 256]⟩
abbrev ST : Shape := ⟨3, ![32, 8192, 256]⟩
abbrev SLb : Shape := ⟨2, ![32, 8192]⟩

/-- The inner product of query row `(b, i)` and text row `(b, l)`, then scaled by 1/16. -/
def sim (Q : SQ.Idx → EReal) (T : ST.Idx → EReal) (b i : Fin 32) (l : Fin 8192) : EReal :=
  (∑ d : Fin 256, Q (ix3 b i d) * T (ix3 b l d)) * ((1 / 16 : ℝ) : EReal)

/-- The same with the query factor scaled first. -/
def simScaled (Q : SQ.Idx → EReal) (T : ST.Idx → EReal) (b i : Fin 32) (l : Fin 8192) : EReal :=
  ∑ d : Fin 256, (Q (ix3 b i d) * ((1 / 16 : ℝ) : EReal)) * T (ix3 b l d)

/-- The largest entry of a column of 32, folded from `⊥`. -/
def colMax (x : Fin 32 → EReal) : EReal := (Finset.univ : Finset (Fin 32)).fold max ⊥ x

/-- The softmax numerator of entry `i` of a column. -/
def colExp (x : Fin 32 → EReal) (i : Fin 32) : EReal := Ideal.exp (x i - colMax x)

/-- The softmax denominator of a column. -/
def colSum (x : Fin 32 → EReal) : EReal := ∑ i : Fin 32, colExp x i

/-- The softmax of a column at row `r`. -/
def pick (x : Fin 32 → EReal) (r : Fin 32) : EReal := Ideal.div (colExp x r) (colSum x)

/-- The row word a label word names: `-1` is read as `32`, then one is subtracted. -/
def rowWord (w : BitVec 32) : BitVec 32 := (if w = 4294967295#32 then 32#32 else w) - 1#32

/-- That row as an index of the query axis (the word taken modulo 32; for a label in range it is the word itself). -/
def rowOf (w : BitVec 32) : Fin 32 := ⟨(rowWord w).toNat % 32, Nat.mod_lt _ (by decide)⟩

/-- A label word is in range when it is `-1` or lies between `1` and `32`. -/
def InRange (w : BitVec 32) : Prop := w = 4294967295#32 ∨ (1 ≤ w.toNat ∧ w.toNat ≤ 32)

/-- For a label in range the row word is below 32. -/
theorem rowWord_toNat_lt {w : BitVec 32} (h : InRange w) : (rowWord w).toNat < 32 := by
  unfold rowWord
  rcases h with rfl | ⟨h1, h2⟩
  · decide
  · have hne : w ≠ 4294967295#32 := by
      intro he; rw [he] at h2; revert h2; decide
    rw [if_neg hne]
    have hw := w.isLt
    simp only [BitVec.toNat_sub, BitVec.toNat_ofNat, Nat.reducePow, Nat.reduceMod]
    omega

/-- So it is the row. -/
theorem rowWord_of_inRange {w : BitVec 32} (h : InRange w) : rowWord w = BitVec.ofNat 32 (rowOf w).val := by
  have hlt := rowWord_toNat_lt h
  apply BitVec.eq_of_toNat_eq
  simp only [rowOf, BitVec.toNat_ofNat, Nat.reducePow]
  omega

section
variable (S : Fin 32 → Fin 32 → Fin 8192 → EReal) (Q : SQ.Idx → EReal) (Lb : SLb.Idx → BitVec 32)

/-- The picked probability at `(b, l)`. -/
def picked (b : Fin 32) (l : Fin 8192) : EReal := pick (fun i => S b i l) (rowOf (Lb (ix2 b l)))

/-- The contrastive term of batch row `b`. -/
def contrastive (b : Fin 32) : EReal := (∑ l : Fin 8192, (((1 : ℝ) : EReal) - picked S Lb b l)) * ((1 / 8192 : ℝ) : EReal)

/-- The Gram entry of query rows `(b, i)` and `(b, p)`. -/
def gram (b i p : Fin 32) : EReal := ∑ d : Fin 256, Q (ix3 b i d) * Q (ix3 b p d)

/-- Half the off-diagonal absolute sum of the Gram matrix of `b`, over 496. -/
def ortho (b : Fin 32) : EReal :=
  Ideal.div ((∑ i : Fin 32, ∑ p : Fin 32, max (gram Q b i p) (-(gram Q b i p)) * (if i = p then (0 : EReal) else ((1 : ℝ) : EReal)))
    * ((1 / 2 : ℝ) : EReal)) ((496 : ℝ) : EReal)

/-- The sum over query rows of `max (1 - G b i i) 0`, over 31. -/
def size (b : Fin 32) : EReal :=
  Ideal.div (∑ i : Fin 32, max (((1 : ℝ) : EReal) - gram Q b i i) 0) ((31 : ℝ) : EReal)

/-- The mean of 32 numbers. -/
def mean32 (f : Fin 32 → EReal) : EReal := Ideal.div (∑ b : Fin 32, f b) ((32 : ℝ) : EReal)

/-- The loss. -/
def loss : EReal :=
  mean32 (contrastive S Lb) + ((1 / 2 : ℝ) : EReal) * mean32 (size Q) + ((1 / 2 : ℝ) : EReal) * mean32 (ortho Q)

end

/-- Scaling a factor before the inner product or the inner product afterwards is the same number when every
    entry is real: in the reals the scale comes out of the sum. -/
theorem simScaled_eq_sim (Q : SQ.Idx → EReal) (T : ST.Idx → EReal)
    (hQ : ∀ j, ∃ r : ℝ, Q j = (r : EReal)) (hT : ∀ j, ∃ r : ℝ, T j = (r : EReal)) :
    simScaled Q T = sim Q T := by
  funext b i l
  choose q hq using hQ
  choose t ht using hT
  unfold simScaled sim
  have hsum : ∀ (s : Finset (Fin 256)) (f : Fin 256 → ℝ), (∑ d ∈ s, ((f d : ℝ) : EReal)) = ((∑ d ∈ s, f d : ℝ) : EReal) := by
    intro s f
    induction s using Finset.induction_on with
    | empty => simp
    | insert a s ha ih => rw [Finset.sum_insert ha, Finset.sum_insert ha, ih, EReal.coe_add]
  simp only [hq, ht, ← EReal.coe_mul]
  rw [hsum, hsum, ← EReal.coe_mul]
  congr 1
  rw [Finset.sum_mul]
  exact Finset.sum_congr rfl fun d _ => by ring

end Cert.Spec

end
-- ==== Proof.Consts.lean ====
/-
  The float words the two programs spell, as the extended reals they denote.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul]; norm_num

/-- `0.5` denotes `1/2`. -/
theorem ofBits_half : Ideal.ofBits .f32 0x3F000000#32 = ((1 / 2 : ℝ) : EReal) := by
  simp [Ideal.ofBits, Ideal.ieee, -EReal.coe_mul]; norm_num

/-- `0.0625` denotes `1/16`. -/
theorem ofBits_sixteenth : Ideal.ofBits .f32 0x3D800000#32 = ((1 / 16 : ℝ) : EReal) := by
  simp [Ideal.ofBits, Ideal.ieee, -EReal.coe_mul]; norm_num

/-- `2^-13` denotes `1/8192`. -/
theorem ofBits_inv8192 : Ideal.ofBits .f32 0x39000000#32 = ((1 / 8192 : ℝ) : EReal) := by
  simp [Ideal.ofBits, Ideal.ieee, -EReal.coe_mul]; norm_num

/-- `8192.0` denotes `8192`. -/
theorem ofBits_8192 : Ideal.ofBits .f32 0x46000000#32 = ((8192 : ℝ) : EReal) := by
  simp [Ideal.ofBits, Ideal.ieee, -EReal.coe_mul]; norm_num

/-- `32.0` denotes `32`. -/
theorem ofBits_32 : Ideal.ofBits .f32 0x42000000#32 = ((32 : ℝ) : EReal) := by
  simp [Ideal.ofBits, Ideal.ieee, -EReal.coe_mul]; norm_num

/-- `31.0` denotes `31`. -/
theorem ofBits_31 : Ideal.ofBits .f32 0x41F80000#32 = ((31 : ℝ) : EReal) := by
  simp [Ideal.ofBits, Ideal.ieee, -EReal.coe_mul]; norm_num

/-- `496.0` denotes `496`. -/
theorem ofBits_496 : Ideal.ofBits .f32 0x43F80000#32 = ((496 : ℝ) : EReal) := by
  simp [Ideal.ofBits, Ideal.ieee, -EReal.coe_mul]; norm_num

/-- The word of `-inf` denotes `⊥`. -/
theorem ofBits_neg_inf : Ideal.ofBits .f32 0xFF800000#32 = ⊥ := by
  simp [Ideal.ofBits, Ideal.ieee]

end Cert.Consts

end
-- ==== Proof.PayStep.lean ====
/-
  The accumulation payload of the kernel body (two chunks of 512 text positions), read at an index over the
  extended reals.
-/
import proofs.«430811_j35107062677773_3_alg».proof.Proof.Gen.KernelIdeal.Skeleton
import proofs.«430811_j35107062677773_3_alg».proof.Proof.Spec
import proofs.«430811_j35107062677773_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayStep

open Idealize.ShloMosaic Idealize.ShloMosaic.ValueIdx Cert.KernelIdeal Cert.KernelIdeal.Gen

/-- The similarity of query row `(r, i)` of a query block with text row `(r, l)` of a text chunk, the query factor
    scaled by 1/16 first. -/
def simBlk (x0 : Vec Ideal S16x32x256 .f32) (v : Vec Ideal S16x512x256 .f32) (r : Fin 16) (i : Fin 32) (l : Fin 512) : EReal :=
  ∑ d : Fin 256, (x0 (ix3 r i d) * ((1 / 16 : ℝ) : EReal)) * v (ix3 r l d)

/-- One chunk's contribution at batch row `r`: the sum over its 512 positions of one minus the picked probability. -/
def chunkSum (x0 : Vec Ideal S16x32x256 .f32) (v : Vec Ideal S16x512x256 .f32) (lab : Vec Ideal S16x512 .i32) (r : Fin 16) : EReal :=
  ∑ l : Fin 512, (((1 : ℝ) : EReal) - Cert.Spec.pick (fun i => simBlk x0 v r i l) (Cert.Spec.rowOf (lab (ix2 r l))))

/-! ## The batched product at an index -/

theorem lhs_0 (i : S16x32x512.Idx) (q : dot_S16x32x256_S16x512x256_S16x32x512_2_2_1_1_0_0.contr.Idx) :
    (dot_S16x32x256_S16x512x256_S16x32x512_2_2_1_1_0_0.lhsIdx i q 0).val = (i 0).val := by
  unfold DotDims.lhsIdx
  rw [dif_pos (show (0 : Fin S16x32x256.rank) ∈ dot_S16x32x256_S16x512x256_S16x32x512_2_2_1_1_0_0.lhsBatch by decide)]
  rfl
theorem lhs_1 (i : S16x32x512.Idx) (q : dot_S16x32x256_S16x512x256_S16x32x512_2_2_1_1_0_0.contr.Idx) :
    (dot_S16x32x256_S16x512x256_S16x32x512_2_2_1_1_0_0.lhsIdx i q 1).val = (i 1).val := by
  unfold DotDims.lhsIdx
  rw [dif_neg (show ¬(1 : Fin S16x32x256.rank) ∈ dot_S16x32x256_S16x512x256_S16x32x512_2_2_1_1_0_0.lhsBatch by decide), dif_pos (show (1 : Fin S16x32x256.rank) ∈ dot_S16x32x256_S16x512x256_S16x32x512_2_2_1_1_0_0.lhsNonContracting by decide)]
  rfl
theorem lhs_2 (i : S16x32x512.Idx) (q : dot_S16x32x256_S16x512x256_S16x32x512_2_2_1_1_0_0.contr.Idx) :
    (dot_S16x32x256_S16x512x256_S16x32x512_2_2_1_1_0_0.lhsIdx i q 2).val = (q ⟨0, by decide⟩).val :=
  dot_S16x32x256_S16x512x256_S16x32x512_2_2_1_1_0_0.lhsIdx_val_of_single rfl i q
theorem rhs_0 (i : S16x32x512.Idx) (q : dot_S16x32x256_S16x512x256_S16x32x512_2_2_1_1_0_0.contr.Idx) :
    (dot_S16x32x256_S16x512x256_S16x32x512_2_2_1_1_0_0.rhsIdx i q 0).val = (i 0).val := by
  unfold DotDims.rhsIdx
  rw [dif_pos (show (0 : Fin S16x512x256.rank) ∈ dot_S16x32x256_S16x512x256_S16x32x512_2_2_1_1_0_0.rhsBatch by decide)]
  rfl
theorem rhs_1 (i : S16x32x512.Idx) (q : dot_S16x32x256_S16x512x256_S16x32x512_2_2_1_1_0_0.contr.Idx) :
    (dot_S16x32x256_S16x512x256_S16x32x512_2_2_1_1_0_0.rhsIdx i q 1).val = (i 2).val := by
  unfold DotDims.rhsIdx
  rw [dif_neg (show ¬(1 : Fin S16x512x256.rank) ∈ dot_S16x32x256_S16x512x256_S16x32x512_2_2_1_1_0_0.rhsBatch by decide), dif_pos (show (1 : Fin S16x512x256.rank) ∈ dot_S16x32x256_S16x512x256_S16x32x512_2_2_1_1_0_0.rhsNonContracting by decide)]
  rfl
theorem rhs_2 (i : S16x32x512.Idx) (q : dot_S16x32x256_S16x512x256_S16x32x512_2_2_1_1_0_0.contr.Idx) :
    (dot_S16x32x256_S16x512x256_S16x32x512_2_2_1_1_0_0.rhsIdx i q 2).val = (q ⟨0, by decide⟩).val :=
  dot_S16x32x256_S16x512x256_S16x32x512_2_2_1_1_0_0.rhsIdx_val_of_single rfl i q

/-- The batched product into zeros, at `(r, i, l)`: the inner product of row `(r, i)` of the left factor with row
    `(r, l)` of the right one. -/
theorem matmul_apply3 (q : FVec Ideal S16x32x256 .bf16) (t : FVec Ideal S16x512x256 .bf16) (r : Fin 16) (i : Fin 32) (l : Fin 512) :
    matmul dot_S16x32x256_S16x512x256_S16x32x512_2_2_1_1_0_0 none q t (constant (F := Ideal) S16x32x512 .f32 0x00000000#32) (ix3 r i l)
      = ∑ d : Fin 256, q (ix3 r i d) * t (ix3 r l d) := by
  refine (Ideal.matmul_constant_zero_apply dot_S16x32x256_S16x512x256_S16x32x512_2_2_1_1_0_0 none q t (ix3 r i l)).trans ?_
  rw [← Equiv.sum_comp (ValueIdx.contrEquiv1 dot_S16x32x256_S16x512x256_S16x32x512_2_2_1_1_0_0 256 rfl rfl).symm]
  refine Finset.sum_congr rfl fun k _ => ?_
  have hk := ValueIdx.contrEquiv1_symm_val dot_S16x32x256_S16x512x256_S16x32x512_2_2_1_1_0_0 256 rfl rfl k
  have el : dot_S16x32x256_S16x512x256_S16x32x512_2_2_1_1_0_0.lhsIdx (ix3 r i l) ((ValueIdx.contrEquiv1 dot_S16x32x256_S16x512x256_S16x32x512_2_2_1_1_0_0 256 rfl rfl).symm k) = ix3 r i k := funext fun a => Fin.ext (by
    match a with
    | ⟨0, _⟩ => exact lhs_0 _ _
    | ⟨1, _⟩ => exact lhs_1 _ _
    | ⟨2, _⟩ => exact (lhs_2 _ _).trans hk)
  have er : dot_S16x32x256_S16x512x256_S16x32x512_2_2_1_1_0_0.rhsIdx (ix3 r i l) ((ValueIdx.contrEquiv1 dot_S16x32x256_S16x512x256_S16x32x512_2_2_1_1_0_0 256 rfl rfl).symm k) = ix3 r l k := funext fun a => Fin.ext (by
    match a with
    | ⟨0, _⟩ => exact rhs_0 _ _
    | ⟨1, _⟩ => exact rhs_1 _ _
    | ⟨2, _⟩ => exact (rhs_2 _ _).trans hk)
  rw [el, er]

/-! ## Layout operations and reductions at an index -/

/-- Inserting a unit axis in the middle and broadcasting along it: at `(r, i, l)` the array at `(r, l)`. -/
theorem keepdims_apply {α : Type} (w : S16x512.Idx → α) (r : Fin 16) (i : Fin 32) (l : Fin 512) :
    broadcastTo S16x32x512 (shapeCast S16x1x512 w shapeCasts_S16x512_S16x1x512) broadcasts_S16x1x512_S16x32x512 (ix3 r i l)
      = w (ix2 r l) := by
  refine (broadcastTo_apply _ broadcasts_S16x1x512_S16x32x512 (ix3 r i l) (ix3 r (0 : Fin 1) l) fun a => ?_).trans ?_
  · match a with
    | ⟨0, _⟩ => show r.val = if (16 : Nat) = 1 then 0 else r.val; rw [if_neg (by decide)]
    | ⟨1, _⟩ => show 0 = if (1 : Nat) = 1 then 0 else i.val; rw [if_pos rfl]
    | ⟨2, _⟩ => show l.val = if (512 : Nat) = 1 then 0 else l.val; rw [if_neg (by decide)]
  · exact shapeCast_apply w shapeCasts_S16x512_S16x1x512 _ _ (by
      rw [Shape.rowMajor_val_two, Shape.rowMajor_val_three]
      show r.val * 512 + l.val = (r.val * 1 + 0) * 512 + l.val
      omega)

/-- A vector of 16 viewed as a column: at `(r, u)` the vector at `r`. -/
theorem col_apply {α : Type} (w : S16.Idx → α) (r : Fin 16) (u : Fin 1) :
    shapeCast S16x1 w shapeCasts_S16_S16x1 (ix2 r u) = w (ix1 r) :=
  shapeCast_apply w shapeCasts_S16_S16x1 _ _ (by
    rw [Shape.rowMajor_val_one, Shape.rowMajor_val_two]
    show r.val = r.val * 1 + u.val
    omega)

/-- The index over `(r, l)` with `k` inserted on the query axis. -/
theorem lift1_eq (r : Fin 16) (l : Fin 512) (k : Fin 32) :
    reduces_S16x32x512_S16x512.lift (ix2 r l) k = ix3 r k l :=
  funext fun a => Fin.ext (by match a with | ⟨0, _⟩ => rfl | ⟨1, _⟩ => rfl | ⟨2, _⟩ => rfl)

/-- The index over `r` with `k` inserted on the position axis. -/
theorem lift2_eq (r : Fin 16) (k : Fin 512) :
    reduces_S16x512_S16.lift (ix1 r) k = ix2 r k :=
  funext fun a => Fin.ext (by match a with | ⟨0, _⟩ => rfl | ⟨1, _⟩ => rfl)

/-- The maximum along the query axis from `-∞`, at `(r, l)`: the column's maximum. -/
theorem colmax_apply (src : FVec Ideal S16x32x512 .f32) (hφ : FKind.Formats .f32)
    (hacc : (0xFF800000#32 : BitVec 32) = 0xFF800000#32) (r : Fin 16) (l : Fin 512) :
    multiReduction .maximumf [1] S16x512 src 0xFF800000#32 reduces_S16x32x512_S16x512 hφ hacc (ix2 r l)
      = Cert.Spec.colMax (fun i => src (ix3 r i l)) := by
  refine (Ideal.multiReduction_maximumf_single src 0xFF800000#32 reduces_S16x32x512_S16x512 hφ hacc (ix2 r l)).trans ?_
  have e : (src ∘ reduces_S16x32x512_S16x512.lift (ix2 r l)) = fun i : Fin 32 => src (ix3 r i l) :=
    funext fun k => congrArg src (lift1_eq r l k)
  unfold Cert.Spec.colMax
  show (Finset.univ : Finset (Fin 32)).fold max (Ideal.ofBits .f32 0xFF800000#32) (src ∘ reduces_S16x32x512_S16x512.lift (ix2 r l)) = _
  rw [e, Cert.Consts.ofBits_neg_inf]
  rfl

/-- The sum along the query axis, at `(r, l)`: the column's sum. -/
theorem colsum_apply (src : FVec Ideal S16x32x512 .f32) (hφ : FKind.Formats .f32)
    (hacc : (0x00000000#32 : BitVec 32) = 0x00000000#32) (r : Fin 16) (l : Fin 512) :
    multiReduction .add [1] S16x512 src 0x00000000#32 reduces_S16x32x512_S16x512 hφ hacc (ix2 r l)
      = ∑ i : Fin 32, src (ix3 r i l) := by
  refine (Ideal.multiReduction_add_single src 0x00000000#32 reduces_S16x32x512_S16x512 hφ hacc (ix2 r l)).trans ?_
  exact Finset.sum_congr rfl fun k _ => congrArg src (lift1_eq r l k)

/-- The sum along the position axis, at `r`: the row's sum. -/
theorem rowsum_apply (src : FVec Ideal S16x512 .f32) (hφ : FKind.Formats .f32)
    (hacc : (0x00000000#32 : BitVec 32) = 0x00000000#32) (r : Fin 16) :
    multiReduction .add [1] S16 src 0x00000000#32 reduces_S16x512_S16 hφ hacc (ix1 r)
      = ∑ l : Fin 512, src (ix2 r l) := by
  refine (Ideal.multiReduction_add_single src 0x00000000#32 reduces_S16x512_S16 hφ hacc (ix1 r)).trans ?_
  exact Finset.sum_congr rfl fun k _ => congrArg src (lift2_eq r k)

/-! ## One chunk -/

/-- A select on an equality test of two words is the `if` on their equality. -/
theorem select_cmpi_eq {α : Type} {n : Nat} (x y : BitVec n) (a b : α) :
    Scalar.select (IntOp.cmpi .eq x y) a b = if x = y then a else b := by
  show (if BitVec.ofBool (x == y) = 1 then a else b) = _
  by_cases h : x = y
  · have hb : (x == y) = true := beq_iff_eq.mpr h
    simp [hb, h]
  · have hb : (x == y) = false := beq_eq_false_iff_ne.mpr h
    simp [hb, h]

/-- Two query rows have the same word exactly when they are the same row. -/
theorem ofNat_eq_iff (i k : Fin 32) : BitVec.ofNat 32 i.val = BitVec.ofNat 32 k.val ↔ i = k := by
  constructor
  · intro h
    have h' := congrArg BitVec.toNat h
    simp only [BitVec.toNat_ofNat, Nat.reducePow] at h'
    apply Fin.ext
    have hi := i.isLt
    have hk := k.isLt
    omega
  · rintro rfl
    rfl

/-- A chunk's similarity block: the scaled query block times the text chunk, contracted over the feature axis. -/
def simV (x0 : Vec Ideal S16x32x256 .f32) (v : Vec Ideal S16x512x256 .f32) : FVec Ideal S16x32x512 .f32 :=
  matmul dot_S16x32x256_S16x512x256_S16x32x512_2_2_1_1_0_0 none (k0_pay3 x0) (truncf .bf16 v bitsLt_bf16_f32)
    (constant (F := Ideal) S16x32x512 .f32 0x00000000#32)

/-- At `(r, i, l)` it is the similarity of query row `(r, i)` with text row `(r, l)`. -/
theorem simV_apply (x0 : Vec Ideal S16x32x256 .f32) (v : Vec Ideal S16x512x256 .f32) (r : Fin 16) (i : Fin 32) (l : Fin 512) :
    simV x0 v (ix3 r i l) = simBlk x0 v r i l := by
  unfold simV simBlk
  refine (matmul_apply3 _ _ r i l).trans ?_
  refine Finset.sum_congr rfl fun d _ => ?_
  show (x0 (ix3 r i d) * Ideal.ofBits .f32 0x3D800000#32) * v (ix3 r l d) = _
  rw [Cert.Consts.ofBits_sixteenth]

/-- The chunk's softmax numerators at `(r, i, l)`. -/
theorem pay10_apply (x0 : Vec Ideal S16x32x256 .f32) (v : Vec Ideal S16x512x256 .f32) (r : Fin 16) (i : Fin 32) (l : Fin 512) :
    k0_pay10 x0 v (ix3 r i l) = Cert.Spec.colExp (fun i' => simBlk x0 v r i' l) i := by
  show Ideal.exp (simV x0 v (ix3 r i l)
      - broadcastTo S16x32x512 (shapeCast S16x1x512
          (multiReduction (F := Ideal) .maximumf [1] S16x512 (simV x0 v) 0xFF800000#32 reduces_S16x32x512_S16x512 (.inl rfl) rfl)
          shapeCasts_S16x512_S16x1x512) broadcasts_S16x1x512_S16x32x512 (ix3 r i l)) = _
  rw [keepdims_apply, colmax_apply, simV_apply]
  have e : (fun i' => simV x0 v (ix3 r i' l)) = fun i' => simBlk x0 v r i' l := funext fun i' => simV_apply x0 v r i' l
  rw [e]
  rfl

/-- The chunk's softmax denominator at `(r, l)`. -/
theorem pay12_apply (x0 : Vec Ideal S16x32x256 .f32) (v : Vec Ideal S16x512x256 .f32) (r : Fin 16) (l : Fin 512) :
    k0_pay12 x0 v (ix2 r l) = Cert.Spec.colSum (fun i => simBlk x0 v r i l) := by
  show shapeCast S16x512 (shapeCast S16x1x512
      (multiReduction (F := Ideal) .add [1] S16x512 (k0_pay10 x0 v) 0x00000000#32 reduces_S16x32x512_S16x512 (.inl rfl) rfl)
      shapeCasts_S16x512_S16x1x512) shapeCasts_S16x1x512_S16x512 (ix2 r l) = _
  rw [shapeCast_shapeCast, colsum_apply]
  unfold Cert.Spec.colSum
  exact Finset.sum_congr rfl fun i _ => pay10_apply x0 v r i l

/-- The row words of a chunk's labels. -/
def labRow (lab : Vec Ideal S16x512 .i32) : IVec S16x512 32 :=
  subi (select (cmpi .eq lab (broadcast S16x512 4294967295#32)) (broadcast S16x512 32#32) lab) (broadcast S16x512 1#32)

theorem labRow_apply (lab : Vec Ideal S16x512 .i32) (j : S16x512.Idx) : labRow lab j = Cert.Spec.rowWord (lab j) := by
  show IntOp.subi (Scalar.select (IntOp.cmpi .eq (lab j) 4294967295#32) 32#32 (lab j)) 1#32 = _
  rw [select_cmpi_eq]
  rfl

/-- The chunk's picked numerator at `(r, l)`, for a label in range: the numerator of the row the label names. -/
theorem pay11_apply (x0 : Vec Ideal S16x32x256 .f32) (v : Vec Ideal S16x512x256 .f32) (lab : Vec Ideal S16x512 .i32)
    (r : Fin 16) (l : Fin 512) (h : Cert.Spec.InRange (lab (ix2 r l))) :
    k0_pay11 x0 v lab (ix2 r l) = Cert.Spec.colExp (fun i => simBlk x0 v r i l) (Cert.Spec.rowOf (lab (ix2 r l))) := by
  show multiReduction (F := Ideal) .add [1] S16x512
      (select (cmpi .eq (iota .tc S16x32x512 32 [1] iota_S16x32x512_d1_w32)
          (broadcastTo S16x32x512 (shapeCast S16x1x512 (labRow lab) shapeCasts_S16x512_S16x1x512) broadcasts_S16x1x512_S16x32x512))
        (k0_pay10 x0 v) (broadcast S16x32x512 (Scalar.ofBits (F := Ideal) .f32 0x00000000#32)))
      0x00000000#32 reduces_S16x32x512_S16x512 (.inl rfl) rfl (ix2 r l) = _
  rw [colsum_apply]
  have term : ∀ i : Fin 32,
      select (cmpi .eq (iota .tc S16x32x512 32 [1] iota_S16x32x512_d1_w32)
          (broadcastTo S16x32x512 (shapeCast S16x1x512 (labRow lab) shapeCasts_S16x512_S16x1x512) broadcasts_S16x1x512_S16x32x512))
        (k0_pay10 x0 v) (broadcast S16x32x512 (Scalar.ofBits (F := Ideal) .f32 0x00000000#32)) (ix3 r i l)
      = if i = Cert.Spec.rowOf (lab (ix2 r l)) then Cert.Spec.colExp (fun i' => simBlk x0 v r i' l) i else 0 := by
    intro i
    show Scalar.select (IntOp.cmpi .eq (iota .tc S16x32x512 32 [1] iota_S16x32x512_d1_w32 (ix3 r i l))
          (broadcastTo S16x32x512 (shapeCast S16x1x512 (labRow lab) shapeCasts_S16x512_S16x1x512) broadcasts_S16x1x512_S16x32x512 (ix3 r i l)))
        (k0_pay10 x0 v (ix3 r i l)) (Ideal.ofBits .f32 0x00000000#32) = _
    rw [iota_single_apply, keepdims_apply, labRow_apply, select_cmpi_eq, pay10_apply, Cert.Consts.ofBits_zero,
      Cert.Spec.rowWord_of_inRange h]
    exact if_congr (ofNat_eq_iff i _) rfl rfl
  rw [Finset.sum_congr rfl fun i _ => term i, Finset.sum_ite_eq' Finset.univ, if_pos (Finset.mem_univ _)]

/-- One minus the quotient, summed over the positions, as a column. -/
def tailV (num den : FVec Ideal S16x512 .f32) : FVec Ideal S16x1 .f32 :=
  shapeCast S16x1
    (multiReduction (F := Ideal) .add [1] S16
      (subf (broadcast S16x512 (Scalar.ofBits (F := Ideal) .f32 0x3F800000#32)) (divf num den))
      0x00000000#32 reduces_S16x512_S16 (.inl rfl) rfl)
    shapeCasts_S16_S16x1

theorem tailV_apply (num den : FVec Ideal S16x512 .f32) (r : Fin 16) (u : Fin 1) :
    tailV num den (ix2 r u) = ∑ l : Fin 512, (((1 : ℝ) : EReal) - Ideal.div (num (ix2 r l)) (den (ix2 r l))) := by
  unfold tailV
  rw [col_apply, rowsum_apply]
  refine Finset.sum_congr rfl fun l _ => ?_
  show Ideal.ofBits .f32 0x3F800000#32 - Ideal.div (num (ix2 r l)) (den (ix2 r l)) = _
  rw [Cert.Consts.ofBits_one]

/-- A chunk's column at `r`, for labels in range: the chunk's contribution. -/
theorem chunk_apply (x0 : Vec Ideal S16x32x256 .f32) (v : Vec Ideal S16x512x256 .f32) (lab : Vec Ideal S16x512 .i32)
    (h : ∀ j, Cert.Spec.InRange (lab j)) (r : Fin 16) (u : Fin 1) :
    tailV (k0_pay11 x0 v lab) (k0_pay12 x0 v) (ix2 r u) = chunkSum x0 v lab r := by
  rw [tailV_apply]
  unfold chunkSum Cert.Spec.pick
  refine Finset.sum_congr rfl fun l _ => ?_
  rw [pay11_apply x0 v lab r l (h _), pay12_apply]

/-- The payload is the carried column plus the two chunks' columns. -/
theorem pay13_eq (x0 : Vec Ideal S16x32x256 .f32) (v7 : FVec Ideal S16x1 .f32) (v35 v36 : FVec Ideal S16x512 .f32)
    (v46 : Vec Ideal S16x512x256 .f32) (v57 : Vec Ideal S16x512 .i32) :
    k0_pay13 (F := Ideal) (k0_pay3 x0) v7 v35 v36 v46 v57
      = addf (addf v7 (tailV v35 v36)) (tailV (k0_pay11 x0 v46 v57) (k0_pay12 x0 v46)) := rfl

/-- The accumulation payload at batch row `r`: the two chunks' contributions, for labels in range. -/
theorem step_apply (x0 : Vec Ideal S16x32x256 .f32) (v11 v46 : Vec Ideal S16x512x256 .f32) (v22 v57 : Vec Ideal S16x512 .i32)
    (h22 : ∀ j, Cert.Spec.InRange (v22 j)) (h57 : ∀ j, Cert.Spec.InRange (v57 j)) (r : Fin 16) :
    k0_pay13 (F := Ideal) (k0_pay3 x0) (k0_pay9 (F := Ideal)) (k0_pay11 x0 v11 v22) (k0_pay12 x0 v11) v46 v57 (ix2 r (0 : Fin 1))
      = chunkSum x0 v11 v22 r + chunkSum x0 v46 v57 r := by
  rw [pay13_eq]
  show (Ideal.ofBits .f32 0x00000000#32 + tailV (k0_pay11 x0 v11 v22) (k0_pay12 x0 v11) (ix2 r (0 : Fin 1)))
      + tailV (k0_pay11 x0 v46 v57) (k0_pay12 x0 v46) (ix2 r (0 : Fin 1)) = _
  rw [Cert.Consts.ofBits_zero, zero_add, chunk_apply x0 v11 v22 h22, chunk_apply x0 v46 v57 h57]

end Cert.KernelIdeal.PayStep

end
-- ==== Proof.PayGram.lean ====
/-
  The two Gram payloads of the kernel body, read at an index over the extended reals.
-/
import proofs.«430811_j35107062677773_3_alg».proof.Proof.Gen.KernelIdeal.Skeleton
import proofs.«430811_j35107062677773_3_alg».proof.Proof.Spec
import proofs.«430811_j35107062677773_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayGram

open Idealize.ShloMosaic Idealize.ShloMosaic.ValueIdx Cert.KernelIdeal Cert.KernelIdeal.Gen

/-- The Gram entry of rows `i` and `p` of batch row `r` of a query block. -/
def g (x0 : Vec Ideal S16x32x256 .f32) (r : Fin 16) (i p : Fin 32) : EReal :=
  ∑ d : Fin 256, x0 (ix3 r i d) * x0 (ix3 r p d)

/-! ## The batched product at an index -/

theorem lhs_gram_0 (i : S16x32x32.Idx) (q : dot_S16x32x256_S16x32x256_S16x32x32_2_2_1_1_0_0.contr.Idx) :
    (dot_S16x32x256_S16x32x256_S16x32x32_2_2_1_1_0_0.lhsIdx i q 0).val = (i 0).val := by
  unfold DotDims.lhsIdx
  rw [dif_pos (show (0 : Fin S16x32x256.rank) ∈ dot_S16x32x256_S16x32x256_S16x32x32_2_2_1_1_0_0.lhsBatch by decide)]
  rfl
theorem lhs_gram_1 (i : S16x32x32.Idx) (q : dot_S16x32x256_S16x32x256_S16x32x32_2_2_1_1_0_0.contr.Idx) :
    (dot_S16x32x256_S16x32x256_S16x32x32_2_2_1_1_0_0.lhsIdx i q 1).val = (i 1).val := by
  unfold DotDims.lhsIdx
  rw [dif_neg (show ¬(1 : Fin S16x32x256.rank) ∈ dot_S16x32x256_S16x32x256_S16x32x32_2_2_1_1_0_0.lhsBatch by decide), dif_pos (show (1 : Fin S16x32x256.rank) ∈ dot_S16x32x256_S16x32x256_S16x32x32_2_2_1_1_0_0.lhsNonContracting by decide)]
  rfl
theorem lhs_gram_2 (i : S16x32x32.Idx) (q : dot_S16x32x256_S16x32x256_S16x32x32_2_2_1_1_0_0.contr.Idx) :
    (dot_S16x32x256_S16x32x256_S16x32x32_2_2_1_1_0_0.lhsIdx i q 2).val = (q ⟨0, by decide⟩).val :=
  dot_S16x32x256_S16x32x256_S16x32x32_2_2_1_1_0_0.lhsIdx_val_of_single rfl i q
theorem rhs_gram_0 (i : S16x32x32.Idx) (q : dot_S16x32x256_S16x32x256_S16x32x32_2_2_1_1_0_0.contr.Idx) :
    (dot_S16x32x256_S16x32x256_S16x32x32_2_2_1_1_0_0.rhsIdx i q 0).val = (i 0).val := by
  unfold DotDims.rhsIdx
  rw [dif_pos (show (0 : Fin S16x32x256.rank) ∈ dot_S16x32x256_S16x32x256_S16x32x32_2_2_1_1_0_0.rhsBatch by decide)]
  rfl
theorem rhs_gram_1 (i : S16x32x32.Idx) (q : dot_S16x32x256_S16x32x256_S16x32x32_2_2_1_1_0_0.contr.Idx) :
    (dot_S16x32x256_S16x32x256_S16x32x32_2_2_1_1_0_0.rhsIdx i q 1).val = (i 2).val := by
  unfold DotDims.rhsIdx
  rw [dif_neg (show ¬(1 : Fin S16x32x256.rank) ∈ dot_S16x32x256_S16x32x256_S16x32x32_2_2_1_1_0_0.rhsBatch by decide), dif_pos (show (1 : Fin S16x32x256.rank) ∈ dot_S16x32x256_S16x32x256_S16x32x32_2_2_1_1_0_0.rhsNonContracting by decide)]
  rfl
theorem rhs_gram_2 (i : S16x32x32.Idx) (q : dot_S16x32x256_S16x32x256_S16x32x32_2_2_1_1_0_0.contr.Idx) :
    (dot_S16x32x256_S16x32x256_S16x32x32_2_2_1_1_0_0.rhsIdx i q 2).val = (q ⟨0, by decide⟩).val :=
  dot_S16x32x256_S16x32x256_S16x32x32_2_2_1_1_0_0.rhsIdx_val_of_single rfl i q

/-- The product of the block with itself over the feature axis, batched over the first axis: at `(r, i, p)`
    it is the Gram entry of rows `i` and `p` of batch row `r`. -/
theorem pay5_apply (x0 : Vec Ideal S16x32x256 .f32) (r : Fin 16) (i p : Fin 32) :
    k0_pay5 (F := Ideal) x0 (ix3 r i p) = g x0 r i p := by
  unfold k0_pay5 g
  refine (Ideal.matmul_constant_zero_apply dot_S16x32x256_S16x32x256_S16x32x32_2_2_1_1_0_0 none _ _ (ix3 r i p)).trans ?_
  rw [← Equiv.sum_comp (ValueIdx.contrEquiv1 dot_S16x32x256_S16x32x256_S16x32x32_2_2_1_1_0_0 256 rfl rfl).symm]
  refine Finset.sum_congr rfl fun k _ => ?_
  have hk := ValueIdx.contrEquiv1_symm_val dot_S16x32x256_S16x32x256_S16x32x32_2_2_1_1_0_0 256 rfl rfl k
  have el : dot_S16x32x256_S16x32x256_S16x32x32_2_2_1_1_0_0.lhsIdx (ix3 r i p) ((ValueIdx.contrEquiv1 dot_S16x32x256_S16x32x256_S16x32x32_2_2_1_1_0_0 256 rfl rfl).symm k) = ix3 r i k := funext fun a => Fin.ext (by
    match a with
    | ⟨0, _⟩ => exact lhs_gram_0 _ _
    | ⟨1, _⟩ => exact lhs_gram_1 _ _
    | ⟨2, _⟩ => exact (lhs_gram_2 _ _).trans hk)
  have er : dot_S16x32x256_S16x32x256_S16x32x32_2_2_1_1_0_0.rhsIdx (ix3 r i p) ((ValueIdx.contrEquiv1 dot_S16x32x256_S16x32x256_S16x32x32_2_2_1_1_0_0 256 rfl rfl).symm k) = ix3 r p k := funext fun a => Fin.ext (by
    match a with
    | ⟨0, _⟩ => exact rhs_gram_0 _ _
    | ⟨1, _⟩ => exact rhs_gram_1 _ _
    | ⟨2, _⟩ => exact (rhs_gram_2 _ _).trans hk)
  rw [el, er]
  rfl

/-! ## The diagonal mask at an index -/

/-- Two row numbers below 32 are equal as 32-bit words exactly when they are equal. -/
theorem ofNat_eq_iff (i p : Fin 32) : BitVec.ofNat 32 i.val = BitVec.ofNat 32 p.val ↔ i = p := by
  constructor
  · intro h
    have ht := congrArg BitVec.toNat h
    rw [BitVec.toNat_ofNat, BitVec.toNat_ofNat] at ht
    have hi := i.isLt
    have hp := p.isLt
    exact Fin.ext (by omega)
  · rintro rfl; rfl

/-- The mask is the real `1` on the diagonal and `0` off it. -/
theorem pay6_apply (r : Fin 16) (i p : Fin 32) :
    k0_pay6 (F := Ideal) (ix3 r i p) = if i = p then ((1 : ℝ) : EReal) else 0 := by
  unfold k0_pay6
  rw [sitofp_apply, extui_apply]
  show FloatOps.sitofp .f32 ((IntOp.cmpi .eq (iota .tc S16x32x32 32 [1] Facts₀.iota_S16x32x32_d1_w32 (ix3 r i p))
      (iota .tc S16x32x32 32 [2] Facts₀.iota_S16x32x32_d2_w32 (ix3 r i p))).setWidth 32) = _
  rw [iota_single_apply, iota_single_apply]
  show ((((IntOp.cmpi .eq (BitVec.ofNat 32 i.val) (BitVec.ofNat 32 p.val)).setWidth 32).toInt : ℝ) : EReal) = _
  by_cases h : i = p
  · have hc : IntOp.cmpi .eq (BitVec.ofNat 32 i.val) (BitVec.ofNat 32 p.val) = 1#1 := by
      unfold IntOp.cmpi
      simp only [(ofNat_eq_iff i p).2 h, beq_self_eq_true]
      rfl
    rw [hc, if_pos h]
    norm_num
  · have hc : IntOp.cmpi .eq (BitVec.ofNat 32 i.val) (BitVec.ofNat 32 p.val) = 0#1 := by
      unfold IntOp.cmpi
      have hne : ¬ BitVec.ofNat 32 i.val = BitVec.ofNat 32 p.val := fun e => h ((ofNat_eq_iff i p).1 e)
      simp only [beq_eq_false_iff_ne.2 hne]
      rfl
    rw [hc, if_neg h]
    norm_num

/-! ## The lane sums and the column cast at an index -/

/-- The sum over the last axis of a `[16, 32, 32]` array, at `(r, i)`. -/
theorem sum_last (src : FVec Ideal S16x32x32 .f32) (hacc : (0x00000000#32 : BitVec 32) = 0x00000000#32) (r : Fin 16) (i : Fin 32) :
    multiReduction (F := Ideal) .add [2] S16x32 src 0x00000000#32 Facts₀.reduces_S16x32x32_S16x32 (.inl rfl) hacc (ix2 r i)
      = ∑ p : Fin 32, src (ix3 r i p) := by
  refine (Ideal.multiReduction_add_single src 0x00000000#32 Facts₀.reduces_S16x32x32_S16x32 (.inl rfl) hacc (ix2 r i)).trans ?_
  refine Finset.sum_congr rfl fun p _ => congrArg src ?_
  funext c
  match c with
  | ⟨0, _⟩ => rfl
  | ⟨1, _⟩ => rfl
  | ⟨2, _⟩ => rfl

/-- The sum over the last axis of a `[16, 32]` array, at `r`. -/
theorem sum_rows (src : FVec Ideal S16x32 .f32) (hacc : (0x00000000#32 : BitVec 32) = 0x00000000#32) (r : Fin 16) :
    multiReduction (F := Ideal) .add [1] S16 src 0x00000000#32 Facts₀.reduces_S16x32_S16 (.inl rfl) hacc (ix1 r)
      = ∑ i : Fin 32, src (ix2 r i) := by
  refine (Ideal.multiReduction_add_single src 0x00000000#32 Facts₀.reduces_S16x32_S16 (.inl rfl) hacc (ix1 r)).trans ?_
  refine Finset.sum_congr rfl fun i _ => congrArg src ?_
  funext c
  match c with
  | ⟨0, _⟩ => rfl
  | ⟨1, _⟩ => rfl

/-- A `[16]` array cast to a `[16, 1]` column reads, at `(r, 0)`, the operand at `r`. -/
theorem cast_column {α : Type} (x : S16.Idx → α) (r : Fin 16) (u : Fin 1) :
    shapeCast S16x1 x Facts₀.shapeCasts_S16_S16x1 (ix2 r u) = x (ix1 r) :=
  shapeCast_apply x Facts₀.shapeCasts_S16_S16x1 _ _ (by
    have hu : u.val = 0 := by omega
    rw [Shape.rowMajor_val_two, Shape.rowMajor_val_one]
    show r.val = r.val * 1 + u.val
    rw [hu, Nat.mul_one, Nat.add_zero])

/-- The orthogonality payload at batch row `r` of the block. -/
theorem pay7_apply (x0 : Vec Ideal S16x32x256 .f32) (r : Fin 16) :
    k0_pay7 (F := Ideal) x0 (ix2 r (0 : Fin 1))
      = Ideal.div ((∑ i : Fin 32, ∑ p : Fin 32, max (g x0 r i p) (-(g x0 r i p)) * (if i = p then (0 : EReal) else ((1 : ℝ) : EReal)))
          * ((1 / 2 : ℝ) : EReal)) ((496 : ℝ) : EReal) := by
  unfold k0_pay7
  show Ideal.div
      (shapeCast S16x1 (multiReduction (F := Ideal) .add [1] S16
          (multiReduction (F := Ideal) .add [2] S16x32
            (mulf (absf (k0_pay5 x0)) (subf (broadcast S16x32x32 (Scalar.ofBits .f32 0x3F800000#32)) (k0_pay6 (F := Ideal))))
            0x00000000#32 Facts₀.reduces_S16x32x32_S16x32 (.inl rfl) rfl)
          0x00000000#32 Facts₀.reduces_S16x32_S16 (.inl rfl) rfl) Facts₀.shapeCasts_S16_S16x1 (ix2 r (0 : Fin 1))
        * Ideal.ofBits .f32 0x3F000000#32)
      (Ideal.ofBits .f32 0x43F80000#32) = _
  rw [cast_column, sum_rows, Consts.ofBits_half, Consts.ofBits_496]
  refine congrArg (fun s : EReal => Ideal.div (s * ((1 / 2 : ℝ) : EReal)) ((496 : ℝ) : EReal)) ?_
  refine Finset.sum_congr rfl fun i _ => ?_
  rw [sum_last]
  refine Finset.sum_congr rfl fun p _ => ?_
  show max (k0_pay5 (F := Ideal) x0 (ix3 r i p)) (-(k0_pay5 (F := Ideal) x0 (ix3 r i p)))
      * (Ideal.ofBits .f32 0x3F800000#32 - k0_pay6 (F := Ideal) (ix3 r i p)) = _
  rw [pay5_apply, pay6_apply, Consts.ofBits_one]
  by_cases h : i = p
  · rw [if_pos h, if_pos h, ← EReal.coe_sub, sub_self, EReal.coe_zero]
  · rw [if_neg h, if_neg h, sub_zero]

/-- The size payload at batch row `r` of the block. -/
theorem pay8_apply (x0 : Vec Ideal S16x32x256 .f32) (r : Fin 16) :
    k0_pay8 (F := Ideal) x0 (ix2 r (0 : Fin 1))
      = Ideal.div (∑ i : Fin 32, max (((1 : ℝ) : EReal) - g x0 r i i) 0) ((31 : ℝ) : EReal) := by
  unfold k0_pay8
  show Ideal.div
      (shapeCast S16x1 (multiReduction (F := Ideal) .add [1] S16
          (maximumf (subf (broadcast S16x32 (Scalar.ofBits .f32 0x3F800000#32))
              (multiReduction (F := Ideal) .add [2] S16x32 (mulf (k0_pay5 x0) (k0_pay6 (F := Ideal)))
                0x00000000#32 Facts₀.reduces_S16x32x32_S16x32 (.inl rfl) rfl))
            (broadcast S16x32 (Scalar.ofBits .f32 0x00000000#32)))
          0x00000000#32 Facts₀.reduces_S16x32_S16 (.inl rfl) rfl) Facts₀.shapeCasts_S16_S16x1 (ix2 r (0 : Fin 1)))
      (Ideal.ofBits .f32 0x41F80000#32) = _
  rw [cast_column, sum_rows, Consts.ofBits_31]
  refine congrArg (fun s : EReal => Ideal.div s ((31 : ℝ) : EReal)) ?_
  refine Finset.sum_congr rfl fun i _ => ?_
  show max (Ideal.ofBits .f32 0x3F800000#32
        - multiReduction (F := Ideal) .add [2] S16x32 (mulf (k0_pay5 x0) (k0_pay6 (F := Ideal)))
            0x00000000#32 Facts₀.reduces_S16x32x32_S16x32 (.inl rfl) rfl (ix2 r i))
      (Ideal.ofBits .f32 0x00000000#32) = _
  rw [sum_last, Consts.ofBits_one, Consts.ofBits_zero]
  refine congrArg (fun s : EReal => max (((1 : ℝ) : EReal) - s) 0) ?_
  refine (Finset.sum_eq_single i (fun p _ hp => ?_) (fun hi => absurd (Finset.mem_univ i) hi)).trans ?_
  · show k0_pay5 (F := Ideal) x0 (ix3 r i p) * k0_pay6 (F := Ideal) (ix3 r i p) = 0
    rw [pay6_apply, if_neg (fun e => hp e.symm), mul_zero]
  · show k0_pay5 (F := Ideal) x0 (ix3 r i i) * k0_pay6 (F := Ideal) (ix3 r i i) = _
    rw [pay5_apply, pay6_apply, if_pos rfl, EReal.coe_one, mul_one]

end Cert.KernelIdeal.PayGram

end
-- ==== Proof.Pieces.lean ====
/-
  What each case of the body leaves in the accumulator and in the three output buffers, read at a batch row of the
  block over the extended reals: the pieces the runs found are the payloads, and the payloads are sums.
-/
import proofs.«430811_j35107062677773_3_alg».proof.Proof.BodyIdeal
import proofs.«430811_j35107062677773_3_alg».proof.Proof.PayStep
import proofs.«430811_j35107062677773_3_alg».proof.Proof.PayGram
import proofs.«430811_j35107062677773_3_alg».proof.Proof.Spec
import proofs.«430811_j35107062677773_3_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pieces

open Idealize.ShloMosaic Idealize.ShloMosaic.ValueIdx Idealize.ShloMosaic.TcCoe Idealize.SL.Sem
open Cert.KernelIdeal Cert.KernelIdeal.Gen Cert.KernelIdeal.Body

/-- One grid point's contribution at batch row `r` of its blocks: over the 1024 text positions of the text block, one
    minus the picked probability (the query factor scaled by 1/16 before the inner product). -/
def stepSum (x0 : Vec Ideal S16x32x256 .f32) (x1 : Vec Ideal S16x1024x256 .f32) (x2 : Vec Ideal S16x1024 .i32) (r : Fin 16) : EReal :=
  ∑ l : Fin 1024, (((1 : ℝ) : EReal)
    - Cert.Spec.pick (fun i => ∑ d : Fin 256, (x0 (ix3 r i d) * ((1 / 16 : ℝ) : EReal)) * x1 (ix3 r l d)) (Cert.Spec.rowOf (x2 (ix2 r l))))

/-! ## The pieces the runs found are the payloads -/

section Found

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem inbT0 : ∀ a, (![0, 0, 0] : Fin 3 → Nat) a + S16x512x256.size a ≤ S16x1024x256.size a := by decide
theorem inbT1 : ∀ a, (![0, 512, 0] : Fin 3 → Nat) a + S16x512x256.size a ≤ S16x1024x256.size a := by decide
theorem inbL0 : ∀ a, (![0, 0] : Fin 2 → Nat) a + S16x512.size a ≤ S16x1024.size a := by decide
theorem inbL1 : ∀ a, (![0, 512] : Fin 2 → Nat) a + S16x512.size a ≤ S16x1024.size a := by decide

/-- The first 512 text positions of a text block, -/
def txt0 (x1 : Vec F S16x1024x256 .f32) : Vec F S16x512x256 .f32 :=
  View.ld x1 (Rect.unit (s := S16x1024x256) ![0, 0, 0] S16x512x256.size inbT0)
/-- the last 512, -/
def txt1 (x1 : Vec F S16x1024x256 .f32) : Vec F S16x512x256 .f32 :=
  View.ld x1 (Rect.unit (s := S16x1024x256) ![0, 512, 0] S16x512x256.size inbT1)
/-- and the labels of the first -/
def lab0 (x2 : Vec F S16x1024 .i32) : Vec F S16x512 .i32 :=
  View.ld x2 (Rect.unit (s := S16x1024) ![0, 0] S16x512.size inbL0)
/-- and of the last 512 positions. -/
def lab1 (x2 : Vec F S16x1024 .i32) : Vec F S16x512 .i32 :=
  View.ld x2 (Rect.unit (s := S16x1024) ![0, 512] S16x512.size inbL1)

/-- One grid point's accumulation payload over its blocks: the two chunks' columns added to a zero column. -/
def stepV (x0 : Vec F S16x32x256 .f32) (x1 : Vec F S16x1024x256 .f32) (x2 : Vec F S16x1024 .i32) : FVec F S16x1 .f32 :=
  k0_pay13 (k0_pay3 x0) (k0_pay9 (F := F)) (k0_pay11 x0 (txt0 x1) (lab0 x2)) (k0_pay12 x0 (txt0 x1)) (txt1 x1) (lab1 x2)

/-- Case A's accumulator: the reset column plus the payload. -/
theorem accA_piece (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) :
    sout0_A_0 (F := F) c i arg2 harg2 arg3 harg3 arg4 harg4 arg5 harg5 arg6 harg6 arg7 harg7 arg8 harg8 hc0 hc1 x0 x1 x2 = k0_pay1 (stepV x0 x1 x2) (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S16x1) hz2, View.readCov_unit_zero (S := S16x1) _ hz2]
  simp only [View.readAt_eq_ld, harg2.read_unread, harg3.read_unread, harg4.read_unread, View.ld_unit_zero (S := S16x32x256) hz3]
  rfl

/-- Case B's accumulator: the carried column plus the payload. -/
theorem accB_piece (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : ¬cond0_1 i)
    (x0 : Vec F S16x32x256 .f32) (x1 : Vec F S16x1024x256 .f32) (x2 : Vec F S16x1024 .i32) (xs0 : Vec F S16x1 .f32) :
    sout0_B_0 (F := F) c i arg2 harg2 arg3 harg3 arg4 harg4 arg5 harg5 arg6 harg6 arg7 harg7 arg8 harg8 hc0 hc1 x0 x1 x2 xs0 = k0_pay1 (stepV x0 x1 x2) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0)]
  unfold kernelRun0_B
  dsimp only
  sl_unfold_words
  rw [View.canon_unit_zero (S := S16x1) hz2]
  simp only [View.readAt_eq_ld, harg2.read_unread, harg3.read_unread, harg4.read_unread, View.ld_unit_zero (S := S16x32x256) hz3, harg8.read_unread, View.ld_unit_zero (S := S16x1) hz2]
  rfl

/-- Case C's accumulator: likewise. -/
theorem accC_piece (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) :
    sout0_C_0 (F := F) c i arg2 harg2 arg3 harg3 arg4 harg4 arg5 harg5 arg6 harg6 arg7 harg7 arg8 harg8 hc0 hc1 x0 x1 x2 xs0 = k0_pay1 (stepV x0 x1 x2) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0)]
  unfold kernelRun0_C
  dsimp only
  sl_unfold_words
  rw [View.canon_unit_zero (S := S16x1) hz2]
  simp only [View.readAt_eq_ld, harg2.read_unread, harg3.read_unread, harg4.read_unread, View.ld_unit_zero (S := S16x32x256) hz3, harg8.read_unread, View.ld_unit_zero (S := S16x1) hz2]
  rfl

/-- Case C's contrastive output: the new accumulator scaled. -/
theorem out3C_piece (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec F S16x32x256 .f32) (x1 : Vec F S16x1024x256 .f32) (x2 : Vec F S16x1024 .i32) (xs0 : Vec F S16x1 .f32) :
    out0_C_3 (F := F) c i arg2 harg2 arg3 harg3 arg4 harg4 arg5 harg5 arg6 harg6 arg7 harg7 arg8 harg8 hc0 hc1 x0 x1 x2 xs0 = k0_pay2 (k0_pay1 (stepV x0 x1 x2) xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0)]
  unfold kernelRun0_C
  dsimp only
  sl_unfold_words
  rw [View.canon_unit_zero (S := S16x1) hz2, View.readCov_unit_zero (S := S16x1) _ hz2]
  simp only [View.readAt_eq_ld, harg2.read_unread, harg3.read_unread, harg4.read_unread, View.ld_unit_zero (S := S16x32x256) hz3, harg8.read_unread, View.ld_unit_zero (S := S16x1) hz2]
  rfl

/-- Case A's orthogonality output is its payload of the query block. -/
theorem out4A_piece (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) :
    out0_A_4 (F := F) c i arg2 harg2 arg3 harg3 arg4 harg4 arg5 harg5 arg6 harg6 arg7 harg7 arg8 harg8 hc0 hc1 x0 x1 x2 = k0_pay7 x0 := by
  unfold out0_A_4
  rw [View.read_writes_eq_canon _ _ _ (cover0_A_4 c i arg2 harg2 arg3 harg3 arg4 harg4 arg5 harg5 arg6 harg6 arg7 harg7 arg8 harg8 hc0 hc1 x0 x1 x2)]
  unfold kernelRun0_A
  dsimp only
  sl_unfold_words
  rw [View.canon_unit_zero (S := S16x1) hz2]
  simp only [View.readAt_eq_ld, harg2.read_unread, harg3.read_unread, harg4.read_unread, View.ld_unit_zero (S := S16x32x256) hz3]

/-- Case A's size output is its payload of the query block. -/
theorem out5A_piece (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec F S16x32x256 .f32) (x1 : Vec F S16x1024x256 .f32) (x2 : Vec F S16x1024 .i32) :
    out0_A_5 (F := F) c i arg2 harg2 arg3 harg3 arg4 harg4 arg5 harg5 arg6 harg6 arg7 harg7 arg8 harg8 hc0 hc1 x0 x1 x2 = k0_pay8 x0 := by
  unfold out0_A_5
  rw [View.read_writes_eq_canon _ _ _ (cover0_A_5 c i arg2 harg2 arg3 harg3 arg4 harg4 arg5 harg5 arg6 harg6 arg7 harg7 arg8 harg8 hc0 hc1 x0 x1 x2)]
  unfold kernelRun0_A
  dsimp only
  sl_unfold_words
  rw [View.canon_unit_zero (S := S16x1) hz2]
  simp only [View.readAt_eq_ld, harg2.read_unread, harg3.read_unread, harg4.read_unread, View.ld_unit_zero (S := S16x32x256) hz3]

end Found

/-! ## The payloads at a batch row, over the extended reals -/

/-- Position `l` of the first chunk, as a position of the block, -/
def lo (l : Fin 512) : Fin 1024 := ⟨l.val, by omega⟩
/-- and of the second. -/
def hi (l : Fin 512) : Fin 1024 := ⟨512 + l.val, by omega⟩

/-- A sum over the 1024 positions is the two chunks' sums. -/
theorem sum_split {M : Type} [AddCommMonoid M] (f : Fin 1024 → M) :
    ∑ l : Fin 1024, f l = ∑ l : Fin 512, f (lo l) + ∑ l : Fin 512, f (hi l) :=
  Fin.sum_univ_add (a := 512) (b := 512) f

theorem txt0_apply (x1 : Vec Ideal S16x1024x256 .f32) (r : Fin 16) (l : Fin 512) (d : Fin 256) :
    txt0 x1 (ix3 r l d) = x1 (ix3 r (lo l) d) := by
  show x1 ((Rect.unit (s := S16x1024x256) ![0, 0, 0] S16x512x256.size inbT0).toLoadRect.idx (ix3 r l d)) = _
  refine congrArg x1 (funext fun a => Fin.ext ?_)
  match a with
  | ⟨0, _⟩ => show 0 + 1 * r.val = r.val; omega
  | ⟨1, _⟩ => show 0 + 1 * l.val = l.val; omega
  | ⟨2, _⟩ => show 0 + 1 * d.val = d.val; omega

theorem txt1_apply (x1 : Vec Ideal S16x1024x256 .f32) (r : Fin 16) (l : Fin 512) (d : Fin 256) :
    txt1 x1 (ix3 r l d) = x1 (ix3 r (hi l) d) := by
  show x1 ((Rect.unit (s := S16x1024x256) ![0, 512, 0] S16x512x256.size inbT1).toLoadRect.idx (ix3 r l d)) = _
  refine congrArg x1 (funext fun a => Fin.ext ?_)
  match a with
  | ⟨0, _⟩ => show 0 + 1 * r.val = r.val; omega
  | ⟨1, _⟩ => show 512 + 1 * l.val = 512 + l.val; omega
  | ⟨2, _⟩ => show 0 + 1 * d.val = d.val; omega

theorem lab0_apply (x2 : Vec Ideal S16x1024 .i32) (r : Fin 16) (l : Fin 512) :
    lab0 x2 (ix2 r l) = x2 (ix2 r (lo l)) := by
  show x2 ((Rect.unit (s := S16x1024) ![0, 0] S16x512.size inbL0).toLoadRect.idx (ix2 r l)) = _
  refine congrArg x2 (funext fun a => Fin.ext ?_)
  match a with
  | ⟨0, _⟩ => show 0 + 1 * r.val = r.val; omega
  | ⟨1, _⟩ => show 0 + 1 * l.val = l.val; omega

theorem lab1_apply (x2 : Vec Ideal S16x1024 .i32) (r : Fin 16) (l : Fin 512) :
    lab1 x2 (ix2 r l) = x2 (ix2 r (hi l)) := by
  show x2 ((Rect.unit (s := S16x1024) ![0, 512] S16x512.size inbL1).toLoadRect.idx (ix2 r l)) = _
  refine congrArg x2 (funext fun a => Fin.ext ?_)
  match a with
  | ⟨0, _⟩ => show 0 + 1 * r.val = r.val; omega
  | ⟨1, _⟩ => show 512 + 1 * l.val = 512 + l.val; omega

/-- The accumulator's update at an entry: what was loaded plus the payload. -/
theorem pay1_apply (v77 : FVec Ideal S16x1 .f32) (v78 : Vec Ideal S16x1 .f32) (j : S16x1.Idx) :
    k0_pay1 v77 v78 j = v78 j + v77 j := by
  show shapeCast S16x1 (addf v78 v77) shapeCasts_S16x1_S16x1 j = _
  rw [shapeCast_self]
  rfl

/-- The reset column is zero. -/
theorem pay4_apply (j : S16x1.Idx) : k0_pay4 (F := Ideal) j = 0 := by
  show shapeCast S16x1 (broadcast S16x1 (Scalar.ofBits (F := Ideal) .f32 0x00000000#32)) shapeCasts_S16x1_S16x1 j = _
  rw [shapeCast_self]
  exact Cert.Consts.ofBits_zero

/-- The contrastive output's scaling at an entry. -/
theorem pay2_apply (v86 : Vec Ideal S16x1 .f32) (j : S16x1.Idx) :
    k0_pay2 v86 j = v86 j * ((1 / 8192 : ℝ) : EReal) := by
  show v86 j * Ideal.ofBits .f32 0x39000000#32 = _
  rw [Cert.Consts.ofBits_inv8192]

/-- The accumulation payload at batch row `r`, for labels in range: the block's contribution. -/
theorem stepV_apply (x0 : Vec Ideal S16x32x256 .f32) (x1 : Vec Ideal S16x1024x256 .f32) (x2 : Vec Ideal S16x1024 .i32)
    (hL : ∀ j, Cert.Spec.InRange (x2 j)) (r : Fin 16) :
    stepV x0 x1 x2 (ix2 r (0 : Fin 1)) = stepSum x0 x1 x2 r := by
  unfold stepV
  rw [PayStep.step_apply x0 (txt0 x1) (txt1 x1) (lab0 x2) (lab1 x2) (fun j => hL _) (fun j => hL _) r]
  unfold stepSum PayStep.chunkSum PayStep.simBlk
  rw [sum_split]
  simp only [txt0_apply, txt1_apply, lab0_apply, lab1_apply]

/-- Case A: the accumulator restarts at this point's contribution. -/
theorem accA_apply (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec Ideal S16x32x256 .f32) (x1 : Vec Ideal S16x1024x256 .f32) (x2 : Vec Ideal S16x1024 .i32) (hL : ∀ j, Cert.Spec.InRange (x2 j)) (r : Fin 16) :
    sout0_A_0 (F := Ideal) c i arg2 harg2 arg3 harg3 arg4 harg4 arg5 harg5 arg6 harg6 arg7 harg7 arg8 harg8 hc0 hc1 x0 x1 x2 (ix2 r (0 : Fin 1)) = stepSum x0 x1 x2 r := by
  refine (congrFun (accA_piece (F := Ideal) c i arg2 harg2 arg3 harg3 arg4 harg4 arg5 harg5 arg6 harg6 arg7 harg7 arg8 harg8 hc0 hc1 x0 x1 x2) (ix2 r (0 : Fin 1))).trans ?_
  rw [pay1_apply, pay4_apply, zero_add, stepV_apply x0 x1 x2 hL r]

/-- Case B: the accumulator grows by this point's contribution. -/
theorem accB_apply (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : ¬cond0_1 i)
    (x0 : Vec Ideal S16x32x256 .f32) (x1 : Vec Ideal S16x1024x256 .f32) (x2 : Vec Ideal S16x1024 .i32) (xs0 : Vec Ideal S16x1 .f32) (hL : ∀ j, Cert.Spec.InRange (x2 j)) (r : Fin 16) :
    sout0_B_0 (F := Ideal) c i arg2 harg2 arg3 harg3 arg4 harg4 arg5 harg5 arg6 harg6 arg7 harg7 arg8 harg8 hc0 hc1 x0 x1 x2 xs0 (ix2 r (0 : Fin 1)) = xs0 (ix2 r (0 : Fin 1)) + stepSum x0 x1 x2 r := by
  refine (congrFun (accB_piece (F := Ideal) c i arg2 harg2 arg3 harg3 arg4 harg4 arg5 harg5 arg6 harg6 arg7 harg7 arg8 harg8 hc0 hc1 x0 x1 x2 xs0) (ix2 r (0 : Fin 1))).trans ?_
  rw [pay1_apply, stepV_apply x0 x1 x2 hL r]

/-- Case C: likewise, -/
theorem accC_apply (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec Ideal S16x32x256 .f32) (x1 : Vec Ideal S16x1024x256 .f32) (x2 : Vec Ideal S16x1024 .i32) (xs0 : Vec Ideal S16x1 .f32) (hL : ∀ j, Cert.Spec.InRange (x2 j)) (r : Fin 16) :
    sout0_C_0 (F := Ideal) c i arg2 harg2 arg3 harg3 arg4 harg4 arg5 harg5 arg6 harg6 arg7 harg7 arg8 harg8 hc0 hc1 x0 x1 x2 xs0 (ix2 r (0 : Fin 1)) = xs0 (ix2 r (0 : Fin 1)) + stepSum x0 x1 x2 r := by
  refine (congrFun (accC_piece (F := Ideal) c i arg2 harg2 arg3 harg3 arg4 harg4 arg5 harg5 arg6 harg6 arg7 harg7 arg8 harg8 hc0 hc1 x0 x1 x2 xs0) (ix2 r (0 : Fin 1))).trans ?_
  rw [pay1_apply, stepV_apply x0 x1 x2 hL r]

/-- and the contrastive output is the new accumulator times 1/8192. -/
theorem out3C_apply (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : ¬cond0_0 i) (hc1 : cond0_1 i)
    (x0 : Vec Ideal S16x32x256 .f32) (x1 : Vec Ideal S16x1024x256 .f32) (x2 : Vec Ideal S16x1024 .i32) (xs0 : Vec Ideal S16x1 .f32) (hL : ∀ j, Cert.Spec.InRange (x2 j)) (r : Fin 16) :
    out0_C_3 (F := Ideal) c i arg2 harg2 arg3 harg3 arg4 harg4 arg5 harg5 arg6 harg6 arg7 harg7 arg8 harg8 hc0 hc1 x0 x1 x2 xs0 (ix2 r (0 : Fin 1))
      = (xs0 (ix2 r (0 : Fin 1)) + stepSum x0 x1 x2 r) * ((1 / 8192 : ℝ) : EReal) := by
  refine (congrFun (out3C_piece (F := Ideal) c i arg2 harg2 arg3 harg3 arg4 harg4 arg5 harg5 arg6 harg6 arg7 harg7 arg8 harg8 hc0 hc1 x0 x1 x2 xs0) (ix2 r (0 : Fin 1))).trans ?_
  rw [pay2_apply, pay1_apply, stepV_apply x0 x1 x2 hL r]

/-- Case A's orthogonality output at batch row `r` of the block. -/
theorem out4A_apply (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec Ideal S16x32x256 .f32) (x1 : Vec Ideal S16x1024x256 .f32) (x2 : Vec Ideal S16x1024 .i32) (r : Fin 16) :
    out0_A_4 (F := Ideal) c i arg2 harg2 arg3 harg3 arg4 harg4 arg5 harg5 arg6 harg6 arg7 harg7 arg8 harg8 hc0 hc1 x0 x1 x2 (ix2 r (0 : Fin 1))
      = Ideal.div ((∑ i : Fin 32, ∑ p : Fin 32, max (PayGram.g x0 r i p) (-(PayGram.g x0 r i p)) * (if i = p then (0 : EReal) else ((1 : ℝ) : EReal)))
          * ((1 / 2 : ℝ) : EReal)) ((496 : ℝ) : EReal) := by
  refine (congrFun (out4A_piece (F := Ideal) c i arg2 harg2 arg3 harg3 arg4 harg4 arg5 harg5 arg6 harg6 arg7 harg7 arg8 harg8 hc0 hc1 x0 x1 x2) (ix2 r (0 : Fin 1))).trans ?_
  exact PayGram.pay7_apply x0 r

/-- Case A's size output at batch row `r` of the block. -/
theorem out5A_apply (c : Dev nD) (i : grid0.Coords) (arg2 : Memref sig .tc .vmem S16x32x256 .f32) (harg2 : arg2.IsWhole) (arg3 : Memref sig .tc .vmem S16x1024x256 .f32) (harg3 : arg3.IsWhole) (arg4 : Memref sig .tc .vmem S16x1024 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (hc0 : cond0_0 i) (hc1 : ¬cond0_1 i)
    (x0 : Vec Ideal S16x32x256 .f32) (x1 : Vec Ideal S16x1024x256 .f32) (x2 : Vec Ideal S16x1024 .i32) (r : Fin 16) :
    out0_A_5 (F := Ideal) c i arg2 harg2 arg3 harg3 arg4 harg4 arg5 harg5 arg6 harg6 arg7 harg7 arg8 harg8 hc0 hc1 x0 x1 x2 (ix2 r (0 : Fin 1))
      = Ideal.div (∑ i : Fin 32, max (((1 : ℝ) : EReal) - PayGram.g x0 r i i) 0) ((31 : ℝ) : EReal) := by
  refine (congrFun (out5A_piece (F := Ideal) c i arg2 harg2 arg3 harg3 arg4 harg4 arg5 harg5 arg6 harg6 arg7 harg7 arg8 harg8 hc0 hc1 x0 x1 x2) (ix2 r (0 : Fin 1))).trans ?_
  exact PayGram.pay8_apply x0 r

end Cert.KernelIdeal.Pieces

end
-- ==== Proof.Blocks.lean ====
/-
  The windows' blocks read at coordinates of the argument arrays, and each output array from its two written-back
  blocks: the grid is 2 × 8, point `t` sits in batch half `t / 8` at text tile `t % 8`; a block row `r` is batch row
  `16 * (t / 8) + r`, a block's text position `l` is position `1024 * (t % 8) + l`; each output array of 32 rows is
  written back in two blocks of 16 rows, at the last point of each half.
-/
import proofs.«430811_j35107062677773_3_alg».proof.Proof.BodyIdeal
import Idealize.ShloMosaic.Lib.ValueIdx
import Idealize.ShloMosaic.Lib.Pipeline.Value

set_option maxRecDepth 16384

noncomputable section

namespace Cert.KernelIdeal.Blocks

open Idealize.ShloMosaic Idealize.ShloMosaic.ValueIdx Idealize.ShloMosaic.TcCoe Idealize.SL.Sem
open Cert.KernelIdeal Cert.KernelIdeal.Gen Cert.KernelIdeal.Body
open Idealize.ShloMosaic.Pipeline (Dat)

variable (m : (ℓ : Loc nD τ sig) → Buf (Elt Ideal) ℓ)

/-- The batch row of block row `r` at point `t`. -/
def brow (t : Fin cfg0.N) (r : Fin 16) : Fin 32 :=
  ⟨16 * (t.val / 8) + r.val, by have := lt_of_lt_of_eq t.isLt (show cfg0.N = 16 from N_0); have := r.isLt; omega⟩

/-- The text position of block position `l` at point `t`. -/
def tpos (t : Fin cfg0.N) (l : Fin 1024) : Fin 8192 :=
  ⟨1024 * (t.val % 8) + l.val, by have := l.isLt; omega⟩

/-- The windows' block indices at point `t`, decided over the 16 points: the batch half `t / 8` on the first axis of
    every window, the text tile `t % 8` on the text axis of the text and label windows, zero elsewhere. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = t.val / 8 ∧ win0_2.index t (1 : Fin 2) = t.val % 8
    ∧ win0_3.index t (0 : Fin 2) = t.val / 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

theorem iblk0_apply (c : Dev nD) (t : Fin cfg0.N) (r : Fin 16) (i : Fin 32) (d : Fin 256) :
    iblk m c 0 t (ix3 r i d) = m ((c.tc : Thread nD τ).loc main_arg0) (ix3 (brow t r) i d) := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 16 + 1 * r.val = 16 * (t.val / 8) + r.val; rw [e0]; omega
  | ⟨1, _⟩ => show win0_0.index t (1 : Fin 3) * 32 + 1 * i.val = i.val; rw [e1]; omega
  | ⟨2, _⟩ => show win0_0.index t (2 : Fin 3) * 256 + 1 * d.val = d.val; rw [e2]; omega

theorem iblk1_apply (c : Dev nD) (t : Fin cfg0.N) (r : Fin 16) (l : Fin 1024) (d : Fin 256) :
    iblk m c 1 t (ix3 r l d) = m ((c.tc : Thread nD τ).loc main_arg1) (ix3 (brow t r) (tpos t l) d) := by
  obtain ⟨-, -, -, e0, e1, e2, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 16 + 1 * r.val = 16 * (t.val / 8) + r.val; rw [e0]; omega
  | ⟨1, _⟩ => show win0_1.index t (1 : Fin 3) * 1024 + 1 * l.val = 1024 * (t.val % 8) + l.val; rw [e1]; omega
  | ⟨2, _⟩ => show win0_1.index t (2 : Fin 3) * 256 + 1 * d.val = d.val; rw [e2]; omega

theorem iblk2_apply (c : Dev nD) (t : Fin cfg0.N) (r : Fin 16) (l : Fin 1024) :
    iblk m c 2 t (ix2 r l) = m ((c.tc : Thread nD τ).loc main_arg2) (ix2 (brow t r) (tpos t l)) := by
  obtain ⟨-, -, -, -, -, -, e0, e1, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 2) * 16 + 1 * r.val = 16 * (t.val / 8) + r.val; rw [e0]; omega
  | ⟨1, _⟩ => show win0_2.index t (1 : Fin 2) * 1024 + 1 * l.val = 1024 * (t.val % 8) + l.val; rw [e1]; omega

/-- Output array 3 after the run, from what the last point of each batch half left in its buffer. -/
theorem arr3_of_rows (c : Dev nD) (G : Fin 32 → EReal)
    (h : ∀ t : Fin cfg0.N, t.val % 8 = 7 → ∀ r : Fin 16, (dats m 0 c).after 3 t (ix2 r (0 : Fin 1)) = G (brow t r)) :
    ∀ j : S32x1.Idx, (dats m 0 c).arrAt 3 cfg0.N j = G (j 0) := by
  intro j
  refine congrFun ((dats m 0 c).arrAt_eq_of_cover 3 (fun j : S32x1.Idx => G (j 0)) (fun t hf => ?_) (fun i => ?_)) j
  · have h7 : t.val % 8 = 7 := (flush0_3 t).mp hf
    obtain ⟨-, -, -, -, -, -, -, -, e0, e1, -⟩ := idx_facts t
    funext y
    obtain ⟨r, u, rfl⟩ : ∃ (r : Fin 16) (u : Fin 1), y = ix2 r u := ⟨y 0, y 1, eq_ix2 y⟩
    obtain rfl : u = 0 := Subsingleton.elim _ _
    rw [View.read_apply]
    show (dats m 0 c).after 3 t (ix2 r (0 : Fin 1)) = G _
    rw [h t h7 r]
    congr 1
    apply Fin.ext
    show 16 * (t.val / 8) + r.val = win0_3.index t (0 : Fin 2) * 16 + 1 * r.val
    rw [e0]; omega
  · have hi0 : (i 0).val < 32 := (i 0).isLt
    have hi1 : (i 1).val < 1 := (i 1).isLt
    have hN : cfg0.N = 16 := N_0
    obtain ⟨t, ht⟩ : ∃ t : Fin cfg0.N, t.val = 8 * ((i 0).val / 16) + 7 := ⟨⟨8 * ((i 0).val / 16) + 7, by omega⟩, rfl⟩
    obtain ⟨-, -, -, -, -, -, -, -, e0, e1, -⟩ := idx_facts t
    refine ⟨t, (flush0_3 t).mpr (by omega), ?_⟩
    show i ∈ ((View.whole main_v0_0).slice (win0_3.rect t)).set
    rw [View.set_slice_whole, Rect.mem_set_unit]
    intro a
    match a with
    | ⟨0, _⟩ =>
      show win0_3.index t (0 : Fin 2) * 16 ≤ (i 0).val ∧ (i 0).val < win0_3.index t (0 : Fin 2) * 16 + 16
      rw [e0]; omega
    | ⟨1, _⟩ =>
      show win0_3.index t (1 : Fin 2) * 1 ≤ (i 1).val ∧ (i 1).val < win0_3.index t (1 : Fin 2) * 1 + 1
      rw [e1]; omega

theorem arr4_of_rows (c : Dev nD) (G : Fin 32 → EReal)
    (h : ∀ t : Fin cfg0.N, t.val % 8 = 7 → ∀ r : Fin 16, (dats m 0 c).after 4 t (ix2 r (0 : Fin 1)) = G (brow t r)) :
    ∀ j : S32x1.Idx, (dats m 0 c).arrAt 4 cfg0.N j = G (j 0) := by
  intro j
  refine congrFun ((dats m 0 c).arrAt_eq_of_cover 4 (fun j : S32x1.Idx => G (j 0)) (fun t hf => ?_) (fun i => ?_)) j
  · have h7 : t.val % 8 = 7 := (flush0_4 t).mp hf
    obtain ⟨-, -, -, -, -, -, -, -, -, -, e0, e1, -⟩ := idx_facts t
    funext y
    obtain ⟨r, u, rfl⟩ : ∃ (r : Fin 16) (u : Fin 1), y = ix2 r u := ⟨y 0, y 1, eq_ix2 y⟩
    obtain rfl : u = 0 := Subsingleton.elim _ _
    rw [View.read_apply]
    show (dats m 0 c).after 4 t (ix2 r (0 : Fin 1)) = G _
    rw [h t h7 r]
    congr 1
    apply Fin.ext
    show 16 * (t.val / 8) + r.val = win0_4.index t (0 : Fin 2) * 16 + 1 * r.val
    rw [e0]; omega
  · have hi0 : (i 0).val < 32 := (i 0).isLt
    have hi1 : (i 1).val < 1 := (i 1).isLt
    have hN : cfg0.N = 16 := N_0
    obtain ⟨t, ht⟩ : ∃ t : Fin cfg0.N, t.val = 8 * ((i 0).val / 16) + 7 := ⟨⟨8 * ((i 0).val / 16) + 7, by omega⟩, rfl⟩
    obtain ⟨-, -, -, -, -, -, -, -, -, -, e0, e1, -⟩ := idx_facts t
    refine ⟨t, (flush0_4 t).mpr (by omega), ?_⟩
    show i ∈ ((View.whole main_v0_1).slice (win0_4.rect t)).set
    rw [View.set_slice_whole, Rect.mem_set_unit]
    intro a
    match a with
    | ⟨0, _⟩ =>
      show win0_4.index t (0 : Fin 2) * 16 ≤ (i 0).val ∧ (i 0).val < win0_4.index t (0 : Fin 2) * 16 + 16
      rw [e0]; omega
    | ⟨1, _⟩ =>
      show win0_4.index t (1 : Fin 2) * 1 ≤ (i 1).val ∧ (i 1).val < win0_4.index t (1 : Fin 2) * 1 + 1
      rw [e1]; omega

theorem arr5_of_rows (c : Dev nD) (G : Fin 32 → EReal)
    (h : ∀ t : Fin cfg0.N, t.val % 8 = 7 → ∀ r : Fin 16, (dats m 0 c).after 5 t (ix2 r (0 : Fin 1)) = G (brow t r)) :
    ∀ j : S32x1.Idx, (dats m 0 c).arrAt 5 cfg0.N j = G (j 0) := by
  intro j
  refine congrFun ((dats m 0 c).arrAt_eq_of_cover 5 (fun j : S32x1.Idx => G (j 0)) (fun t hf => ?_) (fun i => ?_)) j
  · have h7 : t.val % 8 = 7 := (flush0_5 t).mp hf
    obtain ⟨-, -, -, -, -, -, -, -, -, -, -, -, e0, e1⟩ := idx_facts t
    funext y
    obtain ⟨r, u, rfl⟩ : ∃ (r : Fin 16) (u : Fin 1), y = ix2 r u := ⟨y 0, y 1, eq_ix2 y⟩
    obtain rfl : u = 0 := Subsingleton.elim _ _
    rw [View.read_apply]
    show (dats m 0 c).after 5 t (ix2 r (0 : Fin 1)) = G _
    rw [h t h7 r]
    congr 1
    apply Fin.ext
    show 16 * (t.val / 8) + r.val = win0_5.index t (0 : Fin 2) * 16 + 1 * r.val
    rw [e0]; omega
  · have hi0 : (i 0).val < 32 := (i 0).isLt
    have hi1 : (i 1).val < 1 := (i 1).isLt
    have hN : cfg0.N = 16 := N_0
    obtain ⟨t, ht⟩ : ∃ t : Fin cfg0.N, t.val = 8 * ((i 0).val / 16) + 7 := ⟨⟨8 * ((i 0).val / 16) + 7, by omega⟩, rfl⟩
    obtain ⟨-, -, -, -, -, -, -, -, -, -, -, -, e0, e1⟩ := idx_facts t
    refine ⟨t, (flush0_5 t).mpr (by omega), ?_⟩
    show i ∈ ((View.whole main_v0_2).slice (win0_5.rect t)).set
    rw [View.set_slice_whole, Rect.mem_set_unit]
    intro a
    match a with
    | ⟨0, _⟩ =>
      show win0_5.index t (0 : Fin 2) * 16 ≤ (i 0).val ∧ (i 0).val < win0_5.index t (0 : Fin 2) * 16 + 16
      rw [e0]; omega
    | ⟨1, _⟩ =>
      show win0_5.index t (1 : Fin 2) * 1 ≤ (i 1).val ∧ (i 1).val < win0_5.index t (1 : Fin 2) * 1 + 1
      rw [e1]; omega

end Cert.KernelIdeal.Blocks

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.KAcc.lean ====
/-
  What the three output buffers hold at the write-back points, as the loss's per-row terms.

  Within a batch half the accumulator after point `n` is the sum of the contributions of the half's points up to `n`
  (it restarts at the half's first point and grows by one contribution per point).  A point's contribution at block
  row `r` is the sum over the 1024 text positions of its tile of one minus the picked probability; the eight tiles of a
  half tile the 8192 positions, so at the half's last point the accumulator is the sum over all positions, and the
  contrastive output is that times 1/8192.  The two Gram outputs at the last point are what the first point stored.
-/
import proofs.«430811_j35107062677773_3_alg».proof.Proof.Pieces
import proofs.«430811_j35107062677773_3_alg».proof.Proof.Blocks
import proofs.«430811_j35107062677773_3_alg».proof.Proof.LibPropagate
import proofs.«430811_j35107062677773_3_alg».proof.Proof.Spec

set_option maxRecDepth 16384

noncomputable section

namespace Cert.KernelIdeal.KAcc

open Idealize.ShloMosaic Idealize.ShloMosaic.ValueIdx Idealize.ShloMosaic.TcCoe Idealize.SL.Sem
open Cert.KernelIdeal Cert.KernelIdeal.Gen Cert.KernelIdeal.Body Cert.KernelIdeal.Blocks Cert.KernelIdeal.Pieces

variable (m : (ℓ : Loc nD τ sig) → Buf (Elt Ideal) ℓ)

/-- Point `n`'s contribution at block row `r` (zero past the grid). -/
def ptSum (c : Dev nD) (n : ℕ) (r : Fin 16) : EReal :=
  if h : n < cfg0.N then stepSum (iblk m c 0 ⟨n, h⟩) (iblk m c 1 ⟨n, h⟩) (iblk m c 2 ⟨n, h⟩) r else 0

theorem ptSum_of_lt (c : Dev nD) (n : ℕ) (h : n < cfg0.N) (r : Fin 16) :
    ptSum m c n r = stepSum (iblk m c 0 ⟨n, h⟩) (iblk m c 1 ⟨n, h⟩) (iblk m c 2 ⟨n, h⟩) r := dif_pos h

/-- The labels of a block are in range when the labels are. -/
theorem blk_inRange (c : Dev nD) (hL : ∀ j, Cert.Spec.InRange (m ((c.tc : Thread nD τ).loc main_arg2) j)) (t : Fin cfg0.N) :
    ∀ j : S16x1024.Idx, Cert.Spec.InRange (iblk m c 2 t j) := by
  intro j
  obtain ⟨r, l, rfl⟩ : ∃ (r : Fin 16) (l : Fin 1024), j = ix2 r l := ⟨j 0, j 1, eq_ix2 j⟩
  rw [iblk2_apply]
  exact hL _

/-- The accumulator after point `n`: the contributions of the points of `n`'s batch half up to `n`. -/
theorem acc_eq (c : Dev nD) (hL : ∀ j, Cert.Spec.InRange (m ((c.tc : Thread nD τ).loc main_arg2) j)) (r : Fin 16) :
    ∀ (n : ℕ) (hn : n < cfg0.N),
      (outsAt0 m c n hn).2.2.2 (ix2 r (0 : Fin 1)) = ∑ j ∈ Finset.range (n % 8 + 1), ptSum m c (8 * (n / 8) + j) r := by
  intro n
  induction n with
  | zero =>
    intro hn
    have h := outsAt0_A m c ⟨0, hn⟩ (Nat.zero_mod _) (by show ¬(0 % 8 = 7); decide)
    rw [show outsAt0 m c 0 hn = outsAt0 m c (⟨0, hn⟩ : Fin cfg0.N).val (⟨0, hn⟩ : Fin cfg0.N).isLt from rfl, h]
    dsimp only
    rw [accA_apply _ _ _ _ _ _ _ _ _ _ _ _ _ _ _ _ _ _ _ _ _ (blk_inRange m c hL _) r]
    have e : ∑ j ∈ Finset.range (0 % 8 + 1), ptSum m c (8 * (0 / 8) + j) r = ptSum m c 0 r := by
      show ∑ j ∈ Finset.range 1, ptSum m c (8 * (0 / 8) + j) r = _
      rw [Finset.sum_range_one]
    rw [e, ptSum_of_lt m c 0 hn r]
  | succ k ih =>
    intro hn
    have hN : k + 1 < 16 := lt_of_lt_of_eq hn (show cfg0.N = 16 from N_0)
    have hk : k < cfg0.N := Nat.lt_of_succ_lt hn
    by_cases h0 : (k + 1) % 8 = 0
    · have h1 : ¬(k + 1) % 8 = 7 := by omega
      have h := outsAt0_A m c ⟨k + 1, hn⟩ h0 h1
      rw [show outsAt0 m c (k + 1) hn = outsAt0 m c (⟨k + 1, hn⟩ : Fin cfg0.N).val (⟨k + 1, hn⟩ : Fin cfg0.N).isLt from rfl, h]
      dsimp only
      rw [accA_apply _ _ _ _ _ _ _ _ _ _ _ _ _ _ _ _ _ _ _ _ _ (blk_inRange m c hL _) r]
      have e : ∑ j ∈ Finset.range ((k + 1) % 8 + 1), ptSum m c (8 * ((k + 1) / 8) + j) r = ptSum m c (k + 1) r := by
        rw [h0]
        show ∑ j ∈ Finset.range 1, ptSum m c (8 * ((k + 1) / 8) + j) r = _
        rw [Finset.sum_range_one]
        congr 1
        omega
      rw [e, ptSum_of_lt m c (k + 1) hn r]
    · have hprev : (outsAt0 m c (k + 1) hn).2.2.2 (ix2 r (0 : Fin 1))
          = (outsAt0 m c k hk).2.2.2 (ix2 r (0 : Fin 1)) + ptSum m c (k + 1) r := by
        rw [ptSum_of_lt m c (k + 1) hn r]
        by_cases h1 : (k + 1) % 8 = 7
        · have h := outsAt0_C m c ⟨k + 1, hn⟩ h0 h1
          rw [show outsAt0 m c (k + 1) hn = outsAt0 m c (⟨k + 1, hn⟩ : Fin cfg0.N).val (⟨k + 1, hn⟩ : Fin cfg0.N).isLt from rfl, h]
          dsimp only
          exact accC_apply _ _ _ _ _ _ _ _ _ _ _ _ _ _ _ _ _ _ _ _ _ _ (blk_inRange m c hL _) r
        · have h := outsAt0_B m c ⟨k + 1, hn⟩ h0 h1
          rw [show outsAt0 m c (k + 1) hn = outsAt0 m c (⟨k + 1, hn⟩ : Fin cfg0.N).val (⟨k + 1, hn⟩ : Fin cfg0.N).isLt from rfl, h]
          dsimp only
          exact accB_apply _ _ _ _ _ _ _ _ _ _ _ _ _ _ _ _ _ _ _ _ _ _ (blk_inRange m c hL _) r
      rw [hprev, ih hk]
      have e1 : (k + 1) % 8 = k % 8 + 1 := by omega
      have e2 : (k + 1) / 8 = k / 8 := by omega
      rw [e1, e2, Finset.sum_range_succ (fun j => ptSum m c (8 * (k / 8) + j) r) (k % 8 + 1)]
      congr 2
      omega

/-! ## A point's contribution over the argument arrays -/

/-- One minus the picked probability at batch row `brow t r` and text position `p` (zero past the last position). -/
def fpos (c : Dev nD) (t : Fin cfg0.N) (r : Fin 16) (p : ℕ) : EReal :=
  if h : p < 8192 then
    ((1 : ℝ) : EReal) - Cert.Spec.picked (Cert.Spec.simScaled (m ((c.tc : Thread nD τ).loc main_arg0)) (m ((c.tc : Thread nD τ).loc main_arg1)))
      (m ((c.tc : Thread nD τ).loc main_arg2)) (brow t r) ⟨p, h⟩
  else 0

/-- The contribution of tile `j` of `t`'s batch half: its 1024 positions are `j * 1024 + l`. -/
theorem ptSum_tile (c : Dev nD) (t : Fin cfg0.N) (r : Fin 16) (j : ℕ) (hj : j < 8) :
    ptSum m c (8 * (t.val / 8) + j) r = ∑ l : Fin 1024, fpos m c t r (j * 1024 + l.val) := by
  have hN : t.val < 16 := lt_of_lt_of_eq t.isLt (show cfg0.N = 16 from N_0)
  have hlt : 8 * (t.val / 8) + j < cfg0.N := lt_of_lt_of_eq (show 8 * (t.val / 8) + j < 16 by omega) (show (16 : ℕ) = cfg0.N from N_0.symm)
  rw [ptSum_of_lt m c _ hlt r]
  unfold stepSum
  refine Finset.sum_congr rfl fun l _ => ?_
  have hl := l.isLt
  have hp : j * 1024 + l.val < 8192 := by omega
  rw [fpos, dif_pos hp]
  have eb : brow ⟨8 * (t.val / 8) + j, hlt⟩ r = brow t r := Fin.ext (by simp only [brow]; omega)
  have et : tpos ⟨8 * (t.val / 8) + j, hlt⟩ l = ⟨j * 1024 + l.val, hp⟩ := Fin.ext (by simp only [tpos]; omega)
  unfold Cert.Spec.picked Cert.Spec.simScaled
  simp only [iblk0_apply, iblk1_apply, iblk2_apply, eb, et]

/-- The eight tiles of a batch half are all 8192 positions. -/
theorem half_sum (c : Dev nD) (t : Fin cfg0.N) (r : Fin 16) :
    ∑ j ∈ Finset.range 8, ptSum m c (8 * (t.val / 8) + j) r
      = ∑ l : Fin 8192, (((1 : ℝ) : EReal) - Cert.Spec.picked (Cert.Spec.simScaled (m ((c.tc : Thread nD τ).loc main_arg0)) (m ((c.tc : Thread nD τ).loc main_arg1)))
          (m ((c.tc : Thread nD τ).loc main_arg2)) (brow t r) l) := by
  rw [Finset.sum_range]
  rw [Finset.sum_congr rfl fun (j : Fin 8) _ => ptSum_tile m c t r j.val j.isLt]
  rw [Cert.Lib.Propagate.sum_blocks 8 1024 (fpos m c t r)]
  show ∑ p : Fin 8192, fpos m c t r p.val = _
  exact Finset.sum_congr rfl fun p _ => dif_pos p.isLt

/-! ## The three outputs at a write-back point -/

/-- The contrastive output at the last point of a batch half. -/
theorem row3 (c : Dev nD) (hL : ∀ j, Cert.Spec.InRange (m ((c.tc : Thread nD τ).loc main_arg2) j)) (t : Fin cfg0.N) (h7 : t.val % 8 = 7) (r : Fin 16) :
    (dats m 0 c).after 3 t (ix2 r (0 : Fin 1))
      = Cert.Spec.contrastive (Cert.Spec.simScaled (m ((c.tc : Thread nD τ).loc main_arg0)) (m ((c.tc : Thread nD τ).loc main_arg1)))
          (m ((c.tc : Thread nD τ).loc main_arg2)) (brow t r) := by
  have hN : t.val < 16 := lt_of_lt_of_eq t.isLt (show cfg0.N = 16 from N_0)
  have h0 : ¬t.val % 8 = 0 := by omega
  have hp : t.val - 1 < cfg0.N := Nat.lt_of_le_of_lt (Nat.sub_le _ _) t.isLt
  rw [after0_3, outsAt0_C m c t h0 h7]
  dsimp only
  rw [out3C_apply _ _ _ _ _ _ _ _ _ _ _ _ _ _ _ _ _ _ _ _ _ _ (blk_inRange m c hL t) r]
  unfold Cert.Spec.contrastive
  congr 1
  have h7lt : 8 * (t.val / 8) + 7 < cfg0.N := lt_of_lt_of_eq (show 8 * (t.val / 8) + 7 < 16 by omega) (show (16 : ℕ) = cfg0.N from N_0.symm)
  have hs : stepSum (iblk m c 0 t) (iblk m c 1 t) (iblk m c 2 t) r = ptSum m c (8 * (t.val / 8) + 7) r := by
    rw [ptSum_of_lt m c _ h7lt r]
    have et : (⟨8 * (t.val / 8) + 7, h7lt⟩ : Fin cfg0.N) = t := Fin.ext (by show 8 * (t.val / 8) + 7 = t.val; omega)
    rw [et]
  rw [hs, acc_eq m c hL r (t.val - 1) hp]
  have e1 : (t.val - 1) % 8 + 1 = 7 := by omega
  have e2 : 8 * ((t.val - 1) / 8) = 8 * (t.val / 8) := by omega
  rw [e1, e2, ← Finset.sum_range_succ (fun j => ptSum m c (8 * (t.val / 8) + j) r) 7]
  exact half_sum m c t r

/-- The orthogonality output after any point: its batch half's first point's. -/
theorem gram4_eq (c : Dev nD) (r : Fin 16) : ∀ (n : ℕ) (hn : n < cfg0.N),
    (outsAt0 m c n hn).2.1 (ix2 r (0 : Fin 1)) = Cert.Spec.ortho (m ((c.tc : Thread nD τ).loc main_arg0)) (brow ⟨n, hn⟩ r) := by
  intro n
  induction n with
  | zero =>
    intro hn
    have h := outsAt0_A m c ⟨0, hn⟩ (Nat.zero_mod _) (by show ¬(0 % 8 = 7); decide)
    rw [show outsAt0 m c 0 hn = outsAt0 m c (⟨0, hn⟩ : Fin cfg0.N).val (⟨0, hn⟩ : Fin cfg0.N).isLt from rfl, h]
    dsimp only
    rw [out4A_apply]
    unfold Cert.Spec.ortho Cert.Spec.gram PayGram.g
    simp only [iblk0_apply]
  | succ k ih =>
    intro hn
    have hN : k + 1 < 16 := lt_of_lt_of_eq hn (show cfg0.N = 16 from N_0)
    have hk : k < cfg0.N := Nat.lt_of_succ_lt hn
    by_cases h0 : (k + 1) % 8 = 0
    · have h1 : ¬(k + 1) % 8 = 7 := by omega
      have h := outsAt0_A m c ⟨k + 1, hn⟩ h0 h1
      rw [show outsAt0 m c (k + 1) hn = outsAt0 m c (⟨k + 1, hn⟩ : Fin cfg0.N).val (⟨k + 1, hn⟩ : Fin cfg0.N).isLt from rfl, h]
      dsimp only
      rw [out4A_apply]
      unfold Cert.Spec.ortho Cert.Spec.gram PayGram.g
      simp only [iblk0_apply]
    · have hkeep : (outsAt0 m c (k + 1) hn).2.1 = (outsAt0 m c k hk).2.1 := by
        by_cases h1 : (k + 1) % 8 = 7
        · exact congrArg (fun p => p.2.1) (outsAt0_C m c ⟨k + 1, hn⟩ h0 h1)
        · exact congrArg (fun p => p.2.1) (outsAt0_B m c ⟨k + 1, hn⟩ h0 h1)
      rw [hkeep, ih hk]
      congr 1
      exact Fin.ext (by simp only [brow]; omega)

/-- The size output after any point: its batch half's first point's. -/
theorem gram5_eq (c : Dev nD) (r : Fin 16) : ∀ (n : ℕ) (hn : n < cfg0.N),
    (outsAt0 m c n hn).2.2.1 (ix2 r (0 : Fin 1)) = Cert.Spec.size (m ((c.tc : Thread nD τ).loc main_arg0)) (brow ⟨n, hn⟩ r) := by
  intro n
  induction n with
  | zero =>
    intro hn
    have h := outsAt0_A m c ⟨0, hn⟩ (Nat.zero_mod _) (by show ¬(0 % 8 = 7); decide)
    rw [show outsAt0 m c 0 hn = outsAt0 m c (⟨0, hn⟩ : Fin cfg0.N).val (⟨0, hn⟩ : Fin cfg0.N).isLt from rfl, h]
    dsimp only
    rw [out5A_apply]
    unfold Cert.Spec.size Cert.Spec.gram PayGram.g
    simp only [iblk0_apply]
  | succ k ih =>
    intro hn
    have hN : k + 1 < 16 := lt_of_lt_of_eq hn (show cfg0.N = 16 from N_0)
    have hk : k < cfg0.N := Nat.lt_of_succ_lt hn
    by_cases h0 : (k + 1) % 8 = 0
    · have h1 : ¬(k + 1) % 8 = 7 := by omega
      have h := outsAt0_A m c ⟨k + 1, hn⟩ h0 h1
      rw [show outsAt0 m c (k + 1) hn = outsAt0 m c (⟨k + 1, hn⟩ : Fin cfg0.N).val (⟨k + 1, hn⟩ : Fin cfg0.N).isLt from rfl, h]
      dsimp only
      rw [out5A_apply]
      unfold Cert.Spec.size Cert.Spec.gram PayGram.g
      simp only [iblk0_apply]
    · have hkeep : (outsAt0 m c (k + 1) hn).2.2.1 = (outsAt0 m c k hk).2.2.1 := by
        by_cases h1 : (k + 1) % 8 = 7
        · exact congrArg (fun p => p.2.2.1) (outsAt0_C m c ⟨k + 1, hn⟩ h0 h1)
        · exact congrArg (fun p => p.2.2.1) (outsAt0_B m c ⟨k + 1, hn⟩ h0 h1)
      rw [hkeep, ih hk]
      congr 1
      exact Fin.ext (by simp only [brow]; omega)

theorem row4 (c : Dev nD) (t : Fin cfg0.N) (r : Fin 16) :
    (dats m 0 c).after 4 t (ix2 r (0 : Fin 1)) = Cert.Spec.ortho (m ((c.tc : Thread nD τ).loc main_arg0)) (brow t r) := by
  rw [after0_4]; exact gram4_eq m c r t.val t.isLt

theorem row5 (c : Dev nD) (t : Fin cfg0.N) (r : Fin 16) :
    (dats m 0 c).after 5 t (ix2 r (0 : Fin 1)) = Cert.Spec.size (m ((c.tc : Thread nD τ).loc main_arg0)) (brow t r) := by
  rw [after0_5]; exact gram5_eq m c r t.val t.isLt

end Cert.KernelIdeal.KAcc

end
-- ==== Proof.KTail.lean ====
/-
  The host lines after the region: the three per-row result arrays are averaged over the batch and combined.
-/
import proofs.«430811_j35107062677773_3_alg».proof.Proof.Gen.KernelIdeal.Frame
import proofs.«430811_j35107062677773_3_alg».proof.Proof.Spec
import proofs.«430811_j35107062677773_3_alg».proof.Proof.Consts
import Idealize.ShloMosaic.Lib.ValueIdx
import Idealize.ShloMosaic.Lib.StableHlo.Run
import Idealize.ShloMosaic.PureOps.Ideal.Laws

noncomputable section

namespace Cert.KernelIdeal.KTail

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The sum from zero over both axes of a 32-by-1 array whose row `b` holds `A b`, divided by 32, is the mean of `A`. -/
theorem mean_of_column (y : FVec Ideal S32x1 .f32) (A : Fin 32 → EReal) (h : ∀ j : S32x1.Idx, y j = A (j 0)) :
    Host.divf (Host.reduceAdd y (constant (F := Ideal) S_ .f32 0x00000000#32) reducesTo_S32x1_S_d0_1 h_S_)
        (constant (F := Ideal) S_ .f32 0x42000000#32)
      = fun _ => Cert.Spec.mean32 A := by
  funext i
  simp only [Host.divf, Host.reduceAdd, Ideal.hostDivf_def, Ideal.hostReduceAdd_def]
  rw [Ideal.hostReduceAdd_total reducesTo_S32x1_S_d0_1 (fun b => b.elim0), constant_apply, constant_apply,
    Cert.Consts.ofBits_zero, Cert.Consts.ofBits_32, zero_add, sum_idx2]
  unfold Cert.Spec.mean32
  refine congrArg (fun s => Ideal.div s ((32 : ℝ) : EReal)) (Finset.sum_congr rfl fun b _ => ?_)
  rw [Fin.sum_univ_one]
  exact h (ix2 b 0)

/-- After the host lines that follow the region, the result buffer holds the batch mean of the first output array plus
    half the batch means of the third and of the second, whatever the three arrays hold row by row. -/
theorem tail_eq (dats : (p : Fin 1) → (c : Dev nD) → Dat τ (Elt Ideal) Unit ℕ (UR sig nD τ) ℕ (cfgs p) c) (c : Dev nD)
    (A3 A4 A5 : Fin 32 → EReal)
    (h3 : ∀ j : S32x1.Idx, (dats 0 c).arrAt 3 cfg0.N j = A3 (j 0))
    (h4 : ∀ j : S32x1.Idx, (dats 0 c).arrAt 4 cfg0.N j = A4 (j 0))
    (h5 : ∀ j : S32x1.Idx, (dats 0 c).arrAt 5 cfg0.N j = A5 (j 0)) :
    Pipeline.afterTail₀ cfgs dats 0 (V0 m) [hostOps1] c main_v10
      = fun _ => Cert.Spec.mean32 A3 + ((1 / 2 : ℝ) : EReal) * Cert.Spec.mean32 A5 + ((1 / 2 : ℝ) : EReal) * Cert.Spec.mean32 A4 := by
  have e3 : Pipeline.withArrays (cfgs 0).spec c (V0 m c) (fun w => (dats 0 c).arrAt w (cfgs 0).N)
      (Proc.devRef .tc main_v0_0) = (dats 0 c).arrAt 3 cfg0.N :=
    Pipeline.withArrays_arr spec0 launch0.win.arr_inj c _ _ 3
  have e4 : Pipeline.withArrays (cfgs 0).spec c (V0 m c) (fun w => (dats 0 c).arrAt w (cfgs 0).N)
      (Proc.devRef .tc main_v0_1) = (dats 0 c).arrAt 4 cfg0.N :=
    Pipeline.withArrays_arr spec0 launch0.win.arr_inj c _ _ 4
  have e5 : Pipeline.withArrays (cfgs 0).spec c (V0 m c) (fun w => (dats 0 c).arrAt w (cfgs 0).N)
      (Proc.devRef .tc main_v0_2) = (dats 0 c).arrAt 5 cfg0.N :=
    Pipeline.withArrays_arr spec0 launch0.win.arr_inj c _ _ 5
  unfold Pipeline.afterTail₀
  show StableHlo.after hostOps1 _ (Proc.devRef .tc main_v10) = _
  after_results
  rw [e3, e4, e5, mean_of_column _ A3 h3, mean_of_column _ A5 h5, mean_of_column _ A4 h4]
  funext i
  simp only [addf_apply, mulf_apply, constant_apply, Cert.Consts.ofBits_half]

end Cert.KernelIdeal.KTail

end
-- ==== Proof.KValue.lean ====
/-
  The idealized kernel's run, to its result: every execution ends with the result buffer at the loss of the argument
  arrays (the similarity's query factor scaled before the inner product) and the arguments unchanged, when every label
  word is in range.
-/
import proofs.«430811_j35107062677773_3_alg».proof.Proof.KAcc
import proofs.«430811_j35107062677773_3_alg».proof.Proof.KTail

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen Cert.KernelIdeal.Body Cert.KernelIdeal.Blocks Cert.KernelIdeal.KAcc

variable (m : (ℓ : Loc nD τ sig) → Buf (Elt Ideal) ℓ) (ρ : Dev nD → PrngReg)

/-- The result buffer after the host lines that follow the region. -/
theorem result_eq (c : Dev nD) (hL : ∀ j, Cert.Spec.InRange (m ((c.tc : Thread nD τ).loc main_arg2) j)) :
    Pipeline.afterTail₀ cfgs (dats m) 0 (V0 m) [hostOps1] c main_v10
      = fun _ => Cert.Spec.loss (Cert.Spec.simScaled (m ((c.tc : Thread nD τ).loc main_arg0)) (m ((c.tc : Thread nD τ).loc main_arg1))) (m ((c.tc : Thread nD τ).loc main_arg0)) (m ((c.tc : Thread nD τ).loc main_arg2)) :=
  Cert.KernelIdeal.KTail.tail_eq m (dats m) c
    (Cert.Spec.contrastive (Cert.Spec.simScaled (m ((c.tc : Thread nD τ).loc main_arg0)) (m ((c.tc : Thread nD τ).loc main_arg1))) (m ((c.tc : Thread nD τ).loc main_arg2)))
    (Cert.Spec.ortho (m ((c.tc : Thread nD τ).loc main_arg0))) (Cert.Spec.size (m ((c.tc : Thread nD τ).loc main_arg0)))
    (arr3_of_rows m c _ fun t h7 r => row3 m c hL t h7 r)
    (arr4_of_rows m c _ fun t _ r => row4 m c t r)
    (arr5_of_rows m c _ fun t _ r => row5 m c t r)

/-- The run. -/
theorem run (hL : ∀ (c : Dev nD) j, Cert.Spec.InRange (m ((c.tc : Thread nD τ).loc main_arg2) j)) :
    θ_run defs (onTc (τ := τ) (main (F := Ideal))) ⟨m, fun _ => 0, ρ⟩ (fun r => ∀ c : Dev nD,
      r.2.mem ((c.tc : Thread nD τ).loc main_v10)
          = (fun _ => Cert.Spec.loss (Cert.Spec.simScaled (m ((c.tc : Thread nD τ).loc main_arg0)) (m ((c.tc : Thread nD τ).loc main_arg1))) (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v10 (Pipeline.mem_restRefs_of main_v10 (by decide) (by decide))).trans (result_eq m c (hL c)),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).2 main_arg3 (Pipeline.mem_restRefs_of main_arg3 (by decide) (by decide))).trans (W_main_arg3 m (dats m) c)⟩)
    (run_main m ρ)

end Cert.KernelIdeal.KValue

end
-- ==== Proof.RefPick.lean ====
/-
  The reference program's picked probability (its softmax along the query axis read through the label's row), at an index over the extended reals.
-/
import proofs.«430811_j35107062677773_3_alg».proof.Proof.RefReadP
import proofs.«430811_j35107062677773_3_alg».proof.Proof.Spec
import proofs.«430811_j35107062677773_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefPick

open Idealize.ShloMosaic Idealize.ShloMosaic.ValueIdx Cert.ReferenceIdeal Cert.ReferenceIdeal.Gen Cert.ReferenceIdeal.ReadP

variable (x0 : (⟨S32x32x256, .f32⟩ : BufTy).Contents (Elt Ideal)) (x1 : (⟨S32x8192x256, .f32⟩ : BufTy).Contents (Elt Ideal))

/-- The scaled inner product at `(b, i, l)` is the similarity. -/
theorem sim_at (b i : Fin 32) (l : Fin 8192) :
    val_main_v7 (F := Ideal) x0 x1 (ix3 b i l) = Cert.Spec.sim x0 x1 b i l := by
  have el : ∀ k : Fin 256, lidx_main_v5 (ix3 b i l) k = ix3 b i k := fun k =>
    funext fun a => Fin.ext (by match a with | ⟨0, _⟩ => rfl | ⟨1, _⟩ => rfl | ⟨2, _⟩ => rfl)
  have er : ∀ k : Fin 256, ridx_main_v5 (ix3 b i l) k = ix3 b l k := fun k =>
    funext fun a => Fin.ext (by match a with | ⟨0, _⟩ => rfl | ⟨1, _⟩ => rfl | ⟨2, _⟩ => rfl)
  rw [val_main_v7_apply, val_main_v5_apply, val_main_v6_apply, val_main_cst_apply]
  simp only [el, er, Ideal.mulf_def, Ideal.ofBits_def, Cert.Consts.ofBits_sixteenth]
  rfl

/-- The reduction over the query axis, as a fact about the two shapes. -/
theorem reduces1 : S32x32x8192.Reduces [1] S32x8192 := by decide

/-- The index over `(b, l)` with `k` inserted on the query axis is `(b, k, l)`. -/
theorem lift_eq (b : Fin 32) (l : Fin 8192) (k : Fin 32) : reduces1.lift (ix2 b l) k = ix3 b k l :=
  funext fun a => Fin.ext (by match a with | ⟨0, _⟩ => rfl | ⟨1, _⟩ => rfl | ⟨2, _⟩ => rfl)

/-- The column maximum at `(b, l)`: the fold of `max` from `⊥` over the column, the later `max` with `⊥` changing nothing. -/
theorem max_at (b : Fin 32) (l : Fin 8192) :
    val_main_v10 (F := Ideal) x0 x1 (ix2 b l) = Cert.Spec.colMax (fun i => Cert.Spec.sim x0 x1 b i l) := by
  have key := Host.reduce_eq_fold_single (α := Ideal .f32) (FloatOps.maximumf (F := Ideal) (φ := .f32))
    (val_main_v7 (F := Ideal) x0 x1) (val_main_cst_2 (F := Ideal)) reducesTo_S32x32x8192_S32x8192_d1 reduces1 h_S_ (ix2 b l)
  have hf : (val_main_v7 (F := Ideal) x0 x1 ∘ reduces1.lift (ix2 b l)) = fun i : Fin 32 => Cert.Spec.sim x0 x1 b i l :=
    funext fun k => (congrArg (val_main_v7 (F := Ideal) x0 x1) (lift_eq b l k)).trans (sim_at x0 x1 b k l)
  rw [val_main_v10_apply, val_main_v9_apply, val_main_cst_3_apply]
  unfold val_main_v8
  rw [key, val_main_cst_2_apply, hf]
  simp only [Ideal.maximumf_def, Ideal.ofBits_def, Cert.Consts.ofBits_neg_inf]
  rw [max_bot_left]
  rfl

/-- The softmax numerator at `(b, i, l)`. -/
theorem exp_at (b i : Fin 32) (l : Fin 8192) :
    val_main_v14 (F := Ideal) x0 x1 (ix3 b i l) = Cert.Spec.colExp (fun i => Cert.Spec.sim x0 x1 b i l) i := by
  have e : idx_main_v11 (idx_main_v12 (ix3 b i l)) = ix2 b l :=
    funext fun a => Fin.ext (by match a with | ⟨0, _⟩ => rfl | ⟨1, _⟩ => rfl)
  rw [val_main_v14_apply, val_main_v13_apply, val_main_v12_apply, val_main_v11_apply, e, max_at, sim_at]
  simp only [Ideal.hostUnary_exp_def, Ideal.subf_def]
  rfl

/-- The softmax denominator at `(b, l)`: the sum from `0` of the column's numerators. -/
theorem sum_at (b : Fin 32) (l : Fin 8192) :
    val_main_v15 (F := Ideal) x0 x1 (ix2 b l) = Cert.Spec.colSum (fun i => Cert.Spec.sim x0 x1 b i l) := by
  have e : ∀ k : Fin 32, idx_main_v15 (ix2 b l) k = ix3 b k l := fun k =>
    funext fun a => Fin.ext (by match a with | ⟨0, _⟩ => rfl | ⟨1, _⟩ => rfl | ⟨2, _⟩ => rfl)
  rw [val_main_v15_apply, val_main_cst_4_apply]
  simp only [e, exp_at, Ideal.ofBits_def, Cert.Consts.ofBits_zero, zero_add]
  rfl

/-- The softmax at `(b, i, l)`. -/
theorem pick_at (b i : Fin 32) (l : Fin 8192) :
    val_main_v18 (F := Ideal) x0 x1 (ix3 b i l) = Cert.Spec.pick (fun i => Cert.Spec.sim x0 x1 b i l) i := by
  have e : idx_main_v16 (idx_main_v17 (ix3 b i l)) = ix2 b l :=
    funext fun a => Fin.ext (by match a with | ⟨0, _⟩ => rfl | ⟨1, _⟩ => rfl)
  rw [val_main_v18_apply, val_main_v17_apply, val_main_v16_apply, e, sum_at, exp_at]
  simp only [Ideal.hostDivf_def]
  rfl

variable (x2 : (⟨S32x8192, .i32⟩ : BufTy).Contents (Elt Ideal))

/-- The equality test of two words as a bit. -/
theorem cmpi_eq (x y : BitVec 32) : IntOp.cmpi .eq x y = if x = y then 1#1 else 0#1 := by
  show BitVec.ofBool (x == y) = _
  by_cases h : x = y
  · rw [if_pos h, beq_iff_eq.mpr h]; rfl
  · rw [if_neg h, beq_eq_false_iff_ne.mpr h]; rfl

/-- The label's row word at `(b, l)`: the word `-1` read as `32`, then one subtracted. -/
theorem word_at (b : Fin 32) (l : Fin 8192) :
    val_main_v4 (F := Ideal) x2 (ix2 b l) = Cert.Spec.rowWord (x2 (ix2 b l)) := by
  rw [val_main_v4_apply, val_main_v2_apply, val_main_v1_apply, val_main_v0_apply, val_main_c_apply,
    val_main_call0_v1_apply, val_main_call0_v0_apply, val_main_c_0_apply, val_main_v3_apply, val_main_c_1_apply, cmpi_eq]
  unfold Cert.Spec.rowWord
  by_cases h : x2 (ix2 b l) = 4294967295#32
  · rw [if_pos h, select_one, if_pos h]; rfl
  · rw [if_neg h, select_zero, if_neg h]; rfl

/-! ## Words below 32 under the signed comparisons -/

/-- A word below 32 is its own signed value. -/
theorem toInt_small {w : BitVec 32} (h : w.toNat < 32) : w.toInt = (w.toNat : Int) := by
  rw [BitVec.toInt_eq_toNat_cond, if_pos (by omega)]

/-- It is not negative … -/
theorem slt_zero_of_lt {w : BitVec 32} (h : w.toNat < 32) : IntOp.cmpi .slt w 0#32 = 0#1 := by
  show BitVec.ofBool (w.slt 0#32) = 0#1
  have : w.slt 0#32 = false := by
    rw [Bool.eq_false_iff]; intro hs
    rw [BitVec.slt_iff_toInt_lt, toInt_small h] at hs
    simp at hs
    omega
  rw [this]; rfl

/-- … it is at least zero … -/
theorem sge_zero_of_lt {w : BitVec 32} (h : w.toNat < 32) : IntOp.cmpi .sge w 0#32 = 1#1 := by
  show BitVec.ofBool ((0#32).sle w) = 1#1
  have : (0#32).sle w = true := by
    rw [BitVec.sle_iff_toInt_le, toInt_small h]
    simp
  rw [this]; rfl

/-- … and at most 31. -/
theorem sle_31_of_lt {w : BitVec 32} (h : w.toNat < 32) : IntOp.cmpi .sle w 31#32 = 1#1 := by
  show BitVec.ofBool (w.sle 31#32) = 1#1
  have : w.sle 31#32 = true := by
    rw [BitVec.sle_iff_toInt_le, toInt_small h]
    have : (31#32 : BitVec 32).toInt = 31 := by decide
    rw [this]; omega
  rw [this]; rfl

/-- The word of a row, read signed, is the row. -/
theorem toInt_toNat_ofNat (r : Fin 32) : (BitVec.ofNat 32 r.val).toInt.toNat = r.val := by
  have hr := r.isLt
  have h : (BitVec.ofNat 32 r.val).toNat = r.val := by
    rw [BitVec.toNat_ofNat]; exact Nat.mod_eq_of_lt (by omega)
  rw [toInt_small (by omega), h]
  exact Int.toNat_natCast _

/-! ## The gather along the query axis, read at `(b, 0, l)` -/

/-- The gather's dimension numbers: batch axes 0 and 2, the start index on axis 1, slices of one element. -/
abbrev gd := gather_S32x32x8192_S32x1x8192x1_S32x1x8192_n_1_02_02_1_3_111

section Gather
variable (idx : IVec S32x1x8192x1 32) (b : Fin 32) (l : Fin 8192)

/-- On the first batch axis the operand index is `b`. -/
theorem op0 : (gd.operandIdx (ix3 b (0 : Fin 1) l) idx (0 : Fin 3)).val = b.val := by
  show gd.start (ix3 b (0 : Fin 1) l) idx 0 + gd.batchCoord (ix3 b (0 : Fin 1) l) 0 + gd.offCoord (ix3 b (0 : Fin 1) l) 0 = b.val
  rw [GatherDims.start_batching _ _ _ _ (by decide),
    GatherDims.offCoord_eq_zero _ _ _ (fun h => ((GatherDims.mem_sKept _ _).mp h).2 (by decide))]
  rw [Nat.zero_add, Nat.add_zero]
  rfl

/-- On the second batch axis it is `l`. -/
theorem op2 : (gd.operandIdx (ix3 b (0 : Fin 1) l) idx (2 : Fin 3)).val = l.val := by
  show gd.start (ix3 b (0 : Fin 1) l) idx 2 + gd.batchCoord (ix3 b (0 : Fin 1) l) 2 + gd.offCoord (ix3 b (0 : Fin 1) l) 2 = l.val
  rw [GatherDims.start_batching _ _ _ _ (by decide),
    GatherDims.offCoord_eq_zero _ _ _ (fun h => ((GatherDims.mem_sKept _ _).mp h).2 (by decide))]
  rw [Nat.zero_add, Nat.add_zero]
  rfl

/-- On the query axis it is the start index at `(b, 0, l, 0)`, read signed and clamped into `[0, 31]`: the row, when
    the word there is a row's. -/
theorem op1 (r : Fin 32) (hr : idx (ix4 b (0 : Fin 1) l (0 : Fin 1)) = BitVec.ofNat 32 r.val) :
    (gd.operandIdx (ix3 b (0 : Fin 1) l) idx (1 : Fin 3)).val = r.val := by
  show gd.start (ix3 b (0 : Fin 1) l) idx 1 + gd.batchCoord (ix3 b (0 : Fin 1) l) 1 + gd.offCoord (ix3 b (0 : Fin 1) l) 1 = r.val
  rw [GatherDims.batchCoord_eq_zero _ _ _ (by decide),
    GatherDims.offCoord_eq_zero _ _ _ (fun h => ((GatherDims.mem_sKept _ _).mp h).1 (by decide))]
  rw [Nat.add_zero]
  unfold GatherDims.start
  rw [dif_pos (show (1 : Fin 3) ∈ gd.startIndexMap by decide)]
  have hsi : gd.siIdx (ix3 b (0 : Fin 1) l) ⟨List.idxOf (1 : Fin 3) gd.startIndexMap, List.idxOf_lt_length_iff.2 (by decide)⟩
      = ix4 b (0 : Fin 1) l (0 : Fin 1) := by
    funext c; refine Fin.ext ?_
    match c with
    | ⟨0, _⟩ => rfl
    | ⟨1, _⟩ => rfl
    | ⟨2, _⟩ => rfl
    | ⟨3, _⟩ => rfl
  rw [hsi, hr, toInt_toNat_ofNat]
  show min r.val (32 - 1) = r.val
  have := r.isLt; omega

/-- So the gather at `(b, 0, l)` reads its operand at `(b, r, l)`. -/
theorem gather_at {α : Type} (x : S32x32x8192.Idx → α) (r : Fin 32)
    (hr : idx (ix4 b (0 : Fin 1) l (0 : Fin 1)) = BitVec.ofNat 32 r.val) :
    Host.gather gd x idx (ix3 b (0 : Fin 1) l) = x (ix3 b r l) := by
  unfold Host.gather
  congr 1
  funext a
  refine Fin.ext ?_
  match a with
  | ⟨0, _⟩ => exact op0 idx b l
  | ⟨1, _⟩ => exact op1 idx b l r hr
  | ⟨2, _⟩ => exact op2 idx b l

end Gather

/-! ## The reduction by `and` over a last axis of one element -/

/-- That reduction, as a fact about the two shapes. -/
theorem reduces3 : S32x1x8192x1.Reduces [3] S32x1x8192 := by decide

/-- The one index over `(b, 0, l)`. -/
theorem lift3_eq (b : Fin 32) (l : Fin 8192) (k : Fin 1) :
    reduces3.lift (ix3 b (0 : Fin 1) l) k = ix4 b (0 : Fin 1) l (0 : Fin 1) :=
  funext fun a => Fin.ext (by
    match a with
    | ⟨0, _⟩ => rfl
    | ⟨1, _⟩ => rfl
    | ⟨2, _⟩ => rfl
    | ⟨3, _⟩ => exact Fin.val_eq_zero k)

/-- A fold over one element is one application. -/
theorem fold_fin1 {α : Type} (f : α → α → α) [Std.Commutative f] [Std.Associative f] (init : α) (g : Fin 1 → α) :
    (Finset.univ : Finset (Fin 1)).fold f init g = f (g 0) init :=
  Finset.fold_singleton (op := f) (f := g) (b := init) (a := (0 : Fin 1))

/-- The reduction at `(b, 0, l)`: the one entry, `and` the initial bit. -/
theorem and_at (m : IVec S32x1x8192x1 1) (init : S_.Idx → BitVec 1) (b : Fin 32) (l : Fin 8192) :
    Host.reduce IntOp.andi m init reducesTo_S32x1x8192x1_S32x1x8192_d3 h_S_ (ix3 b (0 : Fin 1) l)
      = IntOp.andi (m (ix4 b (0 : Fin 1) l (0 : Fin 1))) (init (Shape.Idx.first h_S_)) := by
  have key := Host.reduce_eq_fold_single (α := BitVec 1) (IntOp.andi (w := 1)) m init
    reducesTo_S32x1x8192x1_S32x1x8192_d3 reduces3 h_S_ (ix3 b (0 : Fin 1) l)
  have hf : (m ∘ reduces3.lift (ix3 b (0 : Fin 1) l)) = fun _ : Fin 1 => m (ix4 b (0 : Fin 1) l (0 : Fin 1)) :=
    funext fun k => congrArg m (lift3_eq b l k)
  rw [key, hf]
  exact fold_fin1 _ _ _

/-! ## The label's row through the gather -/

/-- The broadcast row word at `(b, 0, l)`. -/
theorem bword_at (b : Fin 32) (l : Fin 8192) :
    val_main_v19 (F := Ideal) x2 (ix3 b (0 : Fin 1) l) = Cert.Spec.rowWord (x2 (ix2 b l)) := by
  have e : idx_main_v19 (ix3 b (0 : Fin 1) l) = ix2 b l :=
    funext fun a => Fin.ext (by match a with | ⟨0, _⟩ => rfl | ⟨1, _⟩ => rfl)
  rw [val_main_v19_apply, e, word_at]

/-- The start index at `(b, 0, l, 0)`, for a label in range: the row word is not negative, so it is kept. -/
theorem start_at (b : Fin 32) (l : Fin 8192) (h : Cert.Spec.InRange (x2 (ix2 b l))) :
    val_main_call1_v5 (F := Ideal) x2 (ix4 b (0 : Fin 1) l (0 : Fin 1)) = Cert.Spec.rowWord (x2 (ix2 b l)) := by
  have e : idx_main_call1_v5 (ix4 b (0 : Fin 1) l (0 : Fin 1)) = ix3 b (0 : Fin 1) l :=
    funext fun a => Fin.ext (by
      match a with
      | ⟨0, _⟩ => show (((b.val * 1 + 0) * 8192 + l.val) * 1 + 0) / 8192 = b.val; have := l.isLt; omega
      | ⟨1, _⟩ => rfl
      | ⟨2, _⟩ => show (((b.val * 1 + 0) * 8192 + l.val) * 1 + 0) % 8192 = l.val; have := l.isLt; omega)
  rw [val_main_call1_v5_apply, e, val_main_call1_v4_apply, val_main_call1_v1_apply, val_main_call1_v0_apply,
    val_main_call1_c_apply, bword_at, slt_zero_of_lt (Cert.Spec.rowWord_toNat_lt h), select_zero]

/-- The bounds test at `(b, 0, l)`, for a label in range, is true. -/
theorem inbounds_at (b : Fin 32) (l : Fin 8192) (h : Cert.Spec.InRange (x2 (ix2 b l))) :
    val_main_call1_v12 (F := Ideal) x2 (ix3 b (0 : Fin 1) l) = 1#1 := by
  unfold val_main_call1_v12
  rw [and_at, val_main_call1_v11_apply, val_main_call1_v7_apply, val_main_call1_v10_apply, val_main_call1_v6_apply,
    val_main_call1_c_2_apply, val_main_call1_v9_apply, val_main_call1_v8_apply, val_main_call1_c_1_apply, start_at x2 b l h,
    sge_zero_of_lt (Cert.Spec.rowWord_toNat_lt h), sle_31_of_lt (Cert.Spec.rowWord_toNat_lt h), val_main_call1_c_3_apply]
  rfl

/-- The reference's picked probability at `(b, l)`, for labels in range: the softmax of the similarity column at the
    label's row. -/
theorem ref_picked (x0 : (⟨S32x32x256, .f32⟩ : BufTy).Contents (Elt Ideal)) (x1 : (⟨S32x8192x256, .f32⟩ : BufTy).Contents (Elt Ideal))
    (x2 : (⟨S32x8192, .i32⟩ : BufTy).Contents (Elt Ideal)) (hL : ∀ j, Cert.Spec.InRange (x2 j)) (b : Fin 32) (l : Fin 8192) :
    val_main_v21 (F := Ideal) x0 x1 x2 (ix2 b l) = Cert.Spec.picked (Cert.Spec.sim x0 x1) x2 b l := by
  have h := hL (ix2 b l)
  have e : idx_main_v21 (ix2 b l) = ix3 b (0 : Fin 1) l :=
    funext fun a => Fin.ext (by
      match a with
      | ⟨0, _⟩ => show (b.val * 8192 + l.val) / 8192 = b.val; have := l.isLt; omega
      | ⟨1, _⟩ => rfl
      | ⟨2, _⟩ => show (b.val * 8192 + l.val) % 8192 = l.val; have := l.isLt; omega)
  have hr : val_main_call1_v5 (F := Ideal) x2 (ix4 b (0 : Fin 1) l (0 : Fin 1))
      = BitVec.ofNat 32 (Cert.Spec.rowOf (x2 (ix2 b l))).val := by
    rw [start_at x2 b l h, Cert.Spec.rowWord_of_inRange h]
  rw [val_main_v21_apply, e, val_main_v20_apply, inbounds_at x2 b l h, select_one]
  unfold val_main_call1_v13
  rw [gather_at _ b l _ _ hr, pick_at]
  rfl

end Cert.ReferenceIdeal.RefPick

end
-- ==== Proof.RefGram.lean ====
/-
  The reference program's two Gram terms (orthogonality and size), as batch means over the extended reals.
-/
import proofs.«430811_j35107062677773_3_alg».proof.Proof.RefReadP
import proofs.«430811_j35107062677773_3_alg».proof.Proof.Spec
import proofs.«430811_j35107062677773_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefGram

open Idealize.ShloMosaic Idealize.ShloMosaic.ValueIdx Cert.ReferenceIdeal Cert.ReferenceIdeal.Gen Cert.ReferenceIdeal.ReadP

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The Gram matrix at an index -/

/-- The batched product of the query with itself at `(b, i, p)` is the Gram entry of rows `i` and `p` of batch row `b`. -/
theorem gram_apply (x0 : (⟨S32x32x256, .f32⟩ : BufTy).Contents (Elt Ideal)) (b i p : Fin 32) :
    val_main_v29 (F := Ideal) x0 (ix3 b i p) = Cert.Spec.gram x0 b i p := by
  rw [val_main_v29_apply]
  unfold Cert.Spec.gram
  refine Finset.sum_congr rfl fun d _ => ?_
  have el : lidx_main_v29 (ix3 b i p) d = ix3 b i d :=
    funext fun a => Fin.ext (by match a with | ⟨0, _⟩ => rfl | ⟨1, _⟩ => rfl | ⟨2, _⟩ => rfl)
  have er : ridx_main_v29 (ix3 b i p) d = ix3 b p d :=
    funext fun a => Fin.ext (by match a with | ⟨0, _⟩ => rfl | ⟨1, _⟩ => rfl | ⟨2, _⟩ => rfl)
  rw [el, er]

/-! ## The off-diagonal mask -/

/-- The comparison of the two iotas: the word `1` on the diagonal, `0` off it. -/
theorem eye_word (i p : Fin 32) :
    IntOp.cmpi .eq (IntOp.addi (BitVec.ofNat 32 i.val) 0#32) (BitVec.ofNat 32 p.val) = if i = p then 1#1 else 0#1 := by
  have hi := i.isLt
  have hp := p.isLt
  by_cases h : i = p
  · subst h
    rw [if_pos rfl]
    simp [IntOp.cmpi, IntOp.addi]
  · rw [if_neg h]
    have hne : BitVec.ofNat 32 i.val ≠ BitVec.ofNat 32 p.val := by
      intro e
      apply h
      have := congrArg BitVec.toNat e
      simp only [BitVec.toNat_ofNat, Nat.reducePow] at this
      exact Fin.ext (by omega)
    have hb : (BitVec.ofNat 32 i.val == BitVec.ofNat 32 p.val) = false := beq_eq_false_iff_ne.mpr hne
    simp only [IntOp.cmpi, IntOp.addi, BitVec.add_zero, hb]
    rfl

/-- One minus the identity matrix at `(i, p)`: `0` on the diagonal, `1` off it. -/
theorem mask_apply (i p : Fin 32) :
    val_main_v38 (F := Ideal) (ix2 i p) = if i = p then (0 : EReal) else ((1 : ℝ) : EReal) := by
  rw [val_main_v38_apply, val_main_v37_apply, val_main_cst_11_apply, val_main_v35_apply, val_main_v34_apply,
    val_main_v33_apply, val_main_v30_apply, val_main_v31_apply, val_main_v32_apply, val_main_c_10_apply]
  show Ideal.ofBits .f32 0x3F800000#32
      - (((IntOp.cmpi .eq (IntOp.addi (BitVec.ofNat 32 i.val) 0#32) (BitVec.ofNat 32 p.val)).toNat : ℝ) : EReal) = _
  rw [eye_word, Cert.Consts.ofBits_one]
  by_cases h : i = p
  · rw [if_pos h, if_pos h]
    have e1 : (((1#1 : BitVec 1).toNat : ℝ) : EReal) = ((1 : ℝ) : EReal) := by
      rw [show (1#1 : BitVec 1).toNat = 1 from rfl, Nat.cast_one]
    rw [e1, ← EReal.coe_sub, sub_self, EReal.coe_zero]
  · rw [if_neg h, if_neg h]
    have e0 : (((0#1 : BitVec 1).toNat : ℝ) : EReal) = 0 := by
      rw [show (0#1 : BitVec 1).toNat = 0 from rfl, Nat.cast_zero, EReal.coe_zero]
    rw [e0, sub_zero]

/-- The masked absolute Gram entry at `(b, i, p)`. -/
theorem term_apply (x0 : (⟨S32x32x256, .f32⟩ : BufTy).Contents (Elt Ideal)) (b i p : Fin 32) :
    val_main_v41 (F := Ideal) x0 (ix3 b i p)
      = max (Cert.Spec.gram x0 b i p) (-(Cert.Spec.gram x0 b i p)) * (if i = p then (0 : EReal) else ((1 : ℝ) : EReal)) := by
  rw [val_main_v41_apply, val_main_v36_apply, val_main_v40_apply, val_main_v39_apply]
  have e : idx_main_v39 (idx_main_v40 (ix3 b i p)) = ix2 i p :=
    funext fun a => Fin.ext (by match a with | ⟨0, _⟩ => rfl | ⟨1, _⟩ => rfl)
  rw [e, mask_apply, gram_apply]
  rfl

/-! ## The sum over the two trailing axes -/

/-- Dropping the two trailing coordinates of `(a, i, p)` leaves `a`. -/
theorem drop12 (h' : S32x32x32.ReducesTo [1, 2] S32) (a i p : Fin 32) : h'.drop (ix3 a i p) = ix1 a := by
  funext c
  refine Fin.ext ?_
  have hc : c = (0 : Fin S32.rank) := Fin.ext (by have : c.val < 1 := c.isLt; show c.val = 0; omega)
  subst hc
  exact Shape.ReducesTo.drop_apply_val_of_eq h' (ix3 a i p) 0 0

/-- The float sum over the two trailing axes of a `[32, 32, 32]` array at `b`: the initial value plus the double sum
    over both coordinates. -/
theorem hostReduceAdd_12 (h' : S32x32x32.ReducesTo [1, 2] S32) (y : S32x32x32.Idx → EReal) (init : EReal) (b : Fin 32) :
    Ideal.hostReduceAdd h' y init (ix1 b) = init + ∑ i : Fin 32, ∑ p : Fin 32, y (ix3 b i p) := by
  unfold Ideal.hostReduceAdd
  congr 1
  rw [Finset.sum_filter, sum_idx3]
  simp only [drop12]
  rw [Finset.sum_eq_single b]
  · simp
  · intro a _ hab
    have hne : ¬ ix1 a = ix1 b := fun e => hab (congrFun e 0)
    simp [hne]
  · simp

/-- The reference's sum over both trailing axes of the masked absolute Gram matrix, at `b`. -/
theorem v42_apply (x0 : (⟨S32x32x256, .f32⟩ : BufTy).Contents (Elt Ideal)) (b : Fin 32) :
    val_main_v42 (F := Ideal) x0 (ix1 b) = ∑ i : Fin 32, ∑ p : Fin 32, val_main_v41 (F := Ideal) x0 (ix3 b i p) := by
  unfold val_main_v42
  generalize val_main_v41 (F := Ideal) x0 = y0
  simp only [Host.reduceAdd, Ideal.hostReduceAdd_def]
  rw [hostReduceAdd_12, val_main_cst_12_apply]
  show Ideal.ofBits .f32 0x00000000#32 + _ = _
  rw [Cert.Consts.ofBits_zero, zero_add]

/-! ## The diagonal gather -/

/-- An iota word below 32 is not negative, so the normalised index word of row `n` is `n` itself. -/
theorem diag_word : ∀ n : Fin 32,
    Scalar.select (IntOp.cmpi .slt (BitVec.ofNat 32 n.val) 0#32) (IntOp.addi (BitVec.ofNat 32 n.val) 32#32)
      (BitVec.ofNat 32 n.val) = BitVec.ofNat 32 n.val := by
  decide

/-- Read signed, that word is `n`. -/
theorem diag_word_toNat : ∀ n : Fin 32, (BitVec.ofNat 32 n.val).toInt.toNat = n.val := by
  decide

/-- The first normalised index column at row `n`. -/
theorem v6_apply (n : Fin 32) : val_main_call2_v6 (F := Ideal) (ix1 n) = BitVec.ofNat 32 n.val := by
  rw [val_main_call2_v6_apply, val_main_call2_v3_apply, val_main_call2_v5_apply, val_main_call2_v0_apply,
    val_main_call2_v2_apply, val_main_call2_c_apply, val_main_call2_v4_apply, val_main_call2_c_0_apply]
  exact diag_word n

/-- The second normalised index column at row `n`. -/
theorem v11_apply (n : Fin 32) : val_main_call2_v11 (F := Ideal) (ix1 n) = BitVec.ofNat 32 n.val := by
  rw [val_main_call2_v11_apply, val_main_call2_v8_apply, val_main_call2_v10_apply, val_main_call2_v1_apply,
    val_main_call2_v7_apply, val_main_call2_c_1_apply, val_main_call2_v9_apply, val_main_call2_c_2_apply]
  exact diag_word n

/-- The index pair of row `n`, first component. -/
theorem v14_apply0 (n : Fin 32) : val_main_call2_v14 (F := Ideal) (ix2 n (0 : Fin 2)) = BitVec.ofNat 32 n.val := by
  unfold val_main_call2_v14
  refine (concatenate_pair_apply_left (t := S32x2) (s₁ := S32x1) (s₂ := S32x1) (1 : Fin S32x2.rank) _ _ _ (ix2 n (0 : Fin 2)) rfl (ix2 n (0 : Fin 1))
    (fun c => by match c with | ⟨0, _⟩ => rfl | ⟨1, _⟩ => rfl)).trans ?_
  rw [val_main_call2_v12_apply]
  have e : idx_main_call2_v12 (ix2 n (0 : Fin 1)) = ix1 n :=
    funext fun a => Fin.ext (by match a with | ⟨0, _⟩ => rfl)
  rw [e, v6_apply]

/-- The index pair of row `n`, second component. -/
theorem v14_apply1 (n : Fin 32) : val_main_call2_v14 (F := Ideal) (ix2 n (1 : Fin 2)) = BitVec.ofNat 32 n.val := by
  unfold val_main_call2_v14
  refine (concatenate_pair_apply_right (t := S32x2) (s₁ := S32x1) (s₂ := S32x1) (1 : Fin S32x2.rank) _ _ _ (ix2 n (1 : Fin 2)) rfl rfl (ix2 n (0 : Fin 1))
    (fun c => by match c with | ⟨0, _⟩ => exact fun _ => rfl | ⟨1, _⟩ => exact fun hne => absurd rfl hne) rfl).trans ?_
  rw [val_main_call2_v13_apply]
  have e : idx_main_call2_v13 (ix2 n (0 : Fin 1)) = ix1 n :=
    funext fun a => Fin.ext (by match a with | ⟨0, _⟩ => rfl)
  rw [e, v11_apply]

/-- The gather's operand index at result `(b, i)`, leading axis: the offset coordinate `b`. -/
theorem opIdx_0 (idx : IVec S32x2 32) (b i : Fin 32) :
    (gather_S32x32x32_S32x2_S32x32_0_12_n_n_12_1_3211.operandIdx (ix2 b i) idx 0).val = b.val := by
  show gather_S32x32x32_S32x2_S32x32_0_12_n_n_12_1_3211.start (ix2 b i) idx 0
    + gather_S32x32x32_S32x2_S32x32_0_12_n_n_12_1_3211.batchCoord (ix2 b i) 0
    + gather_S32x32x32_S32x2_S32x32_0_12_n_n_12_1_3211.offCoord (ix2 b i) 0 = _
  rw [GatherDims.batchCoord_eq_zero _ _ _ List.not_mem_nil]
  unfold GatherDims.start GatherDims.offCoord
  rw [dif_neg (show ¬ (0 : Fin S32x32x32.rank) ∈ gather_S32x32x32_S32x2_S32x32_0_12_n_n_12_1_3211.startIndexMap by decide),
    dif_pos (show (0 : Fin S32x32x32.rank) ∈ gather_S32x32x32_S32x2_S32x32_0_12_n_n_12_1_3211.sKept by decide)]
  simp only [Nat.zero_add, Nat.add_zero]
  rfl

/-- Middle axis: the first component of the start index of row `i`, read signed and clamped into `[0, 31]`. -/
theorem opIdx_1 (idx : IVec S32x2 32) (b i : Fin 32) :
    (gather_S32x32x32_S32x2_S32x32_0_12_n_n_12_1_3211.operandIdx (ix2 b i) idx 1).val
      = min (idx (ix2 i (0 : Fin 2))).toInt.toNat 31 := by
  show gather_S32x32x32_S32x2_S32x32_0_12_n_n_12_1_3211.start (ix2 b i) idx 1
    + gather_S32x32x32_S32x2_S32x32_0_12_n_n_12_1_3211.batchCoord (ix2 b i) 1
    + gather_S32x32x32_S32x2_S32x32_0_12_n_n_12_1_3211.offCoord (ix2 b i) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S32x32x32.rank) ∈ gather_S32x32x32_S32x2_S32x32_0_12_n_n_12_1_3211.startIndexMap by decide)]
  have hsi : gather_S32x32x32_S32x2_S32x32_0_12_n_n_12_1_3211.siIdx (ix2 b i)
      ⟨List.idxOf (1 : Fin S32x32x32.rank) gather_S32x32x32_S32x2_S32x32_0_12_n_n_12_1_3211.startIndexMap,
        List.idxOf_lt_length_iff.2 (by decide)⟩ = ix2 i (0 : Fin 2) := by
    funext c; refine Fin.ext ?_
    match c with
    | ⟨0, _⟩ => rfl
    | ⟨1, _⟩ => rfl
  rw [hsi]
  rfl

/-- Trailing axis: the second component likewise. -/
theorem opIdx_2 (idx : IVec S32x2 32) (b i : Fin 32) :
    (gather_S32x32x32_S32x2_S32x32_0_12_n_n_12_1_3211.operandIdx (ix2 b i) idx 2).val
      = min (idx (ix2 i (1 : Fin 2))).toInt.toNat 31 := by
  show gather_S32x32x32_S32x2_S32x32_0_12_n_n_12_1_3211.start (ix2 b i) idx 2
    + gather_S32x32x32_S32x2_S32x32_0_12_n_n_12_1_3211.batchCoord (ix2 b i) 2
    + gather_S32x32x32_S32x2_S32x32_0_12_n_n_12_1_3211.offCoord (ix2 b i) 2 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (2 : Fin S32x32x32.rank) ∈ gather_S32x32x32_S32x2_S32x32_0_12_n_n_12_1_3211.startIndexMap by decide)]
  have hsi : gather_S32x32x32_S32x2_S32x32_0_12_n_n_12_1_3211.siIdx (ix2 b i)
      ⟨List.idxOf (2 : Fin S32x32x32.rank) gather_S32x32x32_S32x2_S32x32_0_12_n_n_12_1_3211.startIndexMap,
        List.idxOf_lt_length_iff.2 (by decide)⟩ = ix2 i (1 : Fin 2) := by
    funext c; refine Fin.ext ?_
    match c with
    | ⟨0, _⟩ => rfl
    | ⟨1, _⟩ => rfl
  rw [hsi]
  rfl

/-- The gather with the index pair `(i, i)` at row `i` reads the operand's diagonal: `(b, i) ↦ (b, i, i)`. -/
theorem gather_diag {α : Type} (y : S32x32x32.Idx → α) (idx : IVec S32x2 32) (b i : Fin 32)
    (h0 : idx (ix2 i (0 : Fin 2)) = BitVec.ofNat 32 i.val) (h1 : idx (ix2 i (1 : Fin 2)) = BitVec.ofNat 32 i.val) :
    Host.gather gather_S32x32x32_S32x2_S32x32_0_12_n_n_12_1_3211 y idx (ix2 b i) = y (ix3 b i i) := by
  unfold Host.gather
  refine congrArg y (funext fun a => Fin.ext ?_)
  have hi := i.isLt
  match a with
  | ⟨0, _⟩ => exact opIdx_0 idx b i
  | ⟨1, _⟩ =>
    refine (opIdx_1 idx b i).trans ?_
    rw [h0, diag_word_toNat]
    show min i.val 31 = i.val
    omega
  | ⟨2, _⟩ =>
    refine (opIdx_2 idx b i).trans ?_
    rw [h1, diag_word_toNat]
    show min i.val 31 = i.val
    omega

/-- The reference's diagonal of the Gram matrix at `(b, i)`. -/
theorem v49_apply (x0 : (⟨S32x32x256, .f32⟩ : BufTy).Contents (Elt Ideal)) (b i : Fin 32) :
    val_main_v49 (F := Ideal) x0 (ix2 b i) = Cert.Spec.gram x0 b i i := by
  unfold val_main_v49
  rw [gather_diag _ _ b i (v14_apply0 i) (v14_apply1 i), gram_apply]

/-- The clipped complement of the diagonal entry at `(b, i)`. -/
theorem v53_apply' (x0 : (⟨S32x32x256, .f32⟩ : BufTy).Contents (Elt Ideal)) (b i : Fin 32) :
    val_main_v53 (F := Ideal) x0 (ix2 b i) = max (((1 : ℝ) : EReal) - Cert.Spec.gram x0 b i i) 0 := by
  rw [val_main_v53_apply, val_main_v51_apply, val_main_v50_apply, val_main_cst_17_apply, val_main_v52_apply,
    val_main_cst_18_apply, v49_apply]
  simp only [Ideal.maximumf_def, Ideal.subf_def, Ideal.ofBits_def, Cert.Consts.ofBits_one, Cert.Consts.ofBits_zero]

/-- The reference's orthogonality term of batch row `b`. -/
theorem ref_ortho_row (x0 : (⟨S32x32x256, .f32⟩ : BufTy).Contents (Elt Ideal)) (b : Fin 32) :
    val_main_v46 (F := Ideal) x0 (ix1 b) = Cert.Spec.ortho x0 b := by
  rw [val_main_v46_apply, val_main_v44_apply, val_main_v43_apply, val_main_cst_13_apply, val_main_v45_apply,
    val_main_cst_14_apply, v42_apply]
  simp only [term_apply]
  unfold Cert.Spec.ortho
  simp only [Ideal.hostDivf_def, Ideal.mulf_def, Ideal.ofBits_def, Cert.Consts.ofBits_half, Cert.Consts.ofBits_496]
  rw [mul_comm]

/-- The reference's size term of batch row `b`. -/
theorem ref_size_row (x0 : (⟨S32x32x256, .f32⟩ : BufTy).Contents (Elt Ideal)) (b : Fin 32) :
    val_main_v56 (F := Ideal) x0 (ix1 b) = Cert.Spec.size x0 b := by
  rw [val_main_v56_apply, val_main_v54_apply, val_main_cst_19_apply, val_main_v55_apply, val_main_cst_20_apply]
  have e : ∀ k : Fin 32, idx_main_v54 (ix1 b) k = ix2 b k := fun k =>
    funext fun a => Fin.ext (by match a with | ⟨0, _⟩ => rfl | ⟨1, _⟩ => rfl)
  simp only [e, v53_apply']
  unfold Cert.Spec.size
  simp only [Ideal.hostDivf_def, Ideal.ofBits_def, Cert.Consts.ofBits_zero, Cert.Consts.ofBits_31, zero_add]

end Cert.ReferenceIdeal.RefGram

end
-- ==== Proof.RefMean.lean ====
/-
  The reference program's result: the batch means of its three terms, combined.
-/
import proofs.«430811_j35107062677773_3_alg».proof.Proof.RefPick
import proofs.«430811_j35107062677773_3_alg».proof.Proof.RefGram

noncomputable section

namespace Cert.ReferenceIdeal.RefMean

open Idealize.ShloMosaic Idealize.ShloMosaic.ValueIdx Cert.ReferenceIdeal Cert.ReferenceIdeal.Gen Cert.ReferenceIdeal.ReadP

/-- A sum over a rank-1 index set is the sum over its one coordinate. -/
theorem sum_idx1 {n : Nat} (f : (⟨1, ![n]⟩ : Shape).Idx → EReal) :
    ∑ j, f j = ∑ b : Fin n, f (ix1 b) := by
  let e : (⟨1, ![n]⟩ : Shape).Idx ≃ Fin n :=
    ⟨fun i => i 0, fun b => ix1 b, fun i => (eq_ix1 i).symm, fun _ => rfl⟩
  exact (Equiv.sum_comp e.symm f).symm

/-- The sum from zero of 32 numbers, divided by 32, is their mean. -/
theorem mean_of_rows (y : S32.Idx → EReal) (f : Fin 32 → EReal) (h : ∀ b, y (ix1 b) = f b) :
    Ideal.div ((0 : EReal) + ∑ j : S32.Idx, y j) ((32 : ℝ) : EReal) = Cert.Spec.mean32 f := by
  unfold Cert.Spec.mean32
  rw [zero_add, sum_idx1 y]
  exact congrArg (fun s => Ideal.div s ((32 : ℝ) : EReal)) (Finset.sum_congr rfl fun b _ => h b)

/-- The contrastive term of batch row `b`: the sum over the text positions of one minus the picked probability,
    divided by 8192, which on every extended real is the product with 1/8192. -/
theorem ref_contrastive_row (x0 : (⟨S32x32x256, .f32⟩ : BufTy).Contents (Elt Ideal)) (x1 : (⟨S32x8192x256, .f32⟩ : BufTy).Contents (Elt Ideal))
    (x2 : (⟨S32x8192, .i32⟩ : BufTy).Contents (Elt Ideal)) (hL : ∀ j, Cert.Spec.InRange (x2 j)) (b : Fin 32) :
    val_main_v26 (F := Ideal) x0 x1 x2 (ix1 b) = Cert.Spec.contrastive (Cert.Spec.sim x0 x1) x2 b := by
  have hidx : ∀ l : Fin 8192, idx_main_v24 (ix1 b) l = ix2 b l := fun l =>
    funext fun a => Fin.ext (by match a with | ⟨0, _⟩ => rfl | ⟨1, _⟩ => rfl)
  rw [val_main_v26_apply, val_main_v24_apply, val_main_v25_apply, val_main_cst_7_apply, val_main_cst_6_apply]
  simp only [Ideal.hostDivf_def, Ideal.ofBits_def, Cert.Consts.ofBits_zero, Cert.Consts.ofBits_8192, zero_add]
  rw [Ideal.div_coe (by norm_num : (8192 : ℝ) ≠ 0)]
  unfold Cert.Spec.contrastive
  refine congrArg (· * ((1 / 8192 : ℝ) : EReal)) (Finset.sum_congr rfl fun l _ => ?_)
  rw [val_main_v23_apply, val_main_v22_apply, val_main_cst_5_apply, hidx l,
    Cert.ReferenceIdeal.RefPick.ref_picked x0 x1 x2 hL b l]
  simp only [Ideal.subf_def, Ideal.ofBits_def, Cert.Consts.ofBits_one]

/-- The reference's result is the loss over the similarity scaled after the inner product, for labels in range. -/
theorem ref_loss (x0 : (⟨S32x32x256, .f32⟩ : BufTy).Contents (Elt Ideal)) (x1 : (⟨S32x8192x256, .f32⟩ : BufTy).Contents (Elt Ideal))
    (x2 : (⟨S32x8192, .i32⟩ : BufTy).Contents (Elt Ideal)) (hL : ∀ j, Cert.Spec.InRange (x2 j)) :
    val_main_v62 (F := Ideal) x0 x1 x2 ix0 = Cert.Spec.loss (Cert.Spec.sim x0 x1) x0 x2 := by
  rw [val_main_v62_apply, val_main_v60_apply, val_main_v61_apply, val_main_v59_apply,
    val_main_v28_apply, val_main_v58_apply, val_main_v48_apply,
    val_main_v27_apply, val_main_v57_apply, val_main_v47_apply,
    val_main_cst_8_apply, val_main_cst_9_apply, val_main_cst_21_apply, val_main_cst_22_apply,
    val_main_cst_15_apply, val_main_cst_16_apply, val_main_cst_23_apply, val_main_cst_24_apply]
  simp only [Ideal.hostDivf_def, Ideal.addf_def, Ideal.mulf_def, Ideal.ofBits_def,
    Cert.Consts.ofBits_zero, Cert.Consts.ofBits_32, Cert.Consts.ofBits_half]
  rw [mean_of_rows _ _ (ref_contrastive_row x0 x1 x2 hL),
    mean_of_rows _ _ (Cert.ReferenceIdeal.RefGram.ref_size_row x0),
    mean_of_rows _ _ (Cert.ReferenceIdeal.RefGram.ref_ortho_row x0)]
  rfl

end Cert.ReferenceIdeal.RefMean

end
-- ==== Proof.PreDecode.lean ====
/-
  What the precondition says of the argument arrays: every query and text entry is a real number, and every label
  word is `-1` or lies between `1` and `32`.
-/
import proofs.«430811_j35107062677773_3_alg».proof.Pre_finite_inputs
import proofs.«430811_j35107062677773_3_alg».proof.Proof.Gen.Pre_finite_inputs
import proofs.«430811_j35107062677773_3_alg».proof.Proof.Spec
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

attribute [local instance] Cert.Pre_finite_inputs.Gen.facts

/-- The result of a reduction over every axis has one index. -/
instance : Subsingleton S_.Idx := ⟨fun a b => funext fun d => d.elim0⟩

/-- The word `0x7F800000` is `+∞`. -/
theorem ofBits_inf : Ideal.ofBits .f32 0x7F800000#32 = ⊤ := by simp [Ideal.ofBits, Ideal.ieee]

/-- An ordered "less than" that came out true is the strict order of the extended reals. -/
theorem lt_of_cmp_olt {x y : EReal} (hxy : Ideal.cmp .olt x y = 1#1) : x < y := by
  unfold Ideal.cmp at hxy
  exact of_decide_eq_true ((StableHlo.Predicate.ofBool_eq_one_iff _).1 hxy)

/-- An extended real whose absolute value is below `+∞` is a real number. -/
theorem real_of_abs_lt_top (x : EReal) (hx : max x (-x) < ⊤) : ∃ r : ℝ, x = (r : EReal) := by
  induction x using EReal.rec with
  | bot => simp at hx
  | top => simp at hx
  | coe r => exact ⟨r, rfl⟩

/-- The element test of the finiteness conjuncts: `|x| < +∞` came out true, so `x` is a real number. -/
theorem real_of_test (x : EReal)
    (hx : Ideal.cmp .olt (max x (-x)) (Ideal.ofBits .f32 0x7F800000#32) = 1#1) : ∃ r : ℝ, x = (r : EReal) := by
  rw [ofBits_inf] at hx
  exact real_of_abs_lt_top x (lt_of_cmp_olt hx)

/-- The element test of the label conjunct: the word equals `-1`, or it is at least `1` and at most `32` as a signed
    number; a word that is positive as a signed number and at most `32` has that same value unsigned. -/
theorem inRange_of_test (w : BitVec 32)
    (hw : IntOp.ori (IntOp.cmpi .eq w 4294967295#32) (IntOp.andi (IntOp.cmpi .sge w 1#32) (IntOp.cmpi .sle w 32#32)) = 1#1) :
    Cert.Spec.InRange w := by
  rcases IntOp.ori_eq_one.1 hw with h | h
  · exact Or.inl (IntOp.cmpi_eq.1 h)
  · obtain ⟨h1, h2⟩ := IntOp.andi_eq_one.1 h
    rw [IntOp.cmpi_sge, show (1#32 : BitVec 32).toInt = 1 from by decide] at h1
    rw [IntOp.cmpi_sle, show (32#32 : BitVec 32).toInt = 32 from by decide] at h2
    refine Or.inr ?_
    have hc := BitVec.toInt_eq_toNat_cond w
    have hlt := w.isLt
    split at hc <;> omega

theorem decode (Q : FVec Ideal S32x32x256 .f32) (T : FVec Ideal S32x8192x256 .f32) (Lb : IVec S32x8192 32) (O : IVec S32 32)
    (h : Cert.Pre_finite_inputs.fn (F := Ideal) Q T Lb O = fun _ => 1#1) :
    (∀ j, ∃ r : ℝ, Q j = (r : EReal)) ∧ (∀ j, ∃ r : ℝ, T j = (r : EReal)) ∧ (∀ j, Cert.Spec.InRange (Lb j)) := by
  have e := congrFun h ValueIdx.ix0
  dsimp only [Cert.Pre_finite_inputs.fn, Cert.Pre_finite_inputs.fn_part1] at e
  obtain ⟨e12, e3⟩ := IntOp.andi_eq_one.1 e
  obtain ⟨e1, e2⟩ := IntOp.andi_eq_one.1 e12
  refine ⟨fun j => ?_, fun j => ?_, fun j => ?_⟩
  · exact real_of_test (Q j) (Host.reduce_andi_all _ _ _ _ _ e1 j)
  · exact real_of_test (T j) (Host.reduce_andi_all _ _ _ _ _ e2 j)
  · exact inRange_of_test (Lb j) (Host.reduce_andi_all _ _ _ _ _ e3 j)

end Cert.PreDecode

end
-- ==== Proof.lean ====
/-
  The certificate's claim: the word-level kernel, its idealization and the reference each run to completion with their
  arguments unchanged, and over the extended reals the idealized kernel and the reference end with the same loss.

  Both programs compute, per batch row, a contrastive term (the mean over text positions of one minus the softmax,
  along the query axis, of the scaled query–text similarities, read at the row the label names) and two terms of the
  query Gram matrix, and combine their batch means.  The kernel scales the query factor by 1/16 before the inner product
  and the reference scales the inner product; for real entries these agree, which is where the finiteness of the inputs
  is used.  The kernel sums the contrastive term tile by tile into an accumulator and multiplies by 1/8192 where the
  reference divides the whole sum by 8192; it picks the softmax entry by comparing the row number with the label's row
  and summing, where the reference gathers; for a label that is `-1` or between `1` and `32` these are the same entry.
-/
import proofs.«430811_j35107062677773_3_alg».proof.Defs
import proofs.«430811_j35107062677773_3_alg».proof.Proof.Gen.Kernel
import proofs.«430811_j35107062677773_3_alg».proof.Proof.Gen.KernelIdeal
import proofs.«430811_j35107062677773_3_alg».proof.Proof.Gen.ReferenceIdeal
import proofs.«430811_j35107062677773_3_alg».proof.Proof.Gen.Pre_finite_inputs
import proofs.«430811_j35107062677773_3_alg».proof.Proof.BodyBits
import proofs.«430811_j35107062677773_3_alg».proof.Proof.KValue
import proofs.«430811_j35107062677773_3_alg».proof.Proof.RefMean
import proofs.«430811_j35107062677773_3_alg».proof.Proof.PreDecode
import Idealize.ShloMosaic.Adequacy
import Idealize.ShloMosaic.Init

noncomputable section

namespace Cert.Proof

open Idealize.ShloMosaic Idealize.ShloMosaic.ValueIdx Idealize.SL.Sem

attribute [local instance] Cert.Kernel.Gen.facts Cert.KernelIdeal.Gen.facts Cert.ReferenceIdeal.Gen.facts Cert.Pre_finite_inputs.Gen.facts

/-- The word-level kernel's frame. -/
theorem frame_k : Cert.frame_Kernel := fun m ρ _ => Cert.Kernel.Body.frame m ρ

/-- The idealized kernel's frame. -/
theorem frame_ki : Cert.frame_KernelIdeal := fun m ρ _ => Cert.KernelIdeal.Body.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals both programs end with the loss of the argument arrays. -/
theorem algebraic : Cert.algebraic_KernelIdeal_ReferenceIdeal := by
  intro m ρ m' ρ' hpre hagree
  have hdec := fun c => Cert.PreDecode.decode _ _ _ _ (hpre c)
  refine ⟨fun c => fun _ => Cert.Spec.loss
      (Cert.Spec.sim (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KValue.run m ρ fun c => (hdec c).2.2)
    rw [Cert.Spec.simScaled_eq_sim _ _ (hdec c).1 (hdec c).2.1]
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v62_eq, (hagree c).1, (hagree c).2.1, (hagree c).2.2.1]
    funext i
    rw [eq_ix0 i]
    exact Cert.ReferenceIdeal.RefMean.ref_loss _ _ _ (hdec c).2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
